-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S256x512 : Shape := ⟨2, ![256, 512]⟩
abbrev S512 : Shape := ⟨1, ![512]⟩
abbrev S512x256 : Shape := ⟨2, ![512, 256]⟩
abbrev S256 : Shape := ⟨1, ![256]⟩
abbrev S2x320000 : Shape := ⟨2, ![2, 320000]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S2x320000 : S_.BroadcastsInDim S2x320000 (![] : Fin 0 → Fin S2x320000.rank)
  reducesTo_S2x320000_S_d0_1 : S2x320000.ReducesTo [0, 1] S_

variable [Facts]

def fn_part1 {F : FTy → Type} [FloatOps F] (main_arg4 : FVec F S256 .f32) (main_arg5 : IVec S2x320000 32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_c_8 : IVec S_ 32 := constantI S_ 32 0#32
  let main_v24 : IVec S2x320000 32 := broadcastInDim S2x320000 ![] bcast_S_S2x320000 main_c_8
  let main_v25 : IVec S2x320000 1 := cmpi .sge main_arg5 main_v24
  let main_c_9 : IVec S_ 32 := constantI S_ 32 10000#32
  let main_v26 : IVec S2x320000 32 := broadcastInDim S2x320000 ![] bcast_S_S2x320000 main_c_9
  let main_v27 : IVec S2x320000 1 := cmpi .slt main_arg5 main_v26
  let main_v28 : IVec S2x320000 1 := andi main_v25 main_v27
  let main_c_10 : IVec S_ 1 := constantI S_ 1 1#1
  let main_v29 : IVec S_ 1 := (fun x v => Host.reduce IntOp.andi x v reducesTo_S2x320000_S_d0_1 h_S_) main_v28 main_c_10
  let main_v30 : IVec S_ 1 := andi main_v23 main_v29
  main_v30

def fn {F : FTy → Type} [FloatOps F] (main_arg0 : FVec F S10000x256 .f32) (main_arg1 : FVec F S256x512 .f32) (main_arg2 : FVec F S512 .f32) (main_arg3 : FVec F S512x256 .f32) (main_arg4 : FVec F S256 .f32) (main_arg5 : IVec S2x320000 32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S256x512 .f32 := Host.absf main_arg1
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x256 .f32 := Host.absf main_arg3
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg4 main_arg5 main_v13 main_v16
-- ==== Kernel.lean ====
abbrev S10000x256 : Shape := ⟨2, ![10000, 256]⟩
abbrev S256x512 : Shape := ⟨2, ![256, 512]⟩
abbrev S512 : Shape := ⟨1, ![512]⟩
abbrev S512x256 : Shape := ⟨2, ![512, 256]⟩
abbrev S256 : Shape := ⟨1, ![256]⟩
abbrev S2x320000 : Shape := ⟨2, ![2, 320000]⟩
abbrev S_ : Shape := ⟨0, ![]⟩
abbrev S10240x256 : Shape := ⟨2, ![10240, 256]⟩
abbrev S1x512 : Shape := ⟨2, ![1, 512]⟩
abbrev S1x256 : Shape := ⟨2, ![1, 256]⟩
abbrev S1x320000 : Shape := ⟨2, ![1, 320000]⟩
abbrev S320000 : Shape := ⟨1, ![320000]⟩
abbrev S10240 : Shape := ⟨1, ![10240]⟩
abbrev S320000x1 : Shape := ⟨2, ![320000, 1]⟩
abbrev S330240 : Shape := ⟨1, ![330240]⟩
abbrev S10240x10240 : Shape := ⟨2, ![10240, 10240]⟩
abbrev S330240x1 : Shape := ⟨2, ![330240, 1]⟩
abbrev S330240x2 : Shape := ⟨2, ![330240, 2]⟩
abbrev S10240x512 : Shape := ⟨2, ![10240, 512]⟩
abbrev S1280x256 : Shape := ⟨2, ![1280, 256]⟩
abbrev S1280x512 : Shape := ⟨2, ![1280, 512]⟩
abbrev S256x10240 : Shape := ⟨2, ![256, 10240]⟩
abbrev S256x256 : Shape := ⟨2, ![256, 256]⟩

abbrev nBuf : Space → Nat
  | .hbm => 93
  | .vmem => 24
  | .smem => 0
  | _ => 0

abbrev bufTy : (tb : Table) → Fin (tcTables nBuf tb) → BufTy
  | .hbm, ⟨0, _⟩ => ⟨S10000x256, .f32⟩
  | .hbm, ⟨1, _⟩ => ⟨S256x512, .f32⟩
  | .hbm, ⟨2, _⟩ => ⟨S512, .f32⟩
  | .hbm, ⟨3, _⟩ => ⟨S512x256, .f32⟩
  | .hbm, ⟨4, _⟩ => ⟨S256, .f32⟩
  | .hbm, ⟨5, _⟩ => ⟨S2x320000, .i32⟩
  | .hbm, ⟨6, _⟩ => ⟨S_, .i32⟩
  | .hbm, ⟨7, _⟩ => ⟨S_, .f32⟩
  | .hbm, ⟨8, _⟩ => ⟨S10240x256, .f32⟩
  | .hbm, ⟨9, _⟩ => ⟨S10240x256, .bf16⟩
  | .hbm, ⟨10, _⟩ => ⟨S256x512, .bf16⟩
  | .hbm, ⟨11, _⟩ => ⟨S512x256, .bf16⟩
  | .hbm, ⟨12, _⟩ => ⟨S1x512, .f32⟩
  | .hbm, ⟨13, _⟩ => ⟨S1x256, .f32⟩
  | .hbm, ⟨14, _⟩ => ⟨S1x320000, .i32⟩
  | .hbm, ⟨15, _⟩ => ⟨S320000, .i32⟩
  | .hbm, ⟨16, _⟩ => ⟨S1x320000, .i32⟩
  | .hbm, ⟨17, _⟩ => ⟨S320000, .i32⟩
  | .hbm, ⟨18, _⟩ => ⟨S_, .f32⟩
  | .hbm, ⟨19, _⟩ => ⟨S320000, .f32⟩
  | .hbm, ⟨20, _⟩ => ⟨S_, .f32⟩
  | .hbm, ⟨21, _⟩ => ⟨S10240, .f32⟩
  | .hbm, ⟨22, _⟩ => ⟨S320000x1, .i32⟩
  | .hbm, ⟨23, _⟩ => ⟨S10240, .f32⟩
  | .hbm, ⟨24, _⟩ => ⟨S_, .f32⟩
  | .hbm, ⟨25, _⟩ => ⟨S10240, .f32⟩
  | .hbm, ⟨26, _⟩ => ⟨S10240, .f32⟩
  | .hbm, ⟨27, _⟩ => ⟨S_, .f32⟩
  | .hbm, ⟨28, _⟩ => ⟨S10240, .f32⟩
  | .hbm, ⟨29, _⟩ => ⟨S10240, .i1⟩
  | .hbm, ⟨30, _⟩ => ⟨S10240, .f32⟩
  | .hbm, ⟨31, _⟩ => ⟨S_, .f32⟩
  | .hbm, ⟨32, _⟩ => ⟨S_, .f32⟩
  | .hbm, ⟨33, _⟩ => ⟨S10240, .f32⟩
  | .hbm, ⟨34, _⟩ => ⟨S10240, .f32⟩
  | .hbm, ⟨35, _⟩ => ⟨S10240, .i32⟩
  | .hbm, ⟨36, _⟩ => ⟨S_, .i32⟩
  | .hbm, ⟨37, _⟩ => ⟨S10240, .i32⟩
  | .hbm, ⟨38, _⟩ => ⟨S10240, .i1⟩
  | .hbm, ⟨39, _⟩ => ⟨S_, .f32⟩
  | .hbm, ⟨40, _⟩ => ⟨S_, .f32⟩
  | .hbm, ⟨41, _⟩ => ⟨S10240, .f32⟩
  | .hbm, ⟨42, _⟩ => ⟨S10240, .f32⟩
  | .hbm, ⟨43, _⟩ => ⟨S_, .i32⟩
  | .hbm, ⟨44, _⟩ => ⟨S320000, .i32⟩
  | .hbm, ⟨45, _⟩ => ⟨S320000, .i1⟩
  | .hbm, ⟨46, _⟩ => ⟨S_, .i32⟩
  | .hbm, ⟨47, _⟩ => ⟨S320000, .i32⟩
  | .hbm, ⟨48, _⟩ => ⟨S320000, .i32⟩
  | .hbm, ⟨49, _⟩ => ⟨S320000, .i32⟩
  | .hbm, ⟨50, _⟩ => ⟨S320000x1, .i32⟩
  | .hbm, ⟨51, _⟩ => ⟨S320000, .f32⟩
  | .hbm, ⟨52, _⟩ => ⟨S_, .i32⟩
  | .hbm, ⟨53, _⟩ => ⟨S320000, .i32⟩
  | .hbm, ⟨54, _⟩ => ⟨S320000, .i1⟩
  | .hbm, ⟨55, _⟩ => ⟨S_, .i32⟩
  | .hbm, ⟨56, _⟩ => ⟨S320000, .i32⟩
  | .hbm, ⟨57, _⟩ => ⟨S320000, .i32⟩
  | .hbm, ⟨58, _⟩ => ⟨S320000, .i32⟩
  | .hbm, ⟨59, _⟩ => ⟨S320000x1, .i32⟩
  | .hbm, ⟨60, _⟩ => ⟨S320000, .f32⟩
  | .hbm, ⟨61, _⟩ => ⟨S320000, .f32⟩
  | .hbm, ⟨62, _⟩ => ⟨S10240, .i32⟩
  | .hbm, ⟨63, _⟩ => ⟨S330240, .i32⟩
  | .hbm, ⟨64, _⟩ => ⟨S330240, .i32⟩
  | .hbm, ⟨65, _⟩ => ⟨S10240, .f32⟩
  | .hbm, ⟨66, _⟩ => ⟨S330240, .f32⟩
  | .hbm, ⟨67, _⟩ => ⟨S_, .f32⟩
  | .hbm, ⟨68, _⟩ => ⟨S10240x10240, .f32⟩
  | .hbm, ⟨69, _⟩ => ⟨S_, .i32⟩
  | .hbm, ⟨70, _⟩ => ⟨S330240, .i32⟩
  | .hbm, ⟨71, _⟩ => ⟨S330240, .i1⟩
  | .hbm, ⟨72, _⟩ => ⟨S_, .i32⟩
  | .hbm, ⟨73, _⟩ => ⟨S330240, .i32⟩
  | .hbm, ⟨74, _⟩ => ⟨S330240, .i32⟩
  | .hbm, ⟨75, _⟩ => ⟨S330240, .i32⟩
  | .hbm, ⟨76, _⟩ => ⟨S_, .i32⟩
  | .hbm, ⟨77, _⟩ => ⟨S330240, .i32⟩
  | .hbm, ⟨78, _⟩ => ⟨S330240, .i1⟩
  | .hbm, ⟨79, _⟩ => ⟨S_, .i32⟩
  | .hbm, ⟨80, _⟩ => ⟨S330240, .i32⟩
  | .hbm, ⟨81, _⟩ => ⟨S330240, .i32⟩
  | .hbm, ⟨82, _⟩ => ⟨S330240, .i32⟩
  | .hbm, ⟨83, _⟩ => ⟨S330240x1, .i32⟩
  | .hbm, ⟨84, _⟩ => ⟨S330240x1, .i32⟩
  | .hbm, ⟨85, _⟩ => ⟨S330240x2, .i32⟩
  | .hbm, ⟨86, _⟩ => ⟨S10240x10240, .f32⟩
  | .hbm, ⟨87, _⟩ => ⟨S10240x10240, .bf16⟩
  | .hbm, ⟨88, _⟩ => ⟨S10240x512, .bf16⟩
  | .hbm, ⟨89, _⟩ => ⟨S10240x512, .bf16⟩
  | .hbm, ⟨90, _⟩ => ⟨S10240x256, .bf16⟩
  | .hbm, ⟨91, _⟩ => ⟨S10240x256, .f32⟩
  | .hbm, ⟨92, _⟩ => ⟨S10000x256, .f32⟩
  | .local _ .vmem, ⟨0, _⟩ => ⟨S1280x256, .bf16⟩
  | .local _ .vmem, ⟨1, _⟩ => ⟨S1280x256, .bf16⟩
  | .local _ .vmem, ⟨2, _⟩ => ⟨S256x512, .bf16⟩
  | .local _ .vmem, ⟨3, _⟩ => ⟨S1280x512, .bf16⟩
  | .local _ .vmem, ⟨4, _⟩ => ⟨S1280x512, .bf16⟩
  | .local _ .vmem, ⟨5, _⟩ => ⟨S1280x512, .f32⟩
  | .local _ .vmem, ⟨6, _⟩ => ⟨S256x10240, .bf16⟩
  | .local _ .vmem, ⟨7, _⟩ => ⟨S256x10240, .bf16⟩
  | .local _ .vmem, ⟨8, _⟩ => ⟨S10240x512, .bf16⟩
  | .local _ .vmem, ⟨9, _⟩ => ⟨S1x512, .f32⟩
  | .local _ .vmem, ⟨10, _⟩ => ⟨S256x512, .bf16⟩
  | .local _ .vmem, ⟨11, _⟩ => ⟨S256x512, .bf16⟩
  | .local _ .vmem, ⟨12, _⟩ => ⟨S1280x512, .bf16⟩
  | .local _ .vmem, ⟨13, _⟩ => ⟨S1280x512, .bf16⟩
  | .local _ .vmem, ⟨14, _⟩ => ⟨S512x256, .bf16⟩
  | .local _ .vmem, ⟨15, _⟩ => ⟨S1280x256, .bf16⟩
  | .local _ .vmem, ⟨16, _⟩ => ⟨S1280x256, .bf16⟩
  | .local _ .vmem, ⟨17, _⟩ => ⟨S1280x256, .f32⟩
  | .local _ .vmem, ⟨18, _⟩ => ⟨S256x10240, .bf16⟩
  | .local _ .vmem, ⟨19, _⟩ => ⟨S256x10240, .bf16⟩
  | .local _ .vmem, ⟨20, _⟩ => ⟨S10240x256, .bf16⟩
  | .local _ .vmem, ⟨21, _⟩ => ⟨S1x256, .f32⟩
  | .local _ .vmem, ⟨22, _⟩ => ⟨S256x256, .f32⟩
  | .local _ .vmem, ⟨23, _⟩ => ⟨S256x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_call1_v0 : Ref sig .tc := ⟨.hbm, 32, rfl⟩
abbrev main_call1_v1 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_cst_5 : Ref sig .tc := ⟨.hbm, 39, rfl⟩
abbrev main_call2_v0 : Ref sig .tc := ⟨.hbm, 40, rfl⟩
abbrev main_call2_v1 : Ref sig .tc := ⟨.hbm, 41, rfl⟩
abbrev main_v23 : Ref sig .tc := ⟨.hbm, 42, rfl⟩
abbrev main_c_6 : Ref sig .tc := ⟨.hbm, 43, rfl⟩
abbrev main_v24 : Ref sig .tc := ⟨.hbm, 44, rfl⟩
abbrev main_v25 : Ref sig .tc := ⟨.hbm, 45, rfl⟩
abbrev main_c_7 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_8 : Ref sig .tc := ⟨.hbm, 52, rfl⟩
abbrev main_v31 : Ref sig .tc := ⟨.hbm, 53, rfl⟩
abbrev main_v32 : Ref sig .tc := ⟨.hbm, 54, rfl⟩
abbrev main_c_9 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_10 : Ref sig .tc := ⟨.hbm, 67, rfl⟩
abbrev main_v44 : Ref sig .tc := ⟨.hbm, 68, rfl⟩
abbrev main_c_11 : Ref sig .tc := ⟨.hbm, 69, rfl⟩
abbrev main_v45 : Ref sig .tc := ⟨.hbm, 70, rfl⟩
abbrev main_v46 : Ref sig .tc := ⟨.hbm, 71, rfl⟩
abbrev main_c_12 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_c_13 : Ref sig .tc := ⟨.hbm, 76, rfl⟩
abbrev main_v50 : Ref sig .tc := ⟨.hbm, 77, rfl⟩
abbrev main_v51 : Ref sig .tc := ⟨.hbm, 78, rfl⟩
abbrev main_c_14 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc2_scratch0 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem3_0 : DmaSem sig := 20
abbrev cc3_sem3_1 : DmaSem sig := 21

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1280x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1280x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨1, ![40], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x10240 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10240x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨3, ![8, 1, 1], ![false, false, false]⟩

def k2_cond2 (i : grid2.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1280x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S512x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 2 → Memref sig .tc .vmem S1280x256 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨1, ![40], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x10240 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10240x256 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S256x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  pads_S10000x256_S10240x256_02400_000 : S10000x256.Pads (![0, 0] : Fin 2 → Nat) ![240, 0] ![0, 0] S10240x256
  h_S_ : 0 < S_.numel
  bitsLt_bf16_f32 : FTy.bits .bf16 < FTy.bits .f32
  shapeCasts_S512_S1x512 : S512.ShapeCasts S1x512
  shapeCasts_S256_S1x256 : S256.ShapeCasts S1x256
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S_S10240 : S_.BroadcastsInDim S10240 (![] : Fin 0 → Fin S10240.rank)
  bcast_S320000_S320000x1_0 : S320000.BroadcastsInDim S320000x1 (![0] : Fin 1 → Fin S320000x1.rank)
  concatenates_S320000_S10240_S330240_d0 : Shape.Concatenates [S320000, S10240] S330240 0
  bcast_S_S10240x10240 : S_.BroadcastsInDim S10240x10240 (![] : Fin 0 → Fin S10240x10240.rank)
  bcast_S_S330240 : S_.BroadcastsInDim S330240 (![] : Fin 0 → Fin S330240.rank)
  bcast_S330240_S330240x1_0 : S330240.BroadcastsInDim S330240x1 (![0] : Fin 1 → Fin S330240x1.rank)
  concatenates_S330240x1_S330240x1_S330240x2_d1 : Shape.Concatenates [S330240x1, S330240x1] S330240x2 1
  inb_S1280x512_S1280x512_0_0 : ∀ a, (![0, 0] : Fin 2 → Nat) a + S1280x512.size a ≤ S1280x512.size a
  h_S1280x512 : 0 < S1280x512.numel
  shapeCasts_S1280x512_S1280x512 : S1280x512.ShapeCasts S1280x512
  inb_S1280x256_S1280x256_0_0 : ∀ a, (![0, 0] : Fin 2 → Nat) a + S1280x256.size a ≤ S1280x256.size a
  h_S1280x256 : 0 < S1280x256.numel
  shapeCasts_S1280x256_S1280x256 : S1280x256.ShapeCasts S1280x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  packedbf16_S1280x512_S1280x512_0_0 : (Rect.unit (s := S1280x512) ![0, 0] S1280x512.size inb_S1280x512_S1280x512_0_0).PackedRows (EltTy.packing .bf16)
  inb_S256x10240_S256x10240_0_0 : ∀ a, (![0, 0] : Fin 2 → Nat) a + S256x10240.size a ≤ S256x10240.size a
  h_S256x10240 : 0 < S256x10240.numel
  shapeCasts_S256x10240_S256x10240 : S256x10240.ShapeCasts S256x10240
  inb_S10240x512_S10240x512_0_0 : ∀ a, (![0, 0] : Fin 2 → Nat) a + S10240x512.size a ≤ S10240x512.size a
  h_S10240x512 : 0 < S10240x512.numel
  shapeCasts_S10240x512_S10240x512 : S10240x512.ShapeCasts S10240x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  packedbf16_S256x512_S256x512_0_0 : (Rect.unit (s := S256x512) ![0, 0] S256x512.size inb_S256x512_S256x512_0_0).PackedRows (EltTy.packing .bf16)
  inb_S512x256_S512x256_0_0 : ∀ a, (![0, 0] : Fin 2 → Nat) a + S512x256.size a ≤ S512x256.size a
  h_S512x256 : 0 < S512x256.numel
  shapeCasts_S512x256_S512x256 : S512x256.ShapeCasts S512x256
  packedbf16_S1280x256_S1280x256_0_0 : (Rect.unit (s := S1280x256) ![0, 0] S1280x256.size inb_S1280x256_S1280x256_0_0).PackedRows (EltTy.packing .bf16)
  inb_S10240x256_S10240x256_0_0 : ∀ a, (![0, 0] : Fin 2 → Nat) a + S10240x256.size a ≤ S10240x256.size a
  h_S10240x256 : 0 < S10240x256.numel
  shapeCasts_S10240x256_S10240x256 : S10240x256.ShapeCasts S10240x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  inb_S256x256_S256x256_0_0 : ∀ a, (![0, 0] : Fin 2 → Nat) a + S256x256.size a ≤ S256x256.size a
  h_S256x256 : 0 < S256x256.numel
  slices_S10240x256_S10000x256_0_0 : S10240x256.Slices ![0, 0] S10000x256
  scatter_S10240_S320000x1_S320000_n_0_0_1_wf : ScatterDims.WF S10240 S320000x1 S320000 [] [0] [0] 1
  gather_S10240_S320000x1_S320000_n_0_n_n_0_1_1_wf : GatherDims.WF S10240 S320000x1 S320000 [] [0] [] [0] [] 1 ![1]
  scatter_S10240x10240_S330240x2_S330240_n_01_01_1_wf : ScatterDims.WF S10240x10240 S330240x2 S330240 [] [0, 1] [0, 1] 1
  dot_S1280x256_S256x512_S1280x512_1_0_0_1_n_n_wf : DotDims.WF S1280x256 S256x512 S1280x512 [1] [0] [0] [1] [] []
  dot_S256x10240_S10240x512_S256x512_1_0_0_1_n_n_wf : DotDims.WF S256x10240 S10240x512 S256x512 [1] [0] [0] [1] [] []
  dot_S1280x512_S512x256_S1280x256_1_0_0_1_n_n_wf : DotDims.WF S1280x512 S512x256 S1280x256 [1] [0] [0] [1] [] []
  dot_S256x10240_S10240x256_S256x256_1_0_0_1_n_n_wf : DotDims.WF S256x10240 S10240x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1280x256.size a ≤ S10240x256.size a
  hwx0_0 : ∀ i : grid0.Coords, EltTy.bits .bf16 = 32 ∨ (Rect.block (s := S10240x256) S1280x256.size (cc0_transform_0 i) (hinb0_0 i)).WholeWords (EltTy.packing .bf16)
  hstage0_1 : ∀ j, (stage0_1 j).IsWhole
  nbuf0_1 : grid0.bufCount reads0_1 false = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .bf16 = 32 ∨ (Rect.block (s := S256x512) S256x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1280x512.size a ≤ S10240x512.size a
  hwx0_2 : ∀ i : grid0.Coords, EltTy.bits .bf16 = 32 ∨ (Rect.block (s := S10240x512) S1280x512.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x10240.size a ≤ S10240x10240.size a
  hwx1_0 : ∀ i : grid1.Coords, EltTy.bits .bf16 = 32 ∨ (Rect.block (s := S10240x10240) S256x10240.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10240x512.size a ≤ S10240x512.size a
  hwx1_1 : ∀ i : grid1.Coords, EltTy.bits .bf16 = 32 ∨ (Rect.block (s := S10240x512) S10240x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x512.size a ≤ S10240x512.size a
  hwx1_3 : ∀ i : grid1.Coords, EltTy.bits .bf16 = 32 ∨ (Rect.block (s := S10240x512) S256x512.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1280x512.size a ≤ S10240x512.size a
  hwx2_0 : ∀ i : grid2.Coords, EltTy.bits .bf16 = 32 ∨ (Rect.block (s := S10240x512) S1280x512.size (cc2_transform_0 i) (hinb2_0 i)).WholeWords (EltTy.packing .bf16)
  hstage2_1 : ∀ j, (stage2_1 j).IsWhole
  nbuf2_1 : grid2.bufCount reads2_1 false = 1
  hreads2_1 : ∀ i i' : grid2.Coords, (∀ a, reads2_1 a = true → i a = i' a) → cc2_transform_1 i = cc2_transform_1 i'
  hinb2_1 : ∀ (i : grid2.Coords) a, (cc2_transform_1 i a + 1) * S512x256.size a ≤ S512x256.size a
  hwx2_1 : ∀ i : grid2.Coords, EltTy.bits .bf16 = 32 ∨ (Rect.block (s := S512x256) S512x256.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1280x256.size a ≤ S10240x256.size a
  hwx2_2 : ∀ i : grid2.Coords, EltTy.bits .bf16 = 32 ∨ (Rect.block (s := S10240x256) S1280x256.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S256x10240.size a ≤ S10240x10240.size a
  hwx3_0 : ∀ i : grid3.Coords, EltTy.bits .bf16 = 32 ∨ (Rect.block (s := S10240x10240) S256x10240.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10240x256.size a ≤ S10240x256.size a
  hwx3_1 : ∀ i : grid3.Coords, EltTy.bits .bf16 = 32 ∨ (Rect.block (s := S10240x256) S10240x256.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S256x256.size a ≤ S10240x256.size a
  hwx3_3 : ∀ i : grid3.Coords, EltTy.bits .f32 = 32 ∨ (Rect.block (s := S10240x256) S256x256.size (cc3_transform_3 i) (hinb3_3 i)).WholeWords (EltTy.packing .f32)

variable [Facts₀]

def scatter_S10240_S320000x1_S320000_n_0_0_1 : ScatterDims S10240 S320000x1 S320000 where
  updateWindowDims := []
  insertedWindowDims := [0]
  scatterDimsToOperandDims := [0]
  indexVectorDim := 1
  wf := scatter_S10240_S320000x1_S320000_n_0_0_1_wf
def gather_S10240_S320000x1_S320000_n_0_n_n_0_1_1 : GatherDims S10240 S320000x1 S320000 where
  offsetDims := []
  collapsedSliceDims := [0]
  operandBatchingDims := []
  startIndicesBatchingDims := []
  startIndexMap := [0]
  indexVectorDim := 1
  sliceSizes := ![1]
  wf := gather_S10240_S320000x1_S320000_n_0_n_n_0_1_1_wf
def scatter_S10240x10240_S330240x2_S330240_n_01_01_1 : ScatterDims S10240x10240 S330240x2 S330240 where
  updateWindowDims := []
  insertedWindowDims := [0, 1]
  scatterDimsToOperandDims := [0, 1]
  indexVectorDim := 1
  wf := scatter_S10240x10240_S330240x2_S330240_n_01_01_1_wf
def dot_S1280x256_S256x512_S1280x512_1_0_0_1_n_n : DotDims S1280x256 S256x512 S1280x512 where
  lhsContracting := [1]
  rhsContracting := [0]
  lhsNonContracting := [0]
  rhsNonContracting := [1]
  lhsBatch := []
  rhsBatch := []
  wf := dot_S1280x256_S256x512_S1280x512_1_0_0_1_n_n_wf
def dot_S256x10240_S10240x512_S256x512_1_0_0_1_n_n : DotDims S256x10240 S10240x512 S256x512 where
  lhsContracting := [1]
  rhsContracting := [0]
  lhsNonContracting := [0]
  rhsNonContracting := [1]
  lhsBatch := []
  rhsBatch := []
  wf := dot_S256x10240_S10240x512_S256x512_1_0_0_1_n_n_wf
def dot_S1280x512_S512x256_S1280x256_1_0_0_1_n_n : DotDims S1280x512 S512x256 S1280x256 where
  lhsContracting := [1]
  rhsContracting := [0]
  lhsNonContracting := [0]
  rhsNonContracting := [1]
  lhsBatch := []
  rhsBatch := []
  wf := dot_S1280x512_S512x256_S1280x256_1_0_0_1_n_n_wf
def dot_S256x10240_S10240x256_S256x256_1_0_0_1_n_n : DotDims S256x10240 S10240x256 S256x256 where
  lhsContracting := [1]
  rhsContracting := [0]
  lhsNonContracting := [0]
  rhsNonContracting := [1]
  lhsBatch := []
  rhsBatch := []
  wf := dot_S256x10240_S10240x256_S256x256_1_0_0_1_n_n_wf

abbrev win0_0 : Pipeline.Window sig grid0 :=
  Pipeline.Window.ofSpec (Memref.whole main_v1) S1280x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x512.size cc0_transform_1 reads0_1 false false 1 stage0_1 sem0_1
    hrank0 hreads0_1 hinb0_1 nbuf0_1 (Memref.isWhole_whole _) hwx0_1 hstage0_1

abbrev win0_2 : Pipeline.Window sig grid0 :=
  Pipeline.Window.ofSpec (Memref.whole main_v60) S1280x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v59) S256x10240.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v60) S10240x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v61) S256x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v61) S1280x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S512x256.size cc2_transform_1 reads2_1 false false 1 stage2_1 sem2_1
    hrank2 hreads2_1 hinb2_1 nbuf2_1 (Memref.isWhole_whole _) hwx2_1 hstage2_1

abbrev win2_2 : Pipeline.Window sig grid2 :=
  Pipeline.Window.ofSpec (Memref.whole main_v62) S1280x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev win3_0 : Pipeline.Window sig grid3 :=
  Pipeline.Window.ofSpec (Memref.whole main_v59) S256x10240.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S10240x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v5) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v63) S256x256.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S10000x256 : Shape := ⟨2, ![10000, 256]⟩
abbrev S256x512 : Shape := ⟨2, ![256, 512]⟩
abbrev S512 : Shape := ⟨1, ![512]⟩
abbrev S512x256 : Shape := ⟨2, ![512, 256]⟩
abbrev S256 : Shape := ⟨1, ![256]⟩
abbrev S2x320000 : Shape := ⟨2, ![2, 320000]⟩
abbrev S1x320000 : Shape := ⟨2, ![1, 320000]⟩
abbrev S320000 : Shape := ⟨1, ![320000]⟩
abbrev S10000x512 : Shape := ⟨2, ![10000, 512]⟩
abbrev S_ : Shape := ⟨0, ![]⟩
abbrev S10000 : Shape := ⟨1, ![10000]⟩
abbrev S320000x1 : Shape := ⟨2, ![320000, 1]⟩
abbrev S320000x512 : Shape := ⟨2, ![320000, 512]⟩
abbrev S10000x1 : Shape := ⟨2, ![10000, 1]⟩
abbrev S1x512 : Shape := ⟨2, ![1, 512]⟩
abbrev S320000x256 : Shape := ⟨2, ![320000, 256]⟩
abbrev S1x256 : Shape := ⟨2, ![1, 256]⟩

abbrev nBuf : Space → Nat
  | .hbm => 138
  | .vmem => 0
  | .smem => 0
  | _ => 0

abbrev hbmTy0_0 (i : Nat) : BufTy := match i % 128 with
  | 0 => ⟨S10000x256, .f32⟩
  | 1 => ⟨S256x512, .f32⟩
  | 2 => ⟨S512, .f32⟩
  | 3 => ⟨S512x256, .f32⟩
  | 4 => ⟨S256, .f32⟩
  | 5 => ⟨S2x320000, .i32⟩
  | 6 => ⟨S1x320000, .i32⟩
  | 7 => ⟨S320000, .i32⟩
  | 8 => ⟨S1x320000, .i32⟩
  | 9 => ⟨S320000, .i32⟩
  | 10 => ⟨S10000x512, .f32⟩
  | 11 => ⟨S_, .f32⟩
  | 12 => ⟨S320000, .f32⟩
  | 13 => ⟨S_, .f32⟩
  | 14 => ⟨S10000, .f32⟩
  | 15 => ⟨S320000x1, .i32⟩
  | 16 => ⟨S10000, .f32⟩
  | 17 => ⟨S_, .f32⟩
  | 18 => ⟨S10000, .f32⟩
  | 19 => ⟨S10000, .f32⟩
  | 20 => ⟨S_, .f32⟩
  | 21 => ⟨S10000, .f32⟩
  | 22 => ⟨S10000, .i1⟩
  | 23 => ⟨S10000, .f32⟩
  | 24 => ⟨S_, .f32⟩
  | 25 => ⟨S_, .f32⟩
  | 26 => ⟨S10000, .f32⟩
  | 27 => ⟨S10000, .f32⟩
  | 28 => ⟨S_, .i32⟩
  | 29 => ⟨S320000, .i32⟩
  | 30 => ⟨S320000, .i1⟩
  | 31 => ⟨S_, .i32⟩
  | 32 => ⟨S320000, .i32⟩
  | 33 => ⟨S320000, .i32⟩
  | 34 => ⟨S320000, .i32⟩
  | 35 => ⟨S320000x1, .i32⟩
  | 36 => ⟨S320000, .f32⟩
  | 37 => ⟨S_, .i32⟩
  | 38 => ⟨S320000, .i32⟩
  | 39 => ⟨S320000, .i1⟩
  | 40 => ⟨S_, .i32⟩
  | 41 => ⟨S320000, .i32⟩
  | 42 => ⟨S320000, .i32⟩
  | 43 => ⟨S320000, .i32⟩
  | 44 => ⟨S320000x1, .i32⟩
  | 45 => ⟨S320000, .f32⟩
  | 46 => ⟨S320000, .f32⟩
  | 47 => ⟨S_, .i32⟩
  | 48 => ⟨S320000, .i32⟩
  | 49 => ⟨S320000, .i1⟩
  | 50 => ⟨S_, .i32⟩
  | 51 => ⟨S320000, .i32⟩
  | 52 => ⟨S320000, .i32⟩
  | 53 => ⟨S320000, .i32⟩
  | 54 => ⟨S320000x1, .i32⟩
  | 55 => ⟨S320000x512, .f32⟩
  | 56 => ⟨S320000x1, .f32⟩
  | 57 => ⟨S320000x512, .f32⟩
  | 58 => ⟨S320000x512, .f32⟩
  | 59 => ⟨S_, .f32⟩
  | 60 => ⟨S10000x512, .f32⟩
  | 61 => ⟨S320000x1, .i32⟩
  | 62 => ⟨S10000x512, .f32⟩
  | 63 => ⟨S10000, .f32⟩
  | 64 => ⟨S10000x1, .f32⟩
  | 65 => ⟨S10000x512, .f32⟩
  | 66 => ⟨S10000x512, .f32⟩
  | 67 => ⟨S10000x512, .f32⟩
  | 68 => ⟨S1x512, .f32⟩
  | 69 => ⟨S10000x512, .f32⟩
  | 70 => ⟨S10000x512, .f32⟩
  | 71 => ⟨S_, .f32⟩
  | 72 => ⟨S10000x512, .f32⟩
  | 73 => ⟨S10000x512, .f32⟩
  | 74 => ⟨S10000x256, .f32⟩
  | 75 => ⟨S_, .f32⟩
  | 76 => ⟨S320000, .f32⟩
  | 77 => ⟨S_, .f32⟩
  | 78 => ⟨S10000, .f32⟩
  | 79 => ⟨S320000x1, .i32⟩
  | 80 => ⟨S10000, .f32⟩
  | 81 => ⟨S_, .f32⟩
  | 82 => ⟨S10000, .f32⟩
  | 83 => ⟨S10000, .f32⟩
  | 84 => ⟨S_, .f32⟩
  | 85 => ⟨S10000, .f32⟩
  | 86 => ⟨S10000, .i1⟩
  | 87 => ⟨S10000, .f32⟩
  | 88 => ⟨S_, .f32⟩
  | 89 => ⟨S_, .f32⟩
  | 90 => ⟨S10000, .f32⟩
  | 91 => ⟨S10000, .f32⟩
  | 92 => ⟨S_, .i32⟩
  | 93 => ⟨S320000, .i32⟩
  | 94 => ⟨S320000, .i1⟩
  | 95 => ⟨S_, .i32⟩
  | 96 => ⟨S320000, .i32⟩
  | 97 => ⟨S320000, .i32⟩
  | 98 => ⟨S320000, .i32⟩
  | 99 => ⟨S320000x1, .i32⟩
  | 100 => ⟨S320000, .f32⟩
  | 101 => ⟨S_, .i32⟩
  | 102 => ⟨S320000, .i32⟩
  | 103 => ⟨S320000, .i1⟩
  | 104 => ⟨S_, .i32⟩
  | 105 => ⟨S320000, .i32⟩
  | 106 => ⟨S320000, .i32⟩
  | 107 => ⟨S320000, .i32⟩
  | 108 => ⟨S320000x1, .i32⟩
  | 109 => ⟨S320000, .f32⟩
  | 110 => ⟨S320000, .f32⟩
  | 111 => ⟨S_, .i32⟩
  | 112 => ⟨S320000, .i32⟩
  | 113 => ⟨S320000, .i1⟩
  | 114 => ⟨S_, .i32⟩
  | 115 => ⟨S320000, .i32⟩
  | 116 => ⟨S320000, .i32⟩
  | 117 => ⟨S320000, .i32⟩
  | 118 => ⟨S320000x1, .i32⟩
  | 119 => ⟨S320000x256, .f32⟩
  | 120 => ⟨S320000x1, .f32⟩
  | 121 => ⟨S320000x256, .f32⟩
  | 122 => ⟨S320000x256, .f32⟩
  | 123 => ⟨S_, .f32⟩
  | 124 => ⟨S10000x256, .f32⟩
  | 125 => ⟨S320000x1, .i32⟩
  | 126 => ⟨S10000x256, .f32⟩
  | 127 => ⟨S10000, .f32⟩
  | _ => ⟨S10000x256, .f32⟩

abbrev hbmTy0_1 (i : Nat) : BufTy := match i % 128 with
  | 0 => ⟨S10000x1, .f32⟩
  | 1 => ⟨S10000x256, .f32⟩
  | 2 => ⟨S10000x256, .f32⟩
  | 3 => ⟨S10000x256, .f32⟩
  | 4 => ⟨S1x256, .f32⟩
  | 5 => ⟨S10000x256, .f32⟩
  | 6 => ⟨S10000x256, .f32⟩
  | 7 => ⟨S_, .f32⟩
  | 8 => ⟨S10000x256, .f32⟩
  | 9 => ⟨S10000x256, .f32⟩
  | _ => ⟨S10000x256, .f32⟩

abbrev hbmTy (i : Nat) : BufTy := match i / 128 with
  | 0 => hbmTy0_0 i
  | 1 => hbmTy0_1 i
  | _ => ⟨S10000x256, .f32⟩

abbrev bufTy : (tb : Table) → Fin (tcTables nBuf tb) → BufTy
  | .hbm, ⟨i, _⟩ => hbmTy i
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_4 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_5 : Ref sig .tc := ⟨.hbm, 37, rfl⟩
abbrev main_v22 : Ref sig .tc := ⟨.hbm, 38, rfl⟩
abbrev main_v23 : Ref sig .tc := ⟨.hbm, 39, rfl⟩
abbrev main_c_6 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_7 : Ref sig .tc := ⟨.hbm, 47, rfl⟩
abbrev main_v30 : Ref sig .tc := ⟨.hbm, 48, rfl⟩
abbrev main_v31 : Ref sig .tc := ⟨.hbm, 49, rfl⟩
abbrev main_c_8 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_9 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_call1_cst : Ref sig .tc := ⟨.hbm, 71, rfl⟩
abbrev main_call1_v0 : Ref sig .tc := ⟨.hbm, 72, rfl⟩
abbrev main_v51 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_cst_11 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_12 : Ref sig .tc := ⟨.hbm, 81, rfl⟩
abbrev main_v57 : Ref sig .tc := ⟨.hbm, 82, rfl⟩
abbrev main_v58 : Ref sig .tc := ⟨.hbm, 83, rfl⟩
abbrev main_cst_13 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_14 : Ref sig .tc := ⟨.hbm, 88, rfl⟩
abbrev main_call2_v0 : Ref sig .tc := ⟨.hbm, 89, rfl⟩
abbrev main_call2_v1 : Ref sig .tc := ⟨.hbm, 90, rfl⟩
abbrev main_v62 : Ref sig .tc := ⟨.hbm, 91, rfl⟩
abbrev main_c_15 : Ref sig .tc := ⟨.hbm, 92, rfl⟩
abbrev main_v63 : Ref sig .tc := ⟨.hbm, 93, rfl⟩
abbrev main_v64 : Ref sig .tc := ⟨.hbm, 94, rfl⟩
abbrev main_c_16 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_c_17 : Ref sig .tc := ⟨.hbm, 101, rfl⟩
abbrev main_v70 : Ref sig .tc := ⟨.hbm, 102, rfl⟩
abbrev main_v71 : Ref sig .tc := ⟨.hbm, 103, rfl⟩
abbrev main_c_18 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_c_19 : Ref sig .tc := ⟨.hbm, 111, rfl⟩
abbrev main_v78 : Ref sig .tc := ⟨.hbm, 112, rfl⟩
abbrev main_v79 : Ref sig .tc := ⟨.hbm, 113, rfl⟩
abbrev main_c_20 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_cst_21 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_call3_cst : Ref sig .tc := ⟨.hbm, 135, rfl⟩
abbrev main_call3_v0 : Ref sig .tc := ⟨.hbm, 136, rfl⟩
abbrev main_v99 : Ref sig .tc := ⟨.hbm, 137, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S_S10000 : S_.BroadcastsInDim S10000 (![] : Fin 0 → Fin S10000.rank)
  bcast_S320000_S320000x1_0 : S320000.BroadcastsInDim S320000x1 (![0] : Fin 1 → Fin S320000x1.rank)
  bcast_S320000x1_S320000x512_0_1 : S320000x1.BroadcastsInDim S320000x512 (![0, 1] : Fin 2 → Fin S320000x512.rank)
  bcast_S_S10000x512 : S_.BroadcastsInDim S10000x512 (![] : Fin 0 → Fin S10000x512.rank)
  bcast_S10000_S10000x1_0 : S10000.BroadcastsInDim S10000x1 (![0] : Fin 1 → Fin S10000x1.rank)
  bcast_S10000x1_S10000x512_0_1 : S10000x1.BroadcastsInDim S10000x512 (![0, 1] : Fin 2 → Fin S10000x512.rank)
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  bcast_S320000x1_S320000x256_0_1 : S320000x1.BroadcastsInDim S320000x256 (![0, 1] : Fin 2 → Fin S320000x256.rank)
  bcast_S_S10000x256 : S_.BroadcastsInDim S10000x256 (![] : Fin 0 → Fin S10000x256.rank)
  bcast_S10000x1_S10000x256_0_1 : S10000x1.BroadcastsInDim S10000x256 (![0, 1] : Fin 2 → Fin S10000x256.rank)
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  dot_S10000x256_S256x512_S10000x512_1_0_0_1_n_n_wf : DotDims.WF S10000x256 S256x512 S10000x512 [1] [0] [0] [1] [] []
  scatter_S10000_S320000x1_S320000_n_0_0_1_wf : ScatterDims.WF S10000 S320000x1 S320000 [] [0] [0] 1
  gather_S10000_S320000x1_S320000_n_0_n_n_0_1_1_wf : GatherDims.WF S10000 S320000x1 S320000 [] [0] [] [0] [] 1 ![1]
  gather_S10000x512_S320000x1_S320000x512_1_0_n_n_0_1_1512_wf : GatherDims.WF S10000x512 S320000x1 S320000x512 [1] [0] [] [0] [] 1 ![1, 512]
  scatter_S10000x512_S320000x1_S320000x512_1_0_0_1_wf : ScatterDims.WF S10000x512 S320000x1 S320000x512 [1] [0] [0] 1
  dot_S10000x512_S512x256_S10000x256_1_0_0_1_n_n_wf : DotDims.WF S10000x512 S512x256 S10000x256 [1] [0] [0] [1] [] []
  gather_S10000x256_S320000x1_S320000x256_1_0_n_n_0_1_1256_wf : GatherDims.WF S10000x256 S320000x1 S320000x256 [1] [0] [] [0] [] 1 ![1, 256]
  scatter_S10000x256_S320000x1_S320000x256_1_0_0_1_wf : ScatterDims.WF S10000x256 S320000x1 S320000x256 [1] [0] [0] 1

variable [Facts₀]

def dot_S10000x256_S256x512_S10000x512_1_0_0_1_n_n : DotDims S10000x256 S256x512 S10000x512 where
  lhsContracting := [1]
  rhsContracting := [0]
  lhsNonContracting := [0]
  rhsNonContracting := [1]
  lhsBatch := []
  rhsBatch := []
  wf := dot_S10000x256_S256x512_S10000x512_1_0_0_1_n_n_wf
def scatter_S10000_S320000x1_S320000_n_0_0_1 : ScatterDims S10000 S320000x1 S320000 where
  updateWindowDims := []
  insertedWindowDims := [0]
  scatterDimsToOperandDims := [0]
  indexVectorDim := 1
  wf := scatter_S10000_S320000x1_S320000_n_0_0_1_wf
def gather_S10000_S320000x1_S320000_n_0_n_n_0_1_1 : GatherDims S10000 S320000x1 S320000 where
  offsetDims := []
  collapsedSliceDims := [0]
  operandBatchingDims := []
  startIndicesBatchingDims := []
  startIndexMap := [0]
  indexVectorDim := 1
  sliceSizes := ![1]
  wf := gather_S10000_S320000x1_S320000_n_0_n_n_0_1_1_wf
def gather_S10000x512_S320000x1_S320000x512_1_0_n_n_0_1_1512 : GatherDims S10000x512 S320000x1 S320000x512 where
  offsetDims := [1]
  collapsedSliceDims := [0]
  operandBatchingDims := []
  startIndicesBatchingDims := []
  startIndexMap := [0]
  indexVectorDim := 1
  sliceSizes := ![1, 512]
  wf := gather_S10000x512_S320000x1_S320000x512_1_0_n_n_0_1_1512_wf
def scatter_S10000x512_S320000x1_S320000x512_1_0_0_1 : ScatterDims S10000x512 S320000x1 S320000x512 where
  updateWindowDims := [1]
  insertedWindowDims := [0]
  scatterDimsToOperandDims := [0]
  indexVectorDim := 1
  wf := scatter_S10000x512_S320000x1_S320000x512_1_0_0_1_wf
def dot_S10000x512_S512x256_S10000x256_1_0_0_1_n_n : DotDims S10000x512 S512x256 S10000x256 where
  lhsContracting := [1]
  rhsContracting := [0]
  lhsNonContracting := [0]
  rhsNonContracting := [1]
  lhsBatch := []
  rhsBatch := []
  wf := dot_S10000x512_S512x256_S10000x256_1_0_0_1_n_n_wf
def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf

class Facts : Prop extends Facts₀ where

variable [Facts]
-- ==== Proof.Spec.lean ====
/-
  What both programs compute, written once, element by element, over the extended reals.

  A graph on 10000 nodes is given by a table of 320000 edges: row 0 of the table holds each edge's source node,
  row 1 its destination node.  A node's degree is one (its self loop) plus the number of edges that end at it; its
  normalisation factor is the reciprocal square root of the degree.  One layer takes a feature matrix H (one row per
  node), and for node i and channel c adds up, over the edges that end at i, the source node's feature times the
  product of the two end nodes' factors; adds the node's own feature times its factor squared; adds the bias; and
  clips the result at zero.  The network is two such layers, each fed by a matrix product with its weights.

  Nothing here assumes the features are finite: the factors are never negative, and that is all the comparison of
  the two programs needs.
-/
import Idealize.ShloMosaic.PureOps.Ideal
import Idealize.ShloMosaic.Lib.ValueIdx

noncomputable section

open scoped BigOperators

namespace Cert.Spec

open Idealize.ShloMosaic Idealize.ShloMosaic.ValueIdx

/-- The edge table: two rows of 320000 words. -/
abbrev EdgeTab : Type := IVec (⟨2, ![2, 320000]⟩ : Shape) 32

/-- The word naming edge `e`'s source node. -/
def srcw (ei : EdgeTab) (e : Fin 320000) : BitVec 32 := ei (ix2 (0 : Fin 2) e)
/-- The word naming edge `e`'s destination node. -/
def dstw (ei : EdgeTab) (e : Fin 320000) : BitVec 32 := ei (ix2 (1 : Fin 2) e)

/-- Every entry of the table, read as a signed number, names one of the 10000 nodes. -/
def InRange (ei : EdgeTab) : Prop :=
  ∀ (r : Fin 2) (e : Fin 320000), 0 ≤ (ei (ix2 r e)).toInt ∧ (ei (ix2 r e)).toInt < 10000

/-- The node a word names: its signed value, kept inside the node range. -/
def node (w : BitVec 32) : Fin 10000 := ⟨min w.toInt.toNat 9999, by omega⟩

/-- The number one as both programs spell it: the same 32-bit pattern on either side, never evaluated. -/
def one : EReal := Ideal.ofBits .f32 0x3F800000#32

/-- The edges that end at node number `t`. -/
def into (ei : EdgeTab) (t : ℕ) : Finset (Fin 320000) :=
  Finset.univ.filter fun e => (dstw ei e).toInt = (t : ℤ)

/-- A node's degree: one for each edge that ends at it, and one more for its self loop. -/
def deg (ei : EdgeTab) (t : ℕ) : EReal := (∑ _e ∈ into ei t, one) + one

/-- A node's normalisation factor: the reciprocal square root of its degree where that is positive, else zero. -/
def dinv (ei : EdgeTab) (t : ℕ) : EReal := if 0 < deg ei t then Ideal.rsqrt (deg ei t) else 0

/-- The reciprocal square root of a positive extended real is never negative: of a positive real it is a positive
    real, and of the infinity it is zero. -/
theorem rsqrt_nonneg_of_pos {d : EReal} (hd : 0 < d) : 0 ≤ Ideal.rsqrt d := by
  induction d using EReal.rec with
  | bot => exact absurd hd (by simp)
  | top => simp
  | coe r =>
    have hr : 0 < r := by exact_mod_cast hd
    rw [Ideal.rsqrt_coe, if_neg (not_lt.mpr hr.le), if_neg hr.ne']
    exact_mod_cast (inv_nonneg.mpr (Real.sqrt_nonneg r))

/-- So a normalisation factor is never negative, whatever the degree. -/
theorem dinv_nonneg (ei : EdgeTab) (t : ℕ) : 0 ≤ dinv ei t := by
  unfold dinv
  split
  · exact rsqrt_nonneg_of_pos ‹_›
  · exact le_refl 0

/-- An edge's weight: the product of its two end nodes' factors. -/
def norm (ei : EdgeTab) (e : Fin 320000) : EReal :=
  dinv ei (node (srcw ei e)).val * dinv ei (node (dstw ei e)).val

theorem norm_nonneg (ei : EdgeTab) (e : Fin 320000) : 0 ≤ norm ei e :=
  mul_nonneg (dinv_nonneg ei _) (dinv_nonneg ei _)

/-- One layer at node `i`, channel `c`: the weighted features of the edges ending at `i`, the node's own feature
    times its factor squared, the bias, clipped at zero. -/
def layer {C : ℕ} (ei : EdgeTab) (H : Fin 10000 → Fin C → EReal) (b : Fin C → EReal) (i : Fin 10000) (c : Fin C) : EReal :=
  max (((∑ e ∈ into ei i.val, H (node (srcw ei e)) c * norm ei e) + H i c * (dinv ei i.val * dinv ei i.val)) + b c) 0

/-- A matrix product, element by element. -/
def mm {n K C : ℕ} (X : Fin n → Fin K → EReal) (W : Fin K → Fin C → EReal) (i : Fin n) (c : Fin C) : EReal :=
  ∑ k : Fin K, X i k * W k c

/-- The two-layer network. -/
def gcn (ei : EdgeTab) (x : Fin 10000 → Fin 256 → EReal) (W1 : Fin 256 → Fin 512 → EReal) (b1 : Fin 512 → EReal)
    (W2 : Fin 512 → Fin 256 → EReal) (b2 : Fin 256 → EReal) : Fin 10000 → Fin 256 → EReal :=
  layer ei (mm (layer ei (mm x W1) b1) W2) b2

/-! ## What the kernel scatters into its matrix

The kernel builds a 10240 × 10240 matrix (the node count rounded up) by adding 330240 entries into a matrix of zeros:
first one entry per edge, at (destination, source), holding the edge's weight; then one entry per row `d` of the
matrix, on the diagonal, holding the square of that row's factor, where the factor of a row beyond the 10000 nodes is
taken as zero. -/

/-- A row's factor as the kernel takes it: the node's factor for a row that is a node, zero for a padding row. -/
def dinvK (ei : EdgeTab) (t : ℕ) : EReal := if t < 10000 then dinv ei t else 0

theorem dinvK_nonneg (ei : EdgeTab) (t : ℕ) : 0 ≤ dinvK ei t := by
  unfold dinvK; split
  · exact dinv_nonneg ei t
  · exact le_refl 0

/-- The row of scattered entry `n`. -/
def trow (ei : EdgeTab) (n : Fin 330240) : ℕ :=
  if h : n.val < 320000 then (node (dstw ei ⟨n.val, h⟩)).val else n.val - 320000
/-- The column of scattered entry `n`. -/
def tcol (ei : EdgeTab) (n : Fin 330240) : ℕ :=
  if h : n.val < 320000 then (node (srcw ei ⟨n.val, h⟩)).val else n.val - 320000
/-- The value of scattered entry `n`. -/
def tval (ei : EdgeTab) (n : Fin 330240) : EReal :=
  if h : n.val < 320000 then norm ei ⟨n.val, h⟩ else dinvK ei (n.val - 320000) * dinvK ei (n.val - 320000)

theorem tval_nonneg (ei : EdgeTab) (n : Fin 330240) : 0 ≤ tval ei n := by
  unfold tval; split
  · exact norm_nonneg ei _
  · exact mul_nonneg (dinvK_nonneg ei _) (dinvK_nonneg ei _)

/-- Under `InRange`, a word's signed value is the number of the node it names. -/
theorem node_val {ei : EdgeTab} (h : InRange ei) (r : Fin 2) (e : Fin 320000) :
    ((node (ei (ix2 r e))).val : ℤ) = (ei (ix2 r e)).toInt := by
  have := h r e
  unfold node
  simp only
  omega

end Cert.Spec

end
-- ==== Proof.KIface.lean ====
/-
  Names for the arrays the kernel's four matrix regions read, each as a function from its index set to the extended
  reals, over whatever the TensorCore's buffers hold when a region is entered; and names for the six launch arguments.
-/
import proofs.«414742_j37082747634687_3_alg».proof.Proof.Gen.KernelIdeal.Frame
import proofs.«414742_j37082747634687_3_alg».proof.Proof.Spec

set_option maxRecDepth 16384

noncomputable section

open scoped BigOperators

namespace Cert.KernelIdeal.Val

open Cert.KernelIdeal Cert.KernelIdeal.Gen
open Idealize.ShloMosaic Idealize.ShloMosaic.TcCoe Idealize.ShloMosaic.ValueIdx Idealize.SL.Sem

/-! ## A region's arrays, at the buffer contents `V` it is entered with -/

section Regions
variable (V : (c : Dev nD) → (b : Ref sig .tc) → Buf (Elt Ideal) ((c : Thread nD τ).loc b))

/-- First feature transform: the padded features and the first weight matrix. -/
abbrev lhs0 (c : Dev nD) : S10240x256.Idx → EReal := V c main_v1
abbrev rhs0 (c : Dev nD) : S256x512.Idx → EReal := V c main_v2
/-- First aggregation: the normalised adjacency matrix, the transformed features, the bias as one row. -/
abbrev adj1 (c : Dev nD) : S10240x10240.Idx → EReal := V c main_v59
abbrev feat1 (c : Dev nD) : S10240x512.Idx → EReal := V c main_v60
abbrev bias1 (c : Dev nD) : S1x512.Idx → EReal := V c main_v4
/-- Second feature transform. -/
abbrev lhs2 (c : Dev nD) : S10240x512.Idx → EReal := V c main_v61
abbrev rhs2 (c : Dev nD) : S512x256.Idx → EReal := V c main_v3
/-- Second aggregation. -/
abbrev adj3 (c : Dev nD) : S10240x10240.Idx → EReal := V c main_v59
abbrev feat3 (c : Dev nD) : S10240x256.Idx → EReal := V c main_v62
abbrev bias3 (c : Dev nD) : S1x256.Idx → EReal := V c main_v5

/-- What each region leaves in its output array once its last block is written back. -/
abbrev out0 (c : Dev nD) : S10240x512.Idx → EReal := (dat0 V c).arrAt 2 cfg0.N
abbrev out1 (c : Dev nD) : S10240x512.Idx → EReal := (dat1 V c).arrAt 3 cfg1.N
abbrev out2 (c : Dev nD) : S10240x256.Idx → EReal := (dat2 V c).arrAt 2 cfg2.N
abbrev out3 (c : Dev nD) : S10240x256.Idx → EReal := (dat3 V c).arrAt 3 cfg3.N

end Regions

/-! ## The launch arguments -/

section Args
variable (m : (ℓ : Loc nD τ sig) → Buf (Elt Ideal) ℓ)

abbrev argX (c : Dev nD) : S10000x256.Idx → EReal := m ((c : Thread nD τ).loc main_arg0)
abbrev argW1 (c : Dev nD) : S256x512.Idx → EReal := m ((c : Thread nD τ).loc main_arg1)
abbrev argB1 (c : Dev nD) : S512.Idx → EReal := m ((c : Thread nD τ).loc main_arg2)
abbrev argW2 (c : Dev nD) : S512x256.Idx → EReal := m ((c : Thread nD τ).loc main_arg3)
abbrev argB2 (c : Dev nD) : S256.Idx → EReal := m ((c : Thread nD τ).loc main_arg4)
abbrev argE (c : Dev nD) : Cert.Spec.EdgeTab := m ((c : Thread nD τ).loc main_arg5)

end Args

end Cert.KernelIdeal.Val

end
-- ==== Proof.KRegionMm.lean ====
/-
  The two feature transforms.  Each runs over eight blocks of 1280 rows; at a block the body clears an accumulator,
  adds to it the product of the block's rows with the whole weight matrix, and stores the accumulator.  So the output
  array ends holding, at (i, q), the sum over k of row i of the left matrix times column q of the right one.

  This module: the first feature transform.  (1) What the body leaves in the output block is its last store's value:
  the accumulator read back after the zeros and then the zeros plus the product were stored into it, with the change of
  format applied.  (2) Read at (p, q) over the extended reals that value is the plain sum over the contracted axis:
  the zero word is 0, the change of format is the identity.  (3) Point t reads rows 1280 t … 1280 t + 1279 of the left
  matrix and all of the right one, and writes the same rows of the output; so what it writes back is the restriction
  to its block of ONE function of the two input arrays, the whole product.  (4) Row r of the output lies in the block
  of point r / 1280, so the eight blocks cover the array, and the array ends holding the whole product.
-/
import proofs.«414742_j37082747634687_3_alg».proof.Proof.KIface
import Idealize.ShloMosaic.Lib.Pipeline.Value
import Idealize.ShloMosaic.Lib.Tactic
import Idealize.ShloMosaic.Lib.ValueIdx
import Idealize.ShloMosaic.PureOps.Ideal.Laws

set_option maxRecDepth 16384

noncomputable section

open scoped BigOperators

namespace Cert.KernelIdeal.Val

open Cert.KernelIdeal Cert.KernelIdeal.Gen
open Idealize.ShloMosaic Idealize.ShloMosaic.TcCoe Idealize.ShloMosaic.ValueIdx Idealize.SL.Sem

variable (V : (c : Dev nD) → (b : Ref sig .tc) → Buf (Elt Ideal) ((c : Thread nD τ).loc b))

/-- The zero offsets of a whole-block access, as the constant function. -/
theorem mm0_hz : (![0, 0] : Fin 2 → Nat) = fun _ => 0 := funext fun a => by fin_cases a <;> rfl

/-! # The first feature transform (1280 × 256 blocks of rows times the 256 × 512 weights) -/

/-- What the body leaves in the output's staging buffer at any point: its last store's payload, the accumulator read
    back after the two stores into it (the zeros, then the zeros plus the product). -/
theorem mm0_piece {F : FTy → Type} [FloatOps F] (c : Dev nD) (i : grid0.Coords) (arg3 : Memref sig .tc .vmem S1280x256 .bf16) (harg3 : arg3.IsWhole)
    (arg4 : Memref sig .tc .vmem S256x512 .bf16) (harg4 : arg4.IsWhole) (arg5 : Memref sig .tc .vmem S1280x512 .bf16) (harg5 : arg5.IsWhole)
    (arg6 : Memref sig .tc .vmem S1280x512 .f32) (harg6 : arg6.IsWhole) (hc0 : cond0_0 i) (hc1 : cond0_1 i)
    (x0 : Vec F S1280x256 .bf16) (x1 : Vec F S256x512 .bf16) :
    out0_A_2 c i arg3 harg3 arg4 harg4 arg5 harg5 arg6 harg6 hc0 hc1 x0 x1 = k0_pay3 (k0_pay2 (k0_pay1 (F := F)) x0 x1) := by
  unfold out0_A_2
  rw [View.read_writes_eq_canon _ _ _ (cover0_A_2 c i arg3 harg3 arg4 harg4 arg5 harg5 arg6 harg6 hc0 hc1 x0 x1)]
  unfold kernelRun0_A
  dsimp only
  sl_unfold_words
  rw [View.canon_unit_zero mm0_hz]
  simp only [View.readAt_eq_ld, harg3.read_unread, harg4.read_unread, View.ld_unit_zero (S := S1280x256) mm0_hz, View.ld_unit_zero (S := S256x512) mm0_hz,
    View.readCov_cons_toLoadRect]

/-! The dot's operand indices at output index `j` and contraction index `q`, one axis at a time. -/
theorem mm0_lhs_0 (j : S1280x512.Idx) (q : dot_S1280x256_S256x512_S1280x512_1_0_0_1_n_n.contr.Idx) :
    (dot_S1280x256_S256x512_S1280x512_1_0_0_1_n_n.lhsIdx j q 0).val = (j 0).val := by
  unfold DotDims.lhsIdx
  rw [dif_neg (show ¬(0 : Fin S1280x256.rank) ∈ dot_S1280x256_S256x512_S1280x512_1_0_0_1_n_n.lhsBatch by decide), dif_pos (show (0 : Fin S1280x256.rank) ∈ dot_S1280x256_S256x512_S1280x512_1_0_0_1_n_n.lhsNonContracting by decide)]
  rfl
theorem mm0_lhs_1 (j : S1280x512.Idx) (q : dot_S1280x256_S256x512_S1280x512_1_0_0_1_n_n.contr.Idx) :
    (dot_S1280x256_S256x512_S1280x512_1_0_0_1_n_n.lhsIdx j q 1).val = (q ⟨0, by decide⟩).val :=
  dot_S1280x256_S256x512_S1280x512_1_0_0_1_n_n.lhsIdx_val_of_single rfl j q
theorem mm0_rhs_0 (j : S1280x512.Idx) (q : dot_S1280x256_S256x512_S1280x512_1_0_0_1_n_n.contr.Idx) :
    (dot_S1280x256_S256x512_S1280x512_1_0_0_1_n_n.rhsIdx j q 0).val = (q ⟨0, by decide⟩).val :=
  dot_S1280x256_S256x512_S1280x512_1_0_0_1_n_n.rhsIdx_val_of_single rfl j q
theorem mm0_rhs_1 (j : S1280x512.Idx) (q : dot_S1280x256_S256x512_S1280x512_1_0_0_1_n_n.contr.Idx) :
    (dot_S1280x256_S256x512_S1280x512_1_0_0_1_n_n.rhsIdx j q 1).val = (j 1).val := by
  unfold DotDims.rhsIdx
  rw [dif_neg (show ¬(1 : Fin S256x512.rank) ∈ dot_S1280x256_S256x512_S1280x512_1_0_0_1_n_n.rhsBatch by decide), dif_pos (show (1 : Fin S256x512.rank) ∈ dot_S1280x256_S256x512_S1280x512_1_0_0_1_n_n.rhsNonContracting by decide)]
  rfl

/-- The product of a block of rows with the weight matrix, into zeros, read at row `p`, column `q`: the sum over the
    contracted axis of the row's entries times the column's. -/
theorem mm0_dot_apply (x0 : FVec Ideal S1280x256 .bf16) (x1 : FVec Ideal S256x512 .bf16) (p : Fin 1280) (q : Fin 512) :
    FloatOps.matmul dot_S1280x256_S256x512_S1280x512_1_0_0_1_n_n none x0 x1 (constant S1280x512 .f32 0x00000000#32) (ix2 p q)
      = ∑ k : Fin 256, x0 (ix2 p k) * x1 (ix2 k q) := by
  rw [Ideal.matmul_constant_zero_apply, ← Equiv.sum_comp (ValueIdx.contrEquiv1 dot_S1280x256_S256x512_S1280x512_1_0_0_1_n_n 256 rfl rfl).symm]
  refine Finset.sum_congr rfl fun k _ => ?_
  have hk := ValueIdx.contrEquiv1_symm_val dot_S1280x256_S256x512_S1280x512_1_0_0_1_n_n 256 rfl rfl k
  have el : dot_S1280x256_S256x512_S1280x512_1_0_0_1_n_n.lhsIdx (ix2 p q) ((ValueIdx.contrEquiv1 dot_S1280x256_S256x512_S1280x512_1_0_0_1_n_n 256 rfl rfl).symm k) = ix2 p k := funext fun a => Fin.ext (by
    match a with
    | ⟨0, _⟩ => exact mm0_lhs_0 _ _
    | ⟨1, _⟩ => exact (mm0_lhs_1 _ _).trans hk)
  have er : dot_S1280x256_S256x512_S1280x512_1_0_0_1_n_n.rhsIdx (ix2 p q) ((ValueIdx.contrEquiv1 dot_S1280x256_S256x512_S1280x512_1_0_0_1_n_n 256 rfl rfl).symm k) = ix2 k q := funext fun a => Fin.ext (by
    match a with
    | ⟨0, _⟩ => exact (mm0_rhs_0 _ _).trans hk
    | ⟨1, _⟩ => exact mm0_rhs_1 _ _)
  rw [el, er]

/-- What the body leaves in the output block, read at row `p`, column `q`: zero, plus the product's entry, with the
    change of format the identity on the extended reals. -/
theorem mm0_pay_apply (x0 : FVec Ideal S1280x256 .bf16) (x1 : FVec Ideal S256x512 .bf16) (p : Fin 1280) (q : Fin 512) :
    k0_pay3 (k0_pay2 (k0_pay1 (F := Ideal)) x0 x1) (ix2 p q) = ∑ k : Fin 256, x0 (ix2 p k) * x1 (ix2 k q) := by
  unfold k0_pay3 k0_pay2 k0_pay1
  simp only [shapeCast_self]
  refine Eq.trans (b := Ideal.ofBits .f32 0x00000000#32
      + FloatOps.matmul dot_S1280x256_S256x512_S1280x512_1_0_0_1_n_n none x0 x1 (constant S1280x512 .f32 0x00000000#32) (ix2 p q)) rfl ?_
  rw [mm0_dot_apply, Ideal.ofBits_zero_f32, zero_add]

/-! ## The first transform: from blocks to the array -/

/-- The block of 1280 rows of the left matrix that point `t` reads, and the weight matrix as it reads it. -/
abbrev mm0_lblk (c : Dev nD) (t : Fin cfg0.N) : FVec Ideal S1280x256 .bf16 := iblk0 V c 0 t
abbrev mm0_rblk (c : Dev nD) (t : Fin cfg0.N) : FVec Ideal S256x512 .bf16 := iblk0 V c 1 t

/-- The whole product: at row `j 0`, column `j 1`, the sum over `k` of the left matrix's entry (j 0, k) times the
    right matrix's entry (k, j 1). -/
def mm0_G (c : Dev nD) : S10240x512.Idx → EReal := fun j => ∑ k : Fin 256, lhs0 V c (ix2 (j 0) k) * rhs0 V c (ix2 k (j 1))

/-- The three index maps over the eight points: point `t` reads block of rows `t` of the left matrix, the one block
    of the right matrix, and writes block of rows `t` of the output. -/
theorem mm0_idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) = t.val :=
  (by decide +kernel : ∀ t : Fin grid0.N, _)

/-- Row `p` of the block of rows at point `t` is the left matrix's row at the same place as row `p` of the output's
    block there. -/
theorem mm0_lblk_apply (c : Dev nD) (t : Fin cfg0.N) (p : Fin 1280) (q : Fin 512) (k : Fin 256) :
    mm0_lblk V c t (ix2 p k) = lhs0 V c (ix2 ((((cfg0.win 2).blk t).view.emb (ix2 p q)) 0) k) := by
  obtain ⟨e0, e1, e2, e3, e4, e5⟩ := mm0_idx_facts t
  show V c main_v1 (((cfg0.win 0).blk t).view.emb (ix2 p k)) = V c main_v1 (ix2 ((((cfg0.win 2).blk t).view.emb (ix2 p q)) 0) k)
  refine congrArg (V c main_v1) (funext fun a => Fin.ext ?_)
  match a with
  | ⟨0, _⟩ => show win0_0.index t (0 : Fin 2) * 1280 + 1 * p.val = win0_2.index t (0 : Fin 2) * 1280 + 1 * p.val; omega
  | ⟨1, _⟩ => show win0_0.index t (1 : Fin 2) * 256 + 1 * k.val = k.val; omega

/-- The weight matrix is read whole, and the output's block spans every column. -/
theorem mm0_rblk_apply (c : Dev nD) (t : Fin cfg0.N) (p : Fin 1280) (q : Fin 512) (k : Fin 256) :
    mm0_rblk V c t (ix2 k q) = rhs0 V c (ix2 k ((((cfg0.win 2).blk t).view.emb (ix2 p q)) 1)) := by
  obtain ⟨e0, e1, e2, e3, e4, e5⟩ := mm0_idx_facts t
  show V c main_v2 (((cfg0.win 1).blk t).view.emb (ix2 k q)) = V c main_v2 (ix2 k ((((cfg0.win 2).blk t).view.emb (ix2 p q)) 1))
  refine congrArg (V c main_v2) (funext fun a => Fin.ext ?_)
  match a with
  | ⟨0, _⟩ => show win0_1.index t (0 : Fin 2) * 256 + 1 * k.val = k.val; omega
  | ⟨1, _⟩ => show win0_1.index t (1 : Fin 2) * 512 + 1 * q.val = win0_2.index t (1 : Fin 2) * 512 + 1 * q.val; omega

/-- What point `t` writes back is block of rows `t` of the whole product. -/
theorem mm0_flushed (c : Dev nD) (t : Fin cfg0.N) :
    (dat0 V c).flushed 2 t = ((cfg0.win 2).blk t).view.read (Elt Ideal) (mm0_G V c) := by
  show (cfg0.win 2).cut (grid0.coords t) ((dat0 V c).after 2 t) = _
  rw [after0_2]
  unfold outsAt0
  rw [mm0_piece (F := Ideal) c (grid0.coords t) (ms0_0 t) (hs0_0 t) (ms0_1 t) (hs0_1 t) (ms0_2 t) (hs0_2 t) scM0_0
    (Memref.isWhole_whole _) (hcond0_0 t) (hcond0_1 t) (iblk0 V c 0 t) (iblk0 V c 1 t)]
  funext y
  obtain ⟨p, q, rfl⟩ : ∃ (p : Fin 1280) (q : Fin 512), y = ix2 p q := ⟨y 0, y 1, eq_ix2 y⟩
  show k0_pay3 (F := Ideal) (k0_pay2 (F := Ideal) (k0_pay1 (F := Ideal)) (mm0_lblk V c t) (mm0_rblk V c t)) (ix2 p q)
    = mm0_G V c (((cfg0.win 2).blk t).view.emb (ix2 p q))
  refine (mm0_pay_apply (mm0_lblk V c t) (mm0_rblk V c t) p q).trans ?_
  unfold mm0_G
  refine Finset.sum_congr rfl fun k _ => ?_
  rw [mm0_lblk_apply V c t p q k, mm0_rblk_apply V c t p q k]

/-- An index of the output array is in point `t`'s block iff each coordinate is in the block's range on its axis. -/
theorem mm0_mem_blk (t : Fin cfg0.N) (i : S10240x512.Idx) :
    i ∈ ((cfg0.win 2).blk t).view.set ↔ ∀ a : Fin 2, win0_2.index t a * S1280x512.size a ≤ (i a).val ∧ (i a).val < win0_2.index t a * S1280x512.size a + S1280x512.size a := by
  show i ∈ ((View.whole main_v60).slice (win0_2.rect t)).set ↔ _
  rw [View.set_slice_whole, Rect.mem_set_unit]
  exact Iff.rfl

/-- Every entry of the output array is written: row `r` by point `r / 1280`. -/
theorem mm0_cover (i : S10240x512.Idx) :
    ∃ t : Fin cfg0.N, (cfg0.win 2).flush t = true ∧ i ∈ ((cfg0.win 2).blk t).view.set := by
  have hi0 : (i 0).val < 10240 := idx2_lt0 i
  have hi1 : (i 1).val < 512 := idx2_lt1 i
  obtain ⟨t, ht⟩ : ∃ t : Fin cfg0.N, t.val = (i 0).val / 1280 := ⟨⟨(i 0).val / 1280, by show _ < grid0.N; rw [N_0]; omega⟩, rfl⟩
  obtain ⟨e0, e1, e2, e3, e4, e5⟩ := mm0_idx_facts t
  refine ⟨t, flush0_2 t, ?_⟩
  rw [mm0_mem_blk]
  intro a
  match a with
  | ⟨0, _⟩ => show win0_2.index t (0 : Fin 2) * 1280 ≤ (i 0).val ∧ (i 0).val < win0_2.index t (0 : Fin 2) * 1280 + 1280; omega
  | ⟨1, _⟩ => show win0_2.index t (1 : Fin 2) * 512 ≤ (i 1).val ∧ (i 1).val < win0_2.index t (1 : Fin 2) * 512 + 512; omega

/-- So the output array ends holding the whole product. -/
theorem mm0_final (c : Dev nD) : out0 V c = mm0_G V c :=
  (dat0 V c).arrAt_eq_of_cover 2 (mm0_G V c) (fun t _ => mm0_flushed V c t) mm0_cover

/-- The first feature transform's output, element by element. -/
theorem mm0_apply (c : Dev nD) (i : Fin 10240) (q : Fin 512) :
    out0 V c (ix2 i q) = ∑ k : Fin 256, lhs0 V c (ix2 i k) * rhs0 V c (ix2 k q) :=
  congrFun (mm0_final V c) (ix2 i q)

end Cert.KernelIdeal.Val

end
-- ==== Proof.KRegionMm2.lean ====
/-
  The two feature transforms.  Each runs over eight blocks of 1280 rows; at a block the body clears an accumulator,
  adds to it the product of the block's rows with the whole weight matrix, and stores the accumulator.  So the output
  array ends holding, at (i, q), the sum over k of row i of the left matrix times column q of the right one.

  This module: the second feature transform.  (1) What the body leaves in the output block is its last store's value:
  the accumulator read back after the zeros and then the zeros plus the product were stored into it, with the change of
  format applied.  (2) Read at (p, q) over the extended reals that value is the plain sum over the contracted axis:
  the zero word is 0, the change of format is the identity.  (3) Point t reads rows 1280 t … 1280 t + 1279 of the left
  matrix and all of the right one, and writes the same rows of the output; so what it writes back is the restriction
  to its block of ONE function of the two input arrays, the whole product.  (4) Row r of the output lies in the block
  of point r / 1280, so the eight blocks cover the array, and the array ends holding the whole product.
-/
import proofs.«414742_j37082747634687_3_alg».proof.Proof.KIface
import Idealize.ShloMosaic.Lib.Pipeline.Value
import Idealize.ShloMosaic.Lib.Tactic
import Idealize.ShloMosaic.Lib.ValueIdx
import Idealize.ShloMosaic.PureOps.Ideal.Laws

set_option maxRecDepth 16384

noncomputable section

open scoped BigOperators

namespace Cert.KernelIdeal.Val

open Cert.KernelIdeal Cert.KernelIdeal.Gen
open Idealize.ShloMosaic Idealize.ShloMosaic.TcCoe Idealize.ShloMosaic.ValueIdx Idealize.SL.Sem

variable (V : (c : Dev nD) → (b : Ref sig .tc) → Buf (Elt Ideal) ((c : Thread nD τ).loc b))

/-- The zero offsets of a whole-block access, as the constant function. -/
theorem mm2_hz : (![0, 0] : Fin 2 → Nat) = fun _ => 0 := funext fun a => by fin_cases a <;> rfl

/-! # The second feature transform (1280 × 512 blocks of rows times the 512 × 256 weights) -/

/-- What the body leaves in the output's staging buffer at any point: its last store's payload, the accumulator read
    back after the two stores into it (the zeros, then the zeros plus the product). -/
theorem mm2_piece {F : FTy → Type} [FloatOps F] (c : Dev nD) (i : grid2.Coords) (arg3 : Memref sig .tc .vmem S1280x512 .bf16) (harg3 : arg3.IsWhole)
    (arg4 : Memref sig .tc .vmem S512x256 .bf16) (harg4 : arg4.IsWhole) (arg5 : Memref sig .tc .vmem S1280x256 .bf16) (harg5 : arg5.IsWhole)
    (arg6 : Memref sig .tc .vmem S1280x256 .f32) (harg6 : arg6.IsWhole) (hc0 : cond2_0 i) (hc1 : cond2_1 i)
    (x0 : Vec F S1280x512 .bf16) (x1 : Vec F S512x256 .bf16) :
    out2_A_2 c i arg3 harg3 arg4 harg4 arg5 harg5 arg6 harg6 hc0 hc1 x0 x1 = k2_pay3 (k2_pay2 (k2_pay1 (F := F)) x0 x1) := by
  unfold out2_A_2
  rw [View.read_writes_eq_canon _ _ _ (cover2_A_2 c i arg3 harg3 arg4 harg4 arg5 harg5 arg6 harg6 hc0 hc1 x0 x1)]
  unfold kernelRun2_A
  dsimp only
  sl_unfold_words
  rw [View.canon_unit_zero mm2_hz]
  simp only [View.readAt_eq_ld, harg3.read_unread, harg4.read_unread, View.ld_unit_zero (S := S1280x512) mm2_hz, View.ld_unit_zero (S := S512x256) mm2_hz,
    View.readCov_cons_toLoadRect]

/-! The dot's operand indices at output index `j` and contraction index `q`, one axis at a time. -/
theorem mm2_lhs_0 (j : S1280x256.Idx) (q : dot_S1280x512_S512x256_S1280x256_1_0_0_1_n_n.contr.Idx) :
    (dot_S1280x512_S512x256_S1280x256_1_0_0_1_n_n.lhsIdx j q 0).val = (j 0).val := by
  unfold DotDims.lhsIdx
  rw [dif_neg (show ¬(0 : Fin S1280x512.rank) ∈ dot_S1280x512_S512x256_S1280x256_1_0_0_1_n_n.lhsBatch by decide), dif_pos (show (0 : Fin S1280x512.rank) ∈ dot_S1280x512_S512x256_S1280x256_1_0_0_1_n_n.lhsNonContracting by decide)]
  rfl
theorem mm2_lhs_1 (j : S1280x256.Idx) (q : dot_S1280x512_S512x256_S1280x256_1_0_0_1_n_n.contr.Idx) :
    (dot_S1280x512_S512x256_S1280x256_1_0_0_1_n_n.lhsIdx j q 1).val = (q ⟨0, by decide⟩).val :=
  dot_S1280x512_S512x256_S1280x256_1_0_0_1_n_n.lhsIdx_val_of_single rfl j q
theorem mm2_rhs_0 (j : S1280x256.Idx) (q : dot_S1280x512_S512x256_S1280x256_1_0_0_1_n_n.contr.Idx) :
    (dot_S1280x512_S512x256_S1280x256_1_0_0_1_n_n.rhsIdx j q 0).val = (q ⟨0, by decide⟩).val :=
  dot_S1280x512_S512x256_S1280x256_1_0_0_1_n_n.rhsIdx_val_of_single rfl j q
theorem mm2_rhs_1 (j : S1280x256.Idx) (q : dot_S1280x512_S512x256_S1280x256_1_0_0_1_n_n.contr.Idx) :
    (dot_S1280x512_S512x256_S1280x256_1_0_0_1_n_n.rhsIdx j q 1).val = (j 1).val := by
  unfold DotDims.rhsIdx
  rw [dif_neg (show ¬(1 : Fin S512x256.rank) ∈ dot_S1280x512_S512x256_S1280x256_1_0_0_1_n_n.rhsBatch by decide), dif_pos (show (1 : Fin S512x256.rank) ∈ dot_S1280x512_S512x256_S1280x256_1_0_0_1_n_n.rhsNonContracting by decide)]
  rfl

/-- The product of a block of rows with the weight matrix, into zeros, read at row `p`, column `q`: the sum over the
    contracted axis of the row's entries times the column's. -/
theorem mm2_dot_apply (x0 : FVec Ideal S1280x512 .bf16) (x1 : FVec Ideal S512x256 .bf16) (p : Fin 1280) (q : Fin 256) :
    FloatOps.matmul dot_S1280x512_S512x256_S1280x256_1_0_0_1_n_n none x0 x1 (constant S1280x256 .f32 0x00000000#32) (ix2 p q)
      = ∑ k : Fin 512, x0 (ix2 p k) * x1 (ix2 k q) := by
  rw [Ideal.matmul_constant_zero_apply, ← Equiv.sum_comp (ValueIdx.contrEquiv1 dot_S1280x512_S512x256_S1280x256_1_0_0_1_n_n 512 rfl rfl).symm]
  refine Finset.sum_congr rfl fun k _ => ?_
  have hk := ValueIdx.contrEquiv1_symm_val dot_S1280x512_S512x256_S1280x256_1_0_0_1_n_n 512 rfl rfl k
  have el : dot_S1280x512_S512x256_S1280x256_1_0_0_1_n_n.lhsIdx (ix2 p q) ((ValueIdx.contrEquiv1 dot_S1280x512_S512x256_S1280x256_1_0_0_1_n_n 512 rfl rfl).symm k) = ix2 p k := funext fun a => Fin.ext (by
    match a with
    | ⟨0, _⟩ => exact mm2_lhs_0 _ _
    | ⟨1, _⟩ => exact (mm2_lhs_1 _ _).trans hk)
  have er : dot_S1280x512_S512x256_S1280x256_1_0_0_1_n_n.rhsIdx (ix2 p q) ((ValueIdx.contrEquiv1 dot_S1280x512_S512x256_S1280x256_1_0_0_1_n_n 512 rfl rfl).symm k) = ix2 k q := funext fun a => Fin.ext (by
    match a with
    | ⟨0, _⟩ => exact (mm2_rhs_0 _ _).trans hk
    | ⟨1, _⟩ => exact mm2_rhs_1 _ _)
  rw [el, er]

/-- What the body leaves in the output block, read at row `p`, column `q`: zero, plus the product's entry, with the
    change of format the identity on the extended reals. -/
theorem mm2_pay_apply (x0 : FVec Ideal S1280x512 .bf16) (x1 : FVec Ideal S512x256 .bf16) (p : Fin 1280) (q : Fin 256) :
    k2_pay3 (k2_pay2 (k2_pay1 (F := Ideal)) x0 x1) (ix2 p q) = ∑ k : Fin 512, x0 (ix2 p k) * x1 (ix2 k q) := by
  unfold k2_pay3 k2_pay2 k2_pay1
  simp only [shapeCast_self]
  refine Eq.trans (b := Ideal.ofBits .f32 0x00000000#32
      + FloatOps.matmul dot_S1280x512_S512x256_S1280x256_1_0_0_1_n_n none x0 x1 (constant S1280x256 .f32 0x00000000#32) (ix2 p q)) rfl ?_
  rw [mm2_dot_apply, Ideal.ofBits_zero_f32, zero_add]

/-! ## The second transform: from blocks to the array -/

/-- The block of 1280 rows of the left matrix that point `t` reads, and the weight matrix as it reads it. -/
abbrev mm2_lblk (c : Dev nD) (t : Fin cfg2.N) : FVec Ideal S1280x512 .bf16 := iblk2 V c 0 t
abbrev mm2_rblk (c : Dev nD) (t : Fin cfg2.N) : FVec Ideal S512x256 .bf16 := iblk2 V c 1 t

/-- The whole product: at row `j 0`, column `j 1`, the sum over `k` of the left matrix's entry (j 0, k) times the
    right matrix's entry (k, j 1). -/
def mm2_G (c : Dev nD) : S10240x256.Idx → EReal := fun j => ∑ k : Fin 512, lhs2 V c (ix2 (j 0) k) * rhs2 V c (ix2 k (j 1))

/-- The three index maps over the eight points: point `t` reads block of rows `t` of the left matrix, the one block
    of the right matrix, and writes block of rows `t` of the output. -/
theorem mm2_idx_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) = t.val :=
  (by decide +kernel : ∀ t : Fin grid2.N, _)

/-- Row `p` of the block of rows at point `t` is the left matrix's row at the same place as row `p` of the output's
    block there. -/
theorem mm2_lblk_apply (c : Dev nD) (t : Fin cfg2.N) (p : Fin 1280) (q : Fin 256) (k : Fin 512) :
    mm2_lblk V c t (ix2 p k) = lhs2 V c (ix2 ((((cfg2.win 2).blk t).view.emb (ix2 p q)) 0) k) := by
  obtain ⟨e0, e1, e2, e3, e4, e5⟩ := mm2_idx_facts t
  show V c main_v61 (((cfg2.win 0).blk t).view.emb (ix2 p k)) = V c main_v61 (ix2 ((((cfg2.win 2).blk t).view.emb (ix2 p q)) 0) k)
  refine congrArg (V c main_v61) (funext fun a => Fin.ext ?_)
  match a with
  | ⟨0, _⟩ => show win2_0.index t (0 : Fin 2) * 1280 + 1 * p.val = win2_2.index t (0 : Fin 2) * 1280 + 1 * p.val; omega
  | ⟨1, _⟩ => show win2_0.index t (1 : Fin 2) * 512 + 1 * k.val = k.val; omega

/-- The weight matrix is read whole, and the output's block spans every column. -/
theorem mm2_rblk_apply (c : Dev nD) (t : Fin cfg2.N) (p : Fin 1280) (q : Fin 256) (k : Fin 512) :
    mm2_rblk V c t (ix2 k q) = rhs2 V c (ix2 k ((((cfg2.win 2).blk t).view.emb (ix2 p q)) 1)) := by
  obtain ⟨e0, e1, e2, e3, e4, e5⟩ := mm2_idx_facts t
  show V c main_v3 (((cfg2.win 1).blk t).view.emb (ix2 k q)) = V c main_v3 (ix2 k ((((cfg2.win 2).blk t).view.emb (ix2 p q)) 1))
  refine congrArg (V c main_v3) (funext fun a => Fin.ext ?_)
  match a with
  | ⟨0, _⟩ => show win2_1.index t (0 : Fin 2) * 512 + 1 * k.val = k.val; omega
  | ⟨1, _⟩ => show win2_1.index t (1 : Fin 2) * 256 + 1 * q.val = win2_2.index t (1 : Fin 2) * 256 + 1 * q.val; omega

/-- What point `t` writes back is block of rows `t` of the whole product. -/
theorem mm2_flushed (c : Dev nD) (t : Fin cfg2.N) :
    (dat2 V c).flushed 2 t = ((cfg2.win 2).blk t).view.read (Elt Ideal) (mm2_G V c) := by
  show (cfg2.win 2).cut (grid2.coords t) ((dat2 V c).after 2 t) = _
  rw [after2_2]
  unfold outsAt2
  rw [mm2_piece (F := Ideal) c (grid2.coords t) (ms2_0 t) (hs2_0 t) (ms2_1 t) (hs2_1 t) (ms2_2 t) (hs2_2 t) scM2_0
    (Memref.isWhole_whole _) (hcond2_0 t) (hcond2_1 t) (iblk2 V c 0 t) (iblk2 V c 1 t)]
  funext y
  obtain ⟨p, q, rfl⟩ : ∃ (p : Fin 1280) (q : Fin 256), y = ix2 p q := ⟨y 0, y 1, eq_ix2 y⟩
  show k2_pay3 (F := Ideal) (k2_pay2 (F := Ideal) (k2_pay1 (F := Ideal)) (mm2_lblk V c t) (mm2_rblk V c t)) (ix2 p q)
    = mm2_G V c (((cfg2.win 2).blk t).view.emb (ix2 p q))
  refine (mm2_pay_apply (mm2_lblk V c t) (mm2_rblk V c t) p q).trans ?_
  unfold mm2_G
  refine Finset.sum_congr rfl fun k _ => ?_
  rw [mm2_lblk_apply V c t p q k, mm2_rblk_apply V c t p q k]

/-- An index of the output array is in point `t`'s block iff each coordinate is in the block's range on its axis. -/
theorem mm2_mem_blk (t : Fin cfg2.N) (i : S10240x256.Idx) :
    i ∈ ((cfg2.win 2).blk t).view.set ↔ ∀ a : Fin 2, win2_2.index t a * S1280x256.size a ≤ (i a).val ∧ (i a).val < win2_2.index t a * S1280x256.size a + S1280x256.size a := by
  show i ∈ ((View.whole main_v62).slice (win2_2.rect t)).set ↔ _
  rw [View.set_slice_whole, Rect.mem_set_unit]
  exact Iff.rfl

/-- Every entry of the output array is written: row `r` by point `r / 1280`. -/
theorem mm2_cover (i : S10240x256.Idx) :
    ∃ t : Fin cfg2.N, (cfg2.win 2).flush t = true ∧ i ∈ ((cfg2.win 2).blk t).view.set := by
  have hi0 : (i 0).val < 10240 := idx2_lt0 i
  have hi1 : (i 1).val < 256 := idx2_lt1 i
  obtain ⟨t, ht⟩ : ∃ t : Fin cfg2.N, t.val = (i 0).val / 1280 := ⟨⟨(i 0).val / 1280, by show _ < grid2.N; rw [N_2]; omega⟩, rfl⟩
  obtain ⟨e0, e1, e2, e3, e4, e5⟩ := mm2_idx_facts t
  refine ⟨t, flush2_2 t, ?_⟩
  rw [mm2_mem_blk]
  intro a
  match a with
  | ⟨0, _⟩ => show win2_2.index t (0 : Fin 2) * 1280 ≤ (i 0).val ∧ (i 0).val < win2_2.index t (0 : Fin 2) * 1280 + 1280; omega
  | ⟨1, _⟩ => show win2_2.index t (1 : Fin 2) * 256 ≤ (i 1).val ∧ (i 1).val < win2_2.index t (1 : Fin 2) * 256 + 256; omega

/-- So the output array ends holding the whole product. -/
theorem mm2_final (c : Dev nD) : out2 V c = mm2_G V c :=
  (dat2 V c).arrAt_eq_of_cover 2 (mm2_G V c) (fun t _ => mm2_flushed V c t) mm2_cover

/-- The second feature transform's output, element by element. -/
theorem mm2_apply (c : Dev nD) (i : Fin 10240) (q : Fin 256) :
    out2 V c (ix2 i q) = ∑ k : Fin 512, lhs2 V c (ix2 i k) * rhs2 V c (ix2 k q) :=
  congrFun (mm2_final V c) (ix2 i q)

end Cert.KernelIdeal.Val

end
-- ==== Proof.KRegionAgg.lean ====
/-
  The first aggregation.  It runs over forty blocks of 256 rows; at a block the body multiplies the block's rows of
  the adjacency matrix with the whole feature matrix, adds the bias row, and clips at zero.  So the output array ends
  holding, at (i, q), the larger of zero and the sum over j of A(i, j) times H(j, q), plus the bias at q.
-/
import proofs.«414742_j37082747634687_3_alg».proof.Proof.KIface
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Val

open Cert.KernelIdeal Cert.KernelIdeal.Gen
open Idealize.ShloMosaic Idealize.ShloMosaic.TcCoe Idealize.ShloMosaic.ValueIdx Idealize.SL.Sem

variable (V : (c : Dev nD) → (b : Ref sig .tc) → Buf (Elt Ideal) ((c : Thread nD τ).loc b))

namespace Agg

/-! ## The first aggregation's body at one element

The body multiplies a block of 256 rows of the adjacency matrix with the whole feature matrix: the product's element
(p, q) is the sum over the 10240 columns j of A(p, j) times H(j, q).  The four lemmas below say which operand element
the contraction reads on each axis. -/

theorem lhs_agg1_0 (i : S256x512.Idx) (q : dot_S256x10240_S10240x512_S256x512_1_0_0_1_n_n.contr.Idx) :
    (dot_S256x10240_S10240x512_S256x512_1_0_0_1_n_n.lhsIdx i q 0).val = (i 0).val := by
  unfold DotDims.lhsIdx
  rw [dif_neg (show ¬(0 : Fin S256x10240.rank) ∈ dot_S256x10240_S10240x512_S256x512_1_0_0_1_n_n.lhsBatch by decide), dif_pos (show (0 : Fin S256x10240.rank) ∈ dot_S256x10240_S10240x512_S256x512_1_0_0_1_n_n.lhsNonContracting by decide)]
  rfl
theorem lhs_agg1_1 (i : S256x512.Idx) (q : dot_S256x10240_S10240x512_S256x512_1_0_0_1_n_n.contr.Idx) :
    (dot_S256x10240_S10240x512_S256x512_1_0_0_1_n_n.lhsIdx i q 1).val = (q ⟨0, by decide⟩).val :=
  dot_S256x10240_S10240x512_S256x512_1_0_0_1_n_n.lhsIdx_val_of_single rfl i q
theorem rhs_agg1_0 (i : S256x512.Idx) (q : dot_S256x10240_S10240x512_S256x512_1_0_0_1_n_n.contr.Idx) :
    (dot_S256x10240_S10240x512_S256x512_1_0_0_1_n_n.rhsIdx i q 0).val = (q ⟨0, by decide⟩).val :=
  dot_S256x10240_S10240x512_S256x512_1_0_0_1_n_n.rhsIdx_val_of_single rfl i q
theorem rhs_agg1_1 (i : S256x512.Idx) (q : dot_S256x10240_S10240x512_S256x512_1_0_0_1_n_n.contr.Idx) :
    (dot_S256x10240_S10240x512_S256x512_1_0_0_1_n_n.rhsIdx i q 1).val = (i 1).val := by
  unfold DotDims.rhsIdx
  rw [dif_neg (show ¬(1 : Fin S10240x512.rank) ∈ dot_S256x10240_S10240x512_S256x512_1_0_0_1_n_n.rhsBatch by decide), dif_pos (show (1 : Fin S10240x512.rank) ∈ dot_S256x10240_S10240x512_S256x512_1_0_0_1_n_n.rhsNonContracting by decide)]
  rfl

/-- The block product into a zero accumulator, at element (p, q): the sum over the columns j. -/
theorem prod1_apply (a : S256x10240.Idx → EReal) (h : S10240x512.Idx → EReal) (p : Fin 256) (q : Fin 512) :
    (matmul (F := Ideal) dot_S256x10240_S10240x512_S256x512_1_0_0_1_n_n none (φ₁ := .bf16) (φ₂ := .bf16) a h (constant S256x512 .f32 0x00000000#32) : S256x512.Idx → EReal) (ix2 p q)
      = ∑ j : Fin 10240, a (ix2 p j) * h (ix2 j q) := by
  simp only [matmul]
  rw [Ideal.matmul_constant_zero_apply, ← Equiv.sum_comp (ValueIdx.contrEquiv1 dot_S256x10240_S10240x512_S256x512_1_0_0_1_n_n 10240 rfl rfl).symm]
  refine Finset.sum_congr rfl fun k _ => ?_
  have hk := ValueIdx.contrEquiv1_symm_val dot_S256x10240_S10240x512_S256x512_1_0_0_1_n_n 10240 rfl rfl k
  have el : dot_S256x10240_S10240x512_S256x512_1_0_0_1_n_n.lhsIdx (ix2 p q) ((ValueIdx.contrEquiv1 dot_S256x10240_S10240x512_S256x512_1_0_0_1_n_n 10240 rfl rfl).symm k) = ix2 p k := funext fun a => Fin.ext (by
    match a with
    | ⟨0, _⟩ => exact lhs_agg1_0 _ _
    | ⟨1, _⟩ => exact (lhs_agg1_1 _ _).trans hk)
  have er : dot_S256x10240_S10240x512_S256x512_1_0_0_1_n_n.rhsIdx (ix2 p q) ((ValueIdx.contrEquiv1 dot_S256x10240_S10240x512_S256x512_1_0_0_1_n_n 10240 rfl rfl).symm k) = ix2 k q := funext fun a => Fin.ext (by
    match a with
    | ⟨0, _⟩ => exact (rhs_agg1_0 _ _).trans hk
    | ⟨1, _⟩ => exact rhs_agg1_1 _ _)
  rw [el, er]

/-- The bias row spread down the 256 rows, at element (p, q): the row's entry q. -/
theorem bias1_spread_apply (b : S1x512.Idx → EReal) (p : Fin 256) (q : Fin 512) :
    broadcastTo S256x512 b broadcasts_S1x512_S256x512 (ix2 p q) = b (ix2 (0 : Fin 1) q) :=
  broadcastTo_apply b broadcasts_S1x512_S256x512 (ix2 p q) (ix2 (0 : Fin 1) q) (fun a => by
    match a with
    | ⟨0, _⟩ => rfl
    | ⟨1, _⟩ => rfl)

/-- The body's result at element (p, q): the product's element plus the bias at q, clipped at zero. -/
theorem pay1_apply (a : S256x10240.Idx → EReal) (h : S10240x512.Idx → EReal) (b : S1x512.Idx → EReal) (p : Fin 256) (q : Fin 512) :
    (k1_pay1 (F := Ideal) a h b : S256x512.Idx → EReal) (ix2 p q)
      = max ((∑ j : Fin 10240, a (ix2 p j) * h (ix2 j q)) + b (ix2 (0 : Fin 1) q)) 0 := by
  unfold k1_pay1
  simp only [shapeCast_self]
  show max ((matmul (F := Ideal) dot_S256x10240_S10240x512_S256x512_1_0_0_1_n_n none (φ₁ := .bf16) (φ₂ := .bf16) a h (constant S256x512 .f32 0x00000000#32) : S256x512.Idx → EReal) (ix2 p q)
        + broadcastTo S256x512 b broadcasts_S1x512_S256x512 (ix2 p q)) (Ideal.ofBits .f32 0x00000000#32) = _
  refine congrArg₂ max (congrArg₂ (· + ·) ?_ ?_) ?_
  · exact prod1_apply a h p q
  · exact bias1_spread_apply b p q
  · exact Ideal.ofBits_zero_f32

/-! ## From the blocks to the first aggregation's output array

Grid point t works on rows 256 t … 256 t + 255: it reads those rows of the adjacency matrix, the whole feature matrix
and the whole bias row, and writes those rows of the output.  So what every point writes back is its block of ONE
function of the three input arrays, and the forty blocks fill the output. -/

theorem zero_offsets : (![0, 0] : Fin 2 → Nat) = fun _ => 0 := funext fun a => by fin_cases a <;> rfl

/-- The three input blocks at a point: 256 rows of the adjacency matrix, the feature matrix, the bias row. -/
abbrev ablk1 (c : Dev nD) (t : Fin cfg1.N) : S256x10240.Idx → EReal := iblk1 V c 0 t
abbrev hblk1 (c : Dev nD) (t : Fin cfg1.N) : S10240x512.Idx → EReal := iblk1 V c 1 t
abbrev bblk1 (c : Dev nD) (t : Fin cfg1.N) : S1x512.Idx → EReal := iblk1 V c 2 t

/-- The aggregation of whole arrays: at (i, q), the sum over j of A(i, j) H(j, q), plus the bias at q, clipped at zero. -/
abbrev aggOut1 (A : S10240x10240.Idx → EReal) (H : S10240x512.Idx → EReal) (b : S1x512.Idx → EReal) : S10240x512.Idx → EReal :=
  fun i => max ((∑ j : Fin 10240, A (ix2 (i 0) j) * H (ix2 j (i 1))) + b (ix2 (0 : Fin 1) (i 1))) 0

/-- The block numbers of the four windows at a point: the adjacency matrix and the output move with the point, one
    block of rows each; the feature matrix and the bias row stay whole. -/
theorem block_numbers1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem point_lt1 (t : Fin cfg1.N) : t.val < 40 := lt_of_lt_of_eq t.isLt N_1

/-- Row p of the adjacency block at point t is row 256 t + p of the adjacency matrix. -/
theorem ablk1_apply (c : Dev nD) (t : Fin cfg1.N) (p : Fin 256) (j : Fin 10240) (r : Fin 10240) (hr : r.val = 256 * t.val + p.val) :
    ablk1 V c t (ix2 p j) = adj1 V c (ix2 r j) := by
  obtain ⟨e0, e1, -⟩ := block_numbers1 t
  show V c main_v59 (((cfg1.win 0).blk t).view.emb (ix2 p j)) = V c main_v59 (ix2 r j)
  refine congrArg (V c main_v59) (funext fun a => Fin.ext ?_)
  match a with
  | ⟨0, _⟩ => show win1_0.index t (0 : Fin 2) * 256 + 1 * p.val = r.val; omega
  | ⟨1, _⟩ => show win1_0.index t (1 : Fin 2) * 10240 + 1 * j.val = j.val; omega

/-- The feature block at any point is the whole feature matrix. -/
theorem hblk1_apply (c : Dev nD) (t : Fin cfg1.N) (j : Fin 10240) (q : Fin 512) :
    hblk1 V c t (ix2 j q) = feat1 V c (ix2 j q) := by
  obtain ⟨-, -, e2, e3, -⟩ := block_numbers1 t
  show V c main_v60 (((cfg1.win 1).blk t).view.emb (ix2 j q)) = V c main_v60 (ix2 j q)
  refine congrArg (V c main_v60) (funext fun a => Fin.ext ?_)
  match a with
  | ⟨0, _⟩ => show win1_1.index t (0 : Fin 2) * 10240 + 1 * j.val = j.val; omega
  | ⟨1, _⟩ => show win1_1.index t (1 : Fin 2) * 512 + 1 * q.val = q.val; omega

/-- The bias block at any point is the whole bias row. -/
theorem bblk1_apply (c : Dev nD) (t : Fin cfg1.N) (z : Fin 1) (q : Fin 512) :
    bblk1 V c t (ix2 z q) = bias1 V c (ix2 z q) := by
  obtain ⟨-, -, -, -, e4, e5, -⟩ := block_numbers1 t
  show V c main_v4 (((cfg1.win 2).blk t).view.emb (ix2 z q)) = V c main_v4 (ix2 z q)
  refine congrArg (V c main_v4) (funext fun a => Fin.ext ?_)
  match a with
  | ⟨0, _⟩ => show win1_2.index t (0 : Fin 2) * 1 + 1 * z.val = z.val; omega
  | ⟨1, _⟩ => show win1_2.index t (1 : Fin 2) * 512 + 1 * q.val = q.val; omega

/-- Element (p, q) of the output block at point t sits at (256 t + p, q) of the output array. -/
theorem oblk1_place (t : Fin cfg1.N) (p : Fin 256) (q : Fin 512) (r : Fin 10240) (hr : r.val = 256 * t.val + p.val) :
    ((cfg1.win 3).blk t).view.emb (ix2 p q) = (ix2 r q : S10240x512.Idx) := by
  obtain ⟨-, -, -, -, -, -, e6, e7⟩ := block_numbers1 t
  refine funext fun a => Fin.ext ?_
  match a with
  | ⟨0, _⟩ => show win1_3.index t (0 : Fin 2) * 256 + 1 * p.val = r.val; omega
  | ⟨1, _⟩ => show win1_3.index t (1 : Fin 2) * 512 + 1 * q.val = q.val; omega

/-- What point t writes back is block t of the aggregation of the region's three input arrays. -/
theorem flushed1_eq (c : Dev nD) (t : Fin cfg1.N) :
    (dat1 V c).flushed 3 t = ((cfg1.win 3).blk t).view.read (Elt Ideal) (aggOut1 (adj1 V c) (feat1 V c) (bias1 V c)) := by
  show (cfg1.win 3).cut (grid1.coords t) ((dat1 V c).after 3 t) = _
  rw [after1_3]
  unfold out1_3
  rw [View.canon_unit_zero zero_offsets]
  simp only [View.ld_unit_zero (S := S256x10240) zero_offsets, View.ld_unit_zero (S := S10240x512) zero_offsets, View.ld_unit_zero (S := S1x512) zero_offsets]
  funext y
  obtain ⟨p, q, rfl⟩ : ∃ (p : Fin 256) (q : Fin 512), y = ix2 p q := ⟨y 0, y 1, eq_ix2 y⟩
  have ht := point_lt1 t
  have hr : 256 * t.val + p.val < 10240 := by have := p.isLt; omega
  show (k1_pay1 (F := Ideal) (ablk1 V c t) (hblk1 V c t) (bblk1 V c t) : S256x512.Idx → EReal) (ix2 p q)
      = aggOut1 (adj1 V c) (feat1 V c) (bias1 V c) (((cfg1.win 3).blk t).view.emb (ix2 p q))
  refine (pay1_apply (ablk1 V c t) (hblk1 V c t) (bblk1 V c t) p q).trans ?_
  refine Eq.trans ?_ (congrArg (aggOut1 (adj1 V c) (feat1 V c) (bias1 V c)) (oblk1_place t p q ⟨256 * t.val + p.val, hr⟩ rfl)).symm
  show max ((∑ j : Fin 10240, ablk1 V c t (ix2 p j) * hblk1 V c t (ix2 j q)) + bblk1 V c t (ix2 (0 : Fin 1) q)) 0
      = max ((∑ j : Fin 10240, adj1 V c (ix2 (⟨256 * t.val + p.val, hr⟩ : Fin 10240) j) * feat1 V c (ix2 j q)) + bias1 V c (ix2 (0 : Fin 1) q)) 0
  refine congrArg₂ max (congrArg₂ (· + ·) (Finset.sum_congr rfl fun j _ => congrArg₂ (· * ·) ?_ ?_) ?_) rfl
  · exact ablk1_apply V c t p j ⟨256 * t.val + p.val, hr⟩ rfl
  · exact hblk1_apply V c t j q
  · exact bblk1_apply V c t 0 q

/-- An index of the output array is in point t's block iff each coordinate is in the block's range on its axis. -/
theorem mem_oblk1 (t : Fin cfg1.N) (i : S10240x512.Idx) :
    i ∈ ((cfg1.win 3).blk t).view.set ↔ ∀ a : Fin 2, win1_3.index t a * S256x512.size a ≤ (i a).val ∧ (i a).val < win1_3.index t a * S256x512.size a + S256x512.size a := by
  show i ∈ ((View.whole main_v61).slice (win1_3.rect t)).set ↔ _
  rw [View.set_slice_whole, Rect.mem_set_unit]
  exact Iff.rfl

/-- Every row r of the output is in the block of point r / 256. -/
theorem cover1 (i : S10240x512.Idx) : ∃ t : Fin cfg1.N, (cfg1.win 3).flush t = true ∧ i ∈ ((cfg1.win 3).blk t).view.set := by
  have hi0 : (i 0).val < 10240 := (i 0).isLt
  have hi1 : (i 1).val < 512 := (i 1).isLt
  obtain ⟨t, ht⟩ : ∃ t : Fin cfg1.N, t.val = (i 0).val / 256 :=
    ⟨⟨(i 0).val / 256, lt_of_lt_of_eq (by omega : (i 0).val / 256 < 40) N_1.symm⟩, rfl⟩
  obtain ⟨-, -, -, -, -, -, e6, e7⟩ := block_numbers1 t
  refine ⟨t, flush1_3 t, ?_⟩
  rw [mem_oblk1]
  intro a
  match a with
  | ⟨0, _⟩ => show win1_3.index t (0 : Fin 2) * 256 ≤ (i 0).val ∧ (i 0).val < win1_3.index t (0 : Fin 2) * 256 + 256; omega
  | ⟨1, _⟩ => show win1_3.index t (1 : Fin 2) * 512 ≤ (i 1).val ∧ (i 1).val < win1_3.index t (1 : Fin 2) * 512 + 512; omega

/-- So the output array ends holding the aggregation of the three input arrays. -/
theorem out1_eq (c : Dev nD) : out1 V c = aggOut1 (adj1 V c) (feat1 V c) (bias1 V c) :=
  (dat1 V c).arrAt_eq_of_cover 3 (aggOut1 (adj1 V c) (feat1 V c) (bias1 V c)) (fun t _ => flushed1_eq V c t) cover1

end Agg

/-- The first aggregation's output, element by element. -/
theorem agg1_apply (c : Dev nD) (i : Fin 10240) (q : Fin 512) :
    out1 V c (ix2 i q)
      = max ((∑ j : Fin 10240, adj1 V c (ix2 i j) * feat1 V c (ix2 j q)) + bias1 V c (ix2 (0 : Fin 1) q)) 0 := by
  exact congrFun (Agg.out1_eq V c) (ix2 i q)

end Cert.KernelIdeal.Val

end
-- ==== Proof.KRegionAgg3.lean ====
/-
  The second aggregation.  It runs over forty blocks of 256 rows; at a block the body multiplies the block's rows of
  the adjacency matrix with the whole feature matrix, adds the bias row, and clips at zero.  So the output array ends
  holding, at (i, q), the larger of zero and the sum over j of A(i, j) times H(j, q), plus the bias at q.
-/
import proofs.«414742_j37082747634687_3_alg».proof.Proof.KIface
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Val

open Cert.KernelIdeal Cert.KernelIdeal.Gen
open Idealize.ShloMosaic Idealize.ShloMosaic.TcCoe Idealize.ShloMosaic.ValueIdx Idealize.SL.Sem

variable (V : (c : Dev nD) → (b : Ref sig .tc) → Buf (Elt Ideal) ((c : Thread nD τ).loc b))

namespace Agg3

/-! ## The second aggregation's body at one element

The body multiplies a block of 256 rows of the adjacency matrix with the whole feature matrix: the product's element
(p, q) is the sum over the 10240 columns j of A(p, j) times H(j, q).  The four lemmas below say which operand element
the contraction reads on each axis. -/

theorem lhs_agg3_0 (i : S256x256.Idx) (q : dot_S256x10240_S10240x256_S256x256_1_0_0_1_n_n.contr.Idx) :
    (dot_S256x10240_S10240x256_S256x256_1_0_0_1_n_n.lhsIdx i q 0).val = (i 0).val := by
  unfold DotDims.lhsIdx
  rw [dif_neg (show ¬(0 : Fin S256x10240.rank) ∈ dot_S256x10240_S10240x256_S256x256_1_0_0_1_n_n.lhsBatch by decide), dif_pos (show (0 : Fin S256x10240.rank) ∈ dot_S256x10240_S10240x256_S256x256_1_0_0_1_n_n.lhsNonContracting by decide)]
  rfl
theorem lhs_agg3_1 (i : S256x256.Idx) (q : dot_S256x10240_S10240x256_S256x256_1_0_0_1_n_n.contr.Idx) :
    (dot_S256x10240_S10240x256_S256x256_1_0_0_1_n_n.lhsIdx i q 1).val = (q ⟨0, by decide⟩).val :=
  dot_S256x10240_S10240x256_S256x256_1_0_0_1_n_n.lhsIdx_val_of_single rfl i q
theorem rhs_agg3_0 (i : S256x256.Idx) (q : dot_S256x10240_S10240x256_S256x256_1_0_0_1_n_n.contr.Idx) :
    (dot_S256x10240_S10240x256_S256x256_1_0_0_1_n_n.rhsIdx i q 0).val = (q ⟨0, by decide⟩).val :=
  dot_S256x10240_S10240x256_S256x256_1_0_0_1_n_n.rhsIdx_val_of_single rfl i q
theorem rhs_agg3_1 (i : S256x256.Idx) (q : dot_S256x10240_S10240x256_S256x256_1_0_0_1_n_n.contr.Idx) :
    (dot_S256x10240_S10240x256_S256x256_1_0_0_1_n_n.rhsIdx i q 1).val = (i 1).val := by
  unfold DotDims.rhsIdx
  rw [dif_neg (show ¬(1 : Fin S10240x256.rank) ∈ dot_S256x10240_S10240x256_S256x256_1_0_0_1_n_n.rhsBatch by decide), dif_pos (show (1 : Fin S10240x256.rank) ∈ dot_S256x10240_S10240x256_S256x256_1_0_0_1_n_n.rhsNonContracting by decide)]
  rfl

/-- The block product into a zero accumulator, at element (p, q): the sum over the columns j. -/
theorem prod3_apply (a : S256x10240.Idx → EReal) (h : S10240x256.Idx → EReal) (p : Fin 256) (q : Fin 256) :
    (matmul (F := Ideal) dot_S256x10240_S10240x256_S256x256_1_0_0_1_n_n none (φ₁ := .bf16) (φ₂ := .bf16) a h (constant S256x256 .f32 0x00000000#32) : S256x256.Idx → EReal) (ix2 p q)
      = ∑ j : Fin 10240, a (ix2 p j) * h (ix2 j q) := by
  simp only [matmul]
  rw [Ideal.matmul_constant_zero_apply, ← Equiv.sum_comp (ValueIdx.contrEquiv1 dot_S256x10240_S10240x256_S256x256_1_0_0_1_n_n 10240 rfl rfl).symm]
  refine Finset.sum_congr rfl fun k _ => ?_
  have hk := ValueIdx.contrEquiv1_symm_val dot_S256x10240_S10240x256_S256x256_1_0_0_1_n_n 10240 rfl rfl k
  have el : dot_S256x10240_S10240x256_S256x256_1_0_0_1_n_n.lhsIdx (ix2 p q) ((ValueIdx.contrEquiv1 dot_S256x10240_S10240x256_S256x256_1_0_0_1_n_n 10240 rfl rfl).symm k) = ix2 p k := funext fun a => Fin.ext (by
    match a with
    | ⟨0, _⟩ => exact lhs_agg3_0 _ _
    | ⟨1, _⟩ => exact (lhs_agg3_1 _ _).trans hk)
  have er : dot_S256x10240_S10240x256_S256x256_1_0_0_1_n_n.rhsIdx (ix2 p q) ((ValueIdx.contrEquiv1 dot_S256x10240_S10240x256_S256x256_1_0_0_1_n_n 10240 rfl rfl).symm k) = ix2 k q := funext fun a => Fin.ext (by
    match a with
    | ⟨0, _⟩ => exact (rhs_agg3_0 _ _).trans hk
    | ⟨1, _⟩ => exact rhs_agg3_1 _ _)
  rw [el, er]

/-- The bias row spread down the 256 rows, at element (p, q): the row's entry q. -/
theorem bias3_spread_apply (b : S1x256.Idx → EReal) (p : Fin 256) (q : Fin 256) :
    broadcastTo S256x256 b broadcasts_S1x256_S256x256 (ix2 p q) = b (ix2 (0 : Fin 1) q) :=
  broadcastTo_apply b broadcasts_S1x256_S256x256 (ix2 p q) (ix2 (0 : Fin 1) q) (fun a => by
    match a with
    | ⟨0, _⟩ => rfl
    | ⟨1, _⟩ => rfl)

/-- The body's result at element (p, q): the product's element plus the bias at q, clipped at zero. -/
theorem pay3_apply (a : S256x10240.Idx → EReal) (h : S10240x256.Idx → EReal) (b : S1x256.Idx → EReal) (p : Fin 256) (q : Fin 256) :
    (k3_pay1 (F := Ideal) a h b : S256x256.Idx → EReal) (ix2 p q)
      = max ((∑ j : Fin 10240, a (ix2 p j) * h (ix2 j q)) + b (ix2 (0 : Fin 1) q)) 0 := by
  unfold k3_pay1
  simp only [shapeCast_self]
  show max ((matmul (F := Ideal) dot_S256x10240_S10240x256_S256x256_1_0_0_1_n_n none (φ₁ := .bf16) (φ₂ := .bf16) a h (constant S256x256 .f32 0x00000000#32) : S256x256.Idx → EReal) (ix2 p q)
        + broadcastTo S256x256 b broadcasts_S1x256_S256x256 (ix2 p q)) (Ideal.ofBits .f32 0x00000000#32) = _
  refine congrArg₂ max (congrArg₂ (· + ·) ?_ ?_) ?_
  · exact prod3_apply a h p q
  · exact bias3_spread_apply b p q
  · exact Ideal.ofBits_zero_f32

/-! ## From the blocks to the second aggregation's output array

Grid point t works on rows 256 t … 256 t + 255: it reads those rows of the adjacency matrix, the whole feature matrix
and the whole bias row, and writes those rows of the output.  So what every point writes back is its block of ONE
function of the three input arrays, and the forty blocks fill the output. -/

theorem zero_offsets : (![0, 0] : Fin 2 → Nat) = fun _ => 0 := funext fun a => by fin_cases a <;> rfl

/-- The three input blocks at a point: 256 rows of the adjacency matrix, the feature matrix, the bias row. -/
abbrev ablk3 (c : Dev nD) (t : Fin cfg3.N) : S256x10240.Idx → EReal := iblk3 V c 0 t
abbrev hblk3 (c : Dev nD) (t : Fin cfg3.N) : S10240x256.Idx → EReal := iblk3 V c 1 t
abbrev bblk3 (c : Dev nD) (t : Fin cfg3.N) : S1x256.Idx → EReal := iblk3 V c 2 t

/-- The aggregation of whole arrays: at (i, q), the sum over j of A(i, j) H(j, q), plus the bias at q, clipped at zero. -/
abbrev aggOut3 (A : S10240x10240.Idx → EReal) (H : S10240x256.Idx → EReal) (b : S1x256.Idx → EReal) : S10240x256.Idx → EReal :=
  fun i => max ((∑ j : Fin 10240, A (ix2 (i 0) j) * H (ix2 j (i 1))) + b (ix2 (0 : Fin 1) (i 1))) 0

/-- The block numbers of the four windows at a point: the adjacency matrix and the output move with the point, one
    block of rows each; the feature matrix and the bias row stay whole. -/
theorem block_numbers3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

theorem point_lt3 (t : Fin cfg3.N) : t.val < 40 := lt_of_lt_of_eq t.isLt N_3

/-- Row p of the adjacency block at point t is row 256 t + p of the adjacency matrix. -/
theorem ablk3_apply (c : Dev nD) (t : Fin cfg3.N) (p : Fin 256) (j : Fin 10240) (r : Fin 10240) (hr : r.val = 256 * t.val + p.val) :
    ablk3 V c t (ix2 p j) = adj3 V c (ix2 r j) := by
  obtain ⟨e0, e1, -⟩ := block_numbers3 t
  show V c main_v59 (((cfg3.win 0).blk t).view.emb (ix2 p j)) = V c main_v59 (ix2 r j)
  refine congrArg (V c main_v59) (funext fun a => Fin.ext ?_)
  match a with
  | ⟨0, _⟩ => show win3_0.index t (0 : Fin 2) * 256 + 1 * p.val = r.val; omega
  | ⟨1, _⟩ => show win3_0.index t (1 : Fin 2) * 10240 + 1 * j.val = j.val; omega

/-- The feature block at any point is the whole feature matrix. -/
theorem hblk3_apply (c : Dev nD) (t : Fin cfg3.N) (j : Fin 10240) (q : Fin 256) :
    hblk3 V c t (ix2 j q) = feat3 V c (ix2 j q) := by
  obtain ⟨-, -, e2, e3, -⟩ := block_numbers3 t
  show V c main_v62 (((cfg3.win 1).blk t).view.emb (ix2 j q)) = V c main_v62 (ix2 j q)
  refine congrArg (V c main_v62) (funext fun a => Fin.ext ?_)
  match a with
  | ⟨0, _⟩ => show win3_1.index t (0 : Fin 2) * 10240 + 1 * j.val = j.val; omega
  | ⟨1, _⟩ => show win3_1.index t (1 : Fin 2) * 256 + 1 * q.val = q.val; omega

/-- The bias block at any point is the whole bias row. -/
theorem bblk3_apply (c : Dev nD) (t : Fin cfg3.N) (z : Fin 1) (q : Fin 256) :
    bblk3 V c t (ix2 z q) = bias3 V c (ix2 z q) := by
  obtain ⟨-, -, -, -, e4, e5, -⟩ := block_numbers3 t
  show V c main_v5 (((cfg3.win 2).blk t).view.emb (ix2 z q)) = V c main_v5 (ix2 z q)
  refine congrArg (V c main_v5) (funext fun a => Fin.ext ?_)
  match a with
  | ⟨0, _⟩ => show win3_2.index t (0 : Fin 2) * 1 + 1 * z.val = z.val; omega
  | ⟨1, _⟩ => show win3_2.index t (1 : Fin 2) * 256 + 1 * q.val = q.val; omega

/-- Element (p, q) of the output block at point t sits at (256 t + p, q) of the output array. -/
theorem oblk3_place (t : Fin cfg3.N) (p : Fin 256) (q : Fin 256) (r : Fin 10240) (hr : r.val = 256 * t.val + p.val) :
    ((cfg3.win 3).blk t).view.emb (ix2 p q) = (ix2 r q : S10240x256.Idx) := by
  obtain ⟨-, -, -, -, -, -, e6, e7⟩ := block_numbers3 t
  refine funext fun a => Fin.ext ?_
  match a with
  | ⟨0, _⟩ => show win3_3.index t (0 : Fin 2) * 256 + 1 * p.val = r.val; omega
  | ⟨1, _⟩ => show win3_3.index t (1 : Fin 2) * 256 + 1 * q.val = q.val; omega

/-- What point t writes back is block t of the aggregation of the region's three input arrays. -/
theorem flushed3_eq (c : Dev nD) (t : Fin cfg3.N) :
    (dat3 V c).flushed 3 t = ((cfg3.win 3).blk t).view.read (Elt Ideal) (aggOut3 (adj3 V c) (feat3 V c) (bias3 V c)) := by
  show (cfg3.win 3).cut (grid3.coords t) ((dat3 V c).after 3 t) = _
  rw [after3_3]
  unfold out3_3
  rw [View.canon_unit_zero zero_offsets]
  simp only [View.ld_unit_zero (S := S256x10240) zero_offsets, View.ld_unit_zero (S := S10240x256) zero_offsets, View.ld_unit_zero (S := S1x256) zero_offsets]
  funext y
  obtain ⟨p, q, rfl⟩ : ∃ (p : Fin 256) (q : Fin 256), y = ix2 p q := ⟨y 0, y 1, eq_ix2 y⟩
  have ht := point_lt3 t
  have hr : 256 * t.val + p.val < 10240 := by have := p.isLt; omega
  show (k3_pay1 (F := Ideal) (ablk3 V c t) (hblk3 V c t) (bblk3 V c t) : S256x256.Idx → EReal) (ix2 p q)
      = aggOut3 (adj3 V c) (feat3 V c) (bias3 V c) (((cfg3.win 3).blk t).view.emb (ix2 p q))
  refine (pay3_apply (ablk3 V c t) (hblk3 V c t) (bblk3 V c t) p q).trans ?_
  refine Eq.trans ?_ (congrArg (aggOut3 (adj3 V c) (feat3 V c) (bias3 V c)) (oblk3_place t p q ⟨256 * t.val + p.val, hr⟩ rfl)).symm
  show max ((∑ j : Fin 10240, ablk3 V c t (ix2 p j) * hblk3 V c t (ix2 j q)) + bblk3 V c t (ix2 (0 : Fin 1) q)) 0
      = max ((∑ j : Fin 10240, adj3 V c (ix2 (⟨256 * t.val + p.val, hr⟩ : Fin 10240) j) * feat3 V c (ix2 j q)) + bias3 V c (ix2 (0 : Fin 1) q)) 0
  refine congrArg₂ max (congrArg₂ (· + ·) (Finset.sum_congr rfl fun j _ => congrArg₂ (· * ·) ?_ ?_) ?_) rfl
  · exact ablk3_apply V c t p j ⟨256 * t.val + p.val, hr⟩ rfl
  · exact hblk3_apply V c t j q
  · exact bblk3_apply V c t 0 q

/-- An index of the output array is in point t's block iff each coordinate is in the block's range on its axis. -/
theorem mem_oblk3 (t : Fin cfg3.N) (i : S10240x256.Idx) :
    i ∈ ((cfg3.win 3).blk t).view.set ↔ ∀ a : Fin 2, win3_3.index t a * S256x256.size a ≤ (i a).val ∧ (i a).val < win3_3.index t a * S256x256.size a + S256x256.size a := by
  show i ∈ ((View.whole main_v63).slice (win3_3.rect t)).set ↔ _
  rw [View.set_slice_whole, Rect.mem_set_unit]
  exact Iff.rfl

/-- Every row r of the output is in the block of point r / 256. -/
theorem cover3 (i : S10240x256.Idx) : ∃ t : Fin cfg3.N, (cfg3.win 3).flush t = true ∧ i ∈ ((cfg3.win 3).blk t).view.set := by
  have hi0 : (i 0).val < 10240 := (i 0).isLt
  have hi1 : (i 1).val < 256 := (i 1).isLt
  obtain ⟨t, ht⟩ : ∃ t : Fin cfg3.N, t.val = (i 0).val / 256 :=
    ⟨⟨(i 0).val / 256, lt_of_lt_of_eq (by omega : (i 0).val / 256 < 40) N_3.symm⟩, rfl⟩
  obtain ⟨-, -, -, -, -, -, e6, e7⟩ := block_numbers3 t
  refine ⟨t, flush3_3 t, ?_⟩
  rw [mem_oblk3]
  intro a
  match a with
  | ⟨0, _⟩ => show win3_3.index t (0 : Fin 2) * 256 ≤ (i 0).val ∧ (i 0).val < win3_3.index t (0 : Fin 2) * 256 + 256; omega
  | ⟨1, _⟩ => show win3_3.index t (1 : Fin 2) * 256 ≤ (i 1).val ∧ (i 1).val < win3_3.index t (1 : Fin 2) * 256 + 256; omega

/-- So the output array ends holding the aggregation of the three input arrays. -/
theorem out3_eq (c : Dev nD) : out3 V c = aggOut3 (adj3 V c) (feat3 V c) (bias3 V c) :=
  (dat3 V c).arrAt_eq_of_cover 3 (aggOut3 (adj3 V c) (feat3 V c) (bias3 V c)) (fun t _ => flushed3_eq V c t) cover3

end Agg3

/-- The second aggregation's output, element by element. -/
theorem agg3_apply (c : Dev nD) (i : Fin 10240) (q : Fin 256) :
    out3 V c (ix2 i q)
      = max ((∑ j : Fin 10240, adj3 V c (ix2 i j) * feat3 V c (ix2 j q)) + bias3 V c (ix2 (0 : Fin 1) q)) 0 := by
  exact congrFun (Agg3.out3_eq V c) (ix2 i q)

end Cert.KernelIdeal.Val

end
-- ==== Proof.KHost.lean ====
/-
  What the host operations before the first region leave in the buffers the regions read, element by element, in
  terms of the launch arguments: the features padded with 240 zero rows, the weights and biases unchanged (a change
  of float format is the identity over the extended reals; the bias reshaped to one row).
-/
import proofs.«414742_j37082747634687_3_alg».proof.Proof.KIface

set_option maxRecDepth 16384

noncomputable section

open scoped BigOperators

namespace Cert.KernelIdeal.Val

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-! ## The buffers, as the host operations' terms over the launch arguments -/

private theorem w1_buf (c : Dev nD) :
    (V7 m ρ c main_v2 : S256x512.Idx → EReal)
      = (truncf .bf16 (m ((c : Thread nD τ).loc main_arg1) : FVec Ideal S256x512 .f32) bitsLt_bf16_f32 : FVec Ideal S256x512 .bf16) := by
  show StableHlo.after hostOps0_6 (StableHlo.after hostOps0_5 (StableHlo.after hostOps0_4 (StableHlo.after hostOps0_3
    (StableHlo.after hostOps0_2 (StableHlo.after hostOps0_1 (StableHlo.after hostOps0 (W0 m ρ c)))))))
      (Proc.devRef .tc main_v2) = _
  simp only [hostOps0, hostOps0_1, hostOps0_2, hostOps0_3, hostOps0_4, hostOps0_5, hostOps0_6]
  after_results

private theorem w2_buf (c : Dev nD) :
    (V7 m ρ c main_v3 : S512x256.Idx → EReal)
      = (truncf .bf16 (m ((c : Thread nD τ).loc main_arg3) : FVec Ideal S512x256 .f32) bitsLt_bf16_f32 : FVec Ideal S512x256 .bf16) := by
  show StableHlo.after hostOps0_6 (StableHlo.after hostOps0_5 (StableHlo.after hostOps0_4 (StableHlo.after hostOps0_3
    (StableHlo.after hostOps0_2 (StableHlo.after hostOps0_1 (StableHlo.after hostOps0 (W0 m ρ c)))))))
      (Proc.devRef .tc main_v3) = _
  simp only [hostOps0, hostOps0_1, hostOps0_2, hostOps0_3, hostOps0_4, hostOps0_5, hostOps0_6]
  after_results

private theorem b1_buf (c : Dev nD) :
    (V7 m ρ c main_v4 : S1x512.Idx → EReal)
      = shapeCast S1x512 (m ((c : Thread nD τ).loc main_arg2) : S512.Idx → EReal) shapeCasts_S512_S1x512 := by
  show StableHlo.after hostOps0_6 (StableHlo.after hostOps0_5 (StableHlo.after hostOps0_4 (StableHlo.after hostOps0_3
    (StableHlo.after hostOps0_2 (StableHlo.after hostOps0_1 (StableHlo.after hostOps0 (W0 m ρ c)))))))
      (Proc.devRef .tc main_v4) = _
  simp only [hostOps0, hostOps0_1, hostOps0_2, hostOps0_3, hostOps0_4, hostOps0_5, hostOps0_6]
  after_results
  rfl

private theorem b2_buf (c : Dev nD) :
    (V7 m ρ c main_v5 : S1x256.Idx → EReal)
      = shapeCast S1x256 (m ((c : Thread nD τ).loc main_arg4) : S256.Idx → EReal) shapeCasts_S256_S1x256 := by
  show StableHlo.after hostOps0_6 (StableHlo.after hostOps0_5 (StableHlo.after hostOps0_4 (StableHlo.after hostOps0_3
    (StableHlo.after hostOps0_2 (StableHlo.after hostOps0_1 (StableHlo.after hostOps0 (W0 m ρ c)))))))
      (Proc.devRef .tc main_v5) = _
  simp only [hostOps0, hostOps0_1, hostOps0_2, hostOps0_3, hostOps0_4, hostOps0_5, hostOps0_6]
  after_results
  rfl

private theorem xpad_buf (c : Dev nD) :
    (V7 m ρ c main_v1 : S10240x256.Idx → EReal)
      = (truncf .bf16 (pad S10240x256 ![0, 0] ![240, 0] ![0, 0] (m ((c : Thread nD τ).loc main_arg0) : FVec Ideal S10000x256 .f32)
          (sitofp .f32 (constantI S_ 32 0#32) : FVec Ideal S_ .f32) pads_S10000x256_S10240x256_02400_000 h_S_ : FVec Ideal S10240x256 .f32)
          bitsLt_bf16_f32 : FVec Ideal S10240x256 .bf16) := by
  show StableHlo.after hostOps0_6 (StableHlo.after hostOps0_5 (StableHlo.after hostOps0_4 (StableHlo.after hostOps0_3
    (StableHlo.after hostOps0_2 (StableHlo.after hostOps0_1 (StableHlo.after hostOps0 (W0 m ρ c)))))))
      (Proc.devRef .tc main_v1) = _
  simp only [hostOps0, hostOps0_1, hostOps0_2, hostOps0_3, hostOps0_4, hostOps0_5, hostOps0_6]
  after_results
  rfl

/-! ## Read at an index -/

/-- Padding rows below: a row of the operand is where it was. -/
private theorem pad_rows_apply (x : S10000x256.Idx → EReal) (v : S_.Idx → EReal) (i : Fin 10000) (k : Fin 256) :
    pad S10240x256 ![0, 0] ![240, 0] ![0, 0] x v pads_S10000x256_S10240x256_02400_000 h_S_
      (ix2 (Fin.castLE (by decide) i : Fin 10240) k) = x (ix2 i k) := by
  unfold pad
  rw [dif_pos]
  · refine congrArg x (funext fun a => ?_)
    match a with
    | ⟨0, _⟩ => exact Fin.ext (by simp)
    | ⟨1, _⟩ => exact Fin.ext (by simp)
  · intro a
    match a with
    | ⟨0, _⟩ => simp <;> omega
    | ⟨1, _⟩ => simp <;> omega

/-- A vector recast as one row reads, at column `q` of that row, its entry `q`. -/
private theorem row_apply {n : Nat} (x : (⟨1, ![n]⟩ : Shape).Idx → EReal)
    (h : (⟨1, ![n]⟩ : Shape).ShapeCasts (⟨2, ![1, n]⟩ : Shape)) (q : Fin n) :
    shapeCast (⟨2, ![1, n]⟩ : Shape) x h (ix2 (0 : Fin 1) q) = x (ix1 q) := by
  unfold shapeCast
  refine congrArg x (Shape.reshapeEquiv_eq_of_rowMajor h ?_)
  rw [Shape.rowMajor_val_one, Shape.rowMajor_val_two]
  show q.val = 0 * n + q.val
  omega

/-- A node's row of the padded features is the node's row of the features. -/
theorem xpad_apply (c : Dev nD) (i : Fin 10000) (k : Fin 256) :
    lhs0 (V7 m ρ) c (ix2 (Fin.castLE (by decide) i : Fin 10240) k) = argX m c (ix2 i k) := by
  show (V7 m ρ c main_v1 : S10240x256.Idx → EReal) _ = _
  rw [xpad_buf, truncf_apply, pad_rows_apply]

theorem w1_apply (c : Dev nD) (k : Fin 256) (q : Fin 512) : rhs0 (V7 m ρ) c (ix2 k q) = argW1 m c (ix2 k q) := by
  show (V7 m ρ c main_v2 : S256x512.Idx → EReal) (ix2 k q) = _
  rw [w1_buf]
  rfl

theorem w2_apply (c : Dev nD) (k : Fin 512) (q : Fin 256) : rhs2 (V7 m ρ) c (ix2 k q) = argW2 m c (ix2 k q) := by
  show (V7 m ρ c main_v3 : S512x256.Idx → EReal) (ix2 k q) = _
  rw [w2_buf]
  rfl

theorem b1_apply (c : Dev nD) (q : Fin 512) : bias1 (V7 m ρ) c (ix2 (0 : Fin 1) q) = argB1 m c (ix1 q) := by
  show (V7 m ρ c main_v4 : S1x512.Idx → EReal) (ix2 (0 : Fin 1) q) = _
  rw [b1_buf]
  exact row_apply _ _ q

theorem b2_apply (c : Dev nD) (q : Fin 256) : bias3 (V7 m ρ) c (ix2 (0 : Fin 1) q) = argB2 m c (ix1 q) := by
  show (V7 m ρ c main_v5 : S1x256.Idx → EReal) (ix2 (0 : Fin 1) q) = _
  rw [b2_buf]
  exact row_apply _ _ q

end Cert.KernelIdeal.Val

end
-- ==== Proof.KAdjIface.lean ====
/-
  Names for the four arrays the host builds on the way to the adjacency matrix, as the first region finds them: the
  factor array, the edge weights, the scattered values and their index pairs.
-/
import proofs.«414742_j37082747634687_3_alg».proof.Proof.KIface

set_option maxRecDepth 16384

noncomputable section

open scoped BigOperators

namespace Cert.KernelIdeal.Val

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-- The factor of every row of the padded matrix. -/
abbrev dinvArr (c : Dev nD) : S10240.Idx → EReal := V7 m ρ c main_v23
/-- The weight of every edge. -/
abbrev normArr (c : Dev nD) : S320000.Idx → EReal := V7 m ρ c main_v38
/-- The scattered values: the edge weights, then the squared factors. -/
abbrev valsArr (c : Dev nD) : S330240.Idx → EReal := V7 m ρ c main_v43
/-- Their positions: one (row, column) pair of words per scattered value. -/
abbrev pairsArr (c : Dev nD) : S330240x2.Idx → BitVec 32 := V7 m ρ c main_v57

end Cert.KernelIdeal.Val

end
-- ==== Proof.LibScatterAdd.lean ====
/-
  GENERAL LEMMAS (no program imported): jnp's accumulating scatters, read at an element over the extended reals.

  `segment_sum(v, ids, n)` and `z.at[ids].add(v)` print as a `stablehlo.scatter` whose body adds, with start indices
  [n, 1] (the index vector on axis 1).  Over the extended reals its result at an element is the operand's element plus
  the exact sum of the updates whose start index, read as a signed number, names that element; an update whose index
  falls outside the operand lands nowhere.  Three shapes: a vector of updates into a vector (`scatterAdd_vec_apply`),
  rows of updates into the rows of a matrix (`scatterAdd_rows_apply`), and a vector of updates into the points of a
  matrix named by index pairs [n, 2] (`scatterAdd_point_apply`).
-/
import Idealize.ShloMosaic.PureOps.Contract
import Idealize.ShloMosaic.PureOps.Ideal
import Idealize.ShloMosaic.Lib.ValueIdx

noncomputable section

open scoped BigOperators

namespace Cert.LibScatterAdd

open Idealize.ShloMosaic Idealize.ShloMosaic.ValueIdx

/-! ## Where an update lands

An update lands at operand index i exactly when, on every operand axis, its window's start plus its window coordinate
is i's coordinate: the sum is then inside the operand, and taking it back to a natural number loses nothing. -/

theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  split
  · next h =>
    rw [Option.some.injEq]
    constructor
    · intro hi a
      have h1 := h a
      rw [← hi]
      simp only
      omega
    · intro hi
      funext a
      apply Fin.ext
      have h1 := hi a
      simp only
      omega
  · next h =>
    constructor
    · intro hi; exact absurd hi (by simp)
    · intro hi
      exfalso; apply h; intro a
      have h1 := hi a
      have h2 := (i a).isLt
      omega

/-- An operand axis keeps a window coordinate exactly when it is not an inserted axis. -/
theorem mem_sKept_iff {s si u : Shape} (d : ScatterDims s si u) (a : Fin s.rank) :
    a ∈ d.sKept ↔ a ∉ d.insertedWindowDims := by
  simp [ScatterDims.sKept, Shape.kept, List.mem_filter, List.mem_finRange]

/-- An update axis is a scatter axis exactly when it is not a window axis. -/
theorem mem_uScatter_iff {s si u : Shape} (d : ScatterDims s si u) (a : Fin u.rank) :
    a ∈ d.uScatter ↔ a ∉ d.updateWindowDims := by
  simp [ScatterDims.uScatter, Shape.kept, List.mem_filter, List.mem_finRange]

/-- On an inserted axis the window coordinate is zero. -/
theorem window_inserted {s si u : Shape} (d : ScatterDims s si u) (j : u.Idx) (a : Fin s.rank)
    (ha : a ∈ d.insertedWindowDims) : d.window j a = 0 := by
  unfold ScatterDims.window
  rw [dif_neg (fun h => ((mem_sKept_iff d a).mp h) ha)]

/-! ## A vector of updates into a vector -/

section Vec

variable {N n w : Nat} (d : ScatterDims ⟨1, ![N]⟩ ⟨2, ![n, 1]⟩ ⟨1, ![n]⟩)

/-- Update e reads its one start component at row e of the index column. -/
theorem vec_siIdx (hsd : d.scatterDimsToOperandDims = [0]) (hiv : d.indexVectorDim = 1) (e : Fin n)
    (c : Fin d.scatterDimsToOperandDims.length) : d.siIdx (ix1 e) c = ix2 e (0 : Fin 1) := by
  funext b
  apply Fin.ext
  match b with
  | ⟨0, _⟩ =>
    unfold ScatterDims.siIdx
    rw [dif_neg (by rw [hiv]; exact Nat.zero_ne_one)]
    unfold ScatterDims.siCoord
    simp only [Fin.val_cast]
    have e1 : ∀ X : Fin 1, ((ix1 e : (⟨1, ![n]⟩ : Shape).Idx) X).val = e.val := fun X => by
      match X with
      | ⟨0, _⟩ => rfl
    exact e1 _
  | ⟨1, _⟩ =>
    unfold ScatterDims.siIdx
    rw [dif_pos (by rw [hiv])]
    show c.val = 0
    have hl : d.scatterDimsToOperandDims.length = 1 := by rw [hsd]; rfl
    have hc := c.isLt
    omega

theorem vec_start (hsd : d.scatterDimsToOperandDims = [0]) (hiv : d.indexVectorDim = 1)
    (idx : IVec ⟨2, ![n, 1]⟩ w) (e : Fin n) (a : Fin 1) :
    d.start (ix1 e) idx a = (idx (ix2 e (0 : Fin 1))).toInt := by
  have ha0 : a = 0 := Subsingleton.elim _ _
  subst ha0
  unfold ScatterDims.start
  rw [dif_pos (by rw [hsd]; exact List.mem_singleton.mpr rfl), vec_siIdx d hsd hiv]

theorem vec_window (hiw : d.insertedWindowDims = [0]) (j : (⟨1, ![n]⟩ : Shape).Idx) (a : Fin 1) :
    d.window j a = 0 := by
  have ha0 : a = 0 := Subsingleton.elim _ _
  subst ha0
  exact window_inserted d j _ (by rw [hiw]; exact List.mem_singleton.mpr rfl)

/-- Update e lands at entry i exactly when its index word, read signed, is i. -/
theorem vec_hit (hiw : d.insertedWindowDims = [0]) (hsd : d.scatterDimsToOperandDims = [0])
    (hiv : d.indexVectorDim = 1) (idx : IVec ⟨2, ![n, 1]⟩ w) (e : Fin n) (i : Fin N) :
    d.resultIdx? (ix1 e) idx = some (ix1 i) ↔ (idx (ix2 e (0 : Fin 1))).toInt = (i.val : ℤ) := by
  rw [resultIdx?_eq_some_iff]
  constructor
  · intro h
    have h0 := h (0 : Fin 1)
    rw [vec_start d hsd hiv, vec_window d hiw] at h0
    rw [Nat.cast_zero, add_zero] at h0
    exact h0
  · intro h a
    rw [vec_start d hsd hiv, vec_window d hiw, Nat.cast_zero, add_zero]
    have ha0 : a = 0 := Subsingleton.elim _ _
    subst ha0
    exact h

end Vec

/-- A vector of n updates added into a vector of N entries: entry i ends at its old value plus the updates whose
    index is i. -/
theorem scatterAdd_vec_apply {N n w : Nat} (d : ScatterDims ⟨1, ![N]⟩ ⟨2, ![n, 1]⟩ ⟨1, ![n]⟩)
    (huw : d.updateWindowDims = []) (hiw : d.insertedWindowDims = [0]) (hsd : d.scatterDimsToOperandDims = [0])
    (hiv : d.indexVectorDim = 1)
    (x : FVec Ideal ⟨1, ![N]⟩ .f32) (idx : IVec ⟨2, ![n, 1]⟩ w) (upd : FVec Ideal ⟨1, ![n]⟩ .f32) (i : Fin N) :
    Host.scatterAdd (F := Ideal) d x idx upd (ix1 i)
      = x (ix1 i) + ∑ e ∈ Finset.univ.filter (fun e : Fin n => (idx (ix2 e (0 : Fin 1))).toInt = (i.val : ℤ)), upd (ix1 e) := by
  unfold Host.scatterAdd
  rw [Ideal.hostScatterAdd_def]
  unfold Ideal.hostScatterAdd
  congr 1
  refine Finset.sum_nbij' (fun j => (j 0 : Fin n)) (fun e => ix1 e) ?_ ?_ ?_ ?_ ?_
  · intro j hj
    obtain ⟨e, rfl⟩ : ∃ e, j = ix1 e := ⟨j 0, eq_ix1 j⟩
    exact Finset.mem_filter.mpr ⟨Finset.mem_univ _, (vec_hit d hiw hsd hiv idx e i).mp (Finset.mem_filter.mp hj).2⟩
  · intro e he
    exact Finset.mem_filter.mpr ⟨Finset.mem_univ _, (vec_hit d hiw hsd hiv idx e i).mpr (Finset.mem_filter.mp he).2⟩
  · intro j _
    exact (eq_ix1 j).symm
  · intro e _
    rfl
  · intro j _
    exact congrArg upd (eq_ix1 j)

/-! ## Rows of updates into the rows of a matrix -/

section Rows

variable {N D n w : Nat} (d : ScatterDims ⟨2, ![N, D]⟩ ⟨2, ![n, 1]⟩ ⟨2, ![n, D]⟩)

/-- With axis 1 the updates' one window axis, every scatter axis of theirs is axis 0. -/
theorem rows_uScatter (huw : d.updateWindowDims = [1]) (x : Fin 2) (hx : x ∈ d.uScatter) : x = 0 := by
  have h := (mem_uScatter_iff d x).mp hx
  rw [huw] at h
  match x with
  | ⟨0, _⟩ => rfl
  | ⟨1, _⟩ => exact absurd (List.mem_singleton.mpr rfl) h

/-- Update (e, q) reads its one start component at row e of the index column. -/
theorem rows_siIdx (huw : d.updateWindowDims = [1]) (hsd : d.scatterDimsToOperandDims = [0])
    (hiv : d.indexVectorDim = 1) (e : Fin n) (q : Fin D)
    (c : Fin d.scatterDimsToOperandDims.length) : d.siIdx (ix2 e q) c = ix2 e (0 : Fin 1) := by
  funext b
  apply Fin.ext
  match b with
  | ⟨0, _⟩ =>
    unfold ScatterDims.siIdx
    rw [dif_neg (by rw [hiv]; exact Nat.zero_ne_one)]
    unfold ScatterDims.siCoord
    simp only [Fin.val_cast]
    have key : ∀ x : Fin 2, x ∈ d.uScatter → ((ix2 e q : (⟨2, ![n, D]⟩ : Shape).Idx) x).val = e.val := by
      intro x hx
      have hx0 := rows_uScatter d huw x hx
      subst hx0
      rfl
    exact key _ (List.getElem_mem _)
  | ⟨1, _⟩ =>
    unfold ScatterDims.siIdx
    rw [dif_pos (by rw [hiv])]
    show c.val = 0
    have hl : d.scatterDimsToOperandDims.length = 1 := by rw [hsd]; rfl
    have hc := c.isLt
    omega

theorem rows_start0 (huw : d.updateWindowDims = [1]) (hsd : d.scatterDimsToOperandDims = [0])
    (hiv : d.indexVectorDim = 1) (idx : IVec ⟨2, ![n, 1]⟩ w) (e : Fin n) (q : Fin D) :
    d.start (ix2 e q) idx (0 : Fin 2) = (idx (ix2 e (0 : Fin 1))).toInt := by
  unfold ScatterDims.start
  rw [dif_pos (by rw [hsd]; exact List.mem_singleton.mpr rfl), rows_siIdx d huw hsd hiv]

theorem rows_start1 (hsd : d.scatterDimsToOperandDims = [0]) (idx : IVec ⟨2, ![n, 1]⟩ w)
    (j : (⟨2, ![n, D]⟩ : Shape).Idx) : d.start j idx (1 : Fin 2) = 0 := by
  unfold ScatterDims.start
  rw [dif_neg (by rw [hsd]; show (1 : Fin 2) ∉ ([0] : List (Fin 2)); decide)]

theorem rows_window0 (hiw : d.insertedWindowDims = [0]) (j : (⟨2, ![n, D]⟩ : Shape).Idx) :
    d.window j (0 : Fin 2) = 0 :=
  window_inserted d j _ (by rw [hiw]; exact List.mem_singleton.mpr rfl)

theorem rows_window1 (huw : d.updateWindowDims = [1]) (hiw : d.insertedWindowDims = [0]) (e : Fin n) (q : Fin D) :
    d.window (ix2 e q) (1 : Fin 2) = q.val := by
  unfold ScatterDims.window
  rw [dif_pos ((mem_sKept_iff d _).mpr (by rw [hiw]; show (1 : Fin 2) ∉ ([0] : List (Fin 2)); decide))]
  have key : ∀ x : Fin 2, x ∈ d.updateWindowDims → ((ix2 e q : (⟨2, ![n, D]⟩ : Shape).Idx) x).val = q.val := by
    intro x hx
    rw [huw] at hx
    have hx1 := List.mem_singleton.mp hx
    subst hx1
    rfl
  exact key _ (List.getElem_mem _)

/-- Update (e, q') lands at entry (i, q) exactly when its index word, read signed, is i and q' is q. -/
theorem rows_hit (huw : d.updateWindowDims = [1]) (hiw : d.insertedWindowDims = [0])
    (hsd : d.scatterDimsToOperandDims = [0]) (hiv : d.indexVectorDim = 1) (idx : IVec ⟨2, ![n, 1]⟩ w)
    (e : Fin n) (q' : Fin D) (i : Fin N) (q : Fin D) :
    d.resultIdx? (ix2 e q') idx = some (ix2 i q)
      ↔ (idx (ix2 e (0 : Fin 1))).toInt = (i.val : ℤ) ∧ q' = q := by
  rw [resultIdx?_eq_some_iff]
  constructor
  · intro h
    have h0 := h (0 : Fin 2)
    have h1 := h (1 : Fin 2)
    rw [rows_start0 d huw hsd hiv, rows_window0 d hiw, Nat.cast_zero, add_zero] at h0
    rw [rows_start1 d hsd, rows_window1 d huw hiw, zero_add] at h1
    exact ⟨h0, Fin.ext (Int.ofNat_inj.mp h1)⟩
  · rintro ⟨h0, rfl⟩ a
    match a with
    | ⟨0, _⟩ =>
      show d.start (ix2 e q') idx (0 : Fin 2) + (d.window (ix2 e q') (0 : Fin 2) : ℤ) = (i.val : ℤ)
      rw [rows_start0 d huw hsd hiv, rows_window0 d hiw, Nat.cast_zero, add_zero]
      exact h0
    | ⟨1, _⟩ =>
      show d.start (ix2 e q') idx (1 : Fin 2) + (d.window (ix2 e q') (1 : Fin 2) : ℤ) = (q'.val : ℤ)
      rw [rows_start1 d hsd, rows_window1 d huw hiw, zero_add]

end Rows

/-- n rows of D updates added into the rows of an N × D matrix: entry (i, q) ends at its old value plus entry q of
    the update rows whose index is i. -/
theorem scatterAdd_rows_apply {N D n w : Nat} (d : ScatterDims ⟨2, ![N, D]⟩ ⟨2, ![n, 1]⟩ ⟨2, ![n, D]⟩)
    (huw : d.updateWindowDims = [1]) (hiw : d.insertedWindowDims = [0]) (hsd : d.scatterDimsToOperandDims = [0])
    (hiv : d.indexVectorDim = 1)
    (x : FVec Ideal ⟨2, ![N, D]⟩ .f32) (idx : IVec ⟨2, ![n, 1]⟩ w) (upd : FVec Ideal ⟨2, ![n, D]⟩ .f32)
    (i : Fin N) (q : Fin D) :
    Host.scatterAdd (F := Ideal) d x idx upd (ix2 i q)
      = x (ix2 i q) + ∑ e ∈ Finset.univ.filter (fun e : Fin n => (idx (ix2 e (0 : Fin 1))).toInt = (i.val : ℤ)), upd (ix2 e q) := by
  unfold Host.scatterAdd
  rw [Ideal.hostScatterAdd_def]
  unfold Ideal.hostScatterAdd
  congr 1
  -- the updates that land at (i, q) are the pairs (e, q) with e's index word i: one for each such e
  refine Finset.sum_nbij' (fun j => (j 0 : Fin n)) (fun e => ix2 e q) ?_ ?_ ?_ ?_ ?_
  · intro j hj
    obtain ⟨e, q', rfl⟩ : ∃ e q', j = ix2 e q' := ⟨j 0, j 1, eq_ix2 j⟩
    exact Finset.mem_filter.mpr
      ⟨Finset.mem_univ _, ((rows_hit d huw hiw hsd hiv idx e q' i q).mp (Finset.mem_filter.mp hj).2).1⟩
  · intro e he
    exact Finset.mem_filter.mpr
      ⟨Finset.mem_univ _, (rows_hit d huw hiw hsd hiv idx e q i q).mpr ⟨(Finset.mem_filter.mp he).2, rfl⟩⟩
  · intro j hj
    obtain ⟨e, q', rfl⟩ : ∃ e q', j = ix2 e q' := ⟨j 0, j 1, eq_ix2 j⟩
    have hq := ((rows_hit d huw hiw hsd hiv idx e q' i q).mp (Finset.mem_filter.mp hj).2).2
    subst hq
    rfl
  · intro e _
    rfl
  · intro j hj
    obtain ⟨e, q', rfl⟩ : ∃ e q', j = ix2 e q' := ⟨j 0, j 1, eq_ix2 j⟩
    have hq := ((rows_hit d huw hiw hsd hiv idx e q' i q).mp (Finset.mem_filter.mp hj).2).2
    subst hq
    rfl

/-! ## A vector of updates into the points of a matrix -/

section Point

variable {N M n w : Nat} (d : ScatterDims ⟨2, ![N, M]⟩ ⟨2, ![n, 2]⟩ ⟨1, ![n]⟩)

/-- Update e reads start component k at column k of row e of the index pairs. -/
theorem point_siIdx (hiv : d.indexVectorDim = 1) (e : Fin n)
    (c : Fin d.scatterDimsToOperandDims.length) (k : Fin 2) (hk : c.val = k.val) :
    d.siIdx (ix1 e) c = ix2 e k := by
  funext b
  apply Fin.ext
  match b with
  | ⟨0, _⟩ =>
    unfold ScatterDims.siIdx
    rw [dif_neg (by rw [hiv]; exact Nat.zero_ne_one)]
    unfold ScatterDims.siCoord
    simp only [Fin.val_cast]
    have e1 : ∀ X : Fin 1, ((ix1 e : (⟨1, ![n]⟩ : Shape).Idx) X).val = e.val := fun X => by
      match X with
      | ⟨0, _⟩ => rfl
    exact e1 _
  | ⟨1, _⟩ =>
    unfold ScatterDims.siIdx
    rw [dif_pos (by rw [hiv])]
    exact hk

theorem point_start (hsd : d.scatterDimsToOperandDims = [0, 1]) (hiv : d.indexVectorDim = 1)
    (idx : IVec ⟨2, ![n, 2]⟩ w) (e : Fin n) (a : Fin 2) :
    d.start (ix1 e) idx a = (idx (ix2 e a)).toInt := by
  unfold ScatterDims.start
  have ha : a ∈ d.scatterDimsToOperandDims := by
    rw [hsd]
    match a with
    | ⟨0, _⟩ => exact List.mem_cons.mpr (Or.inl rfl)
    | ⟨1, _⟩ => exact List.mem_cons.mpr (Or.inr (List.mem_singleton.mpr rfl))
  have hk : List.idxOf a d.scatterDimsToOperandDims = a.val := by
    rw [hsd]
    match a with
    | ⟨0, _⟩ => rfl
    | ⟨1, _⟩ => rfl
  rw [dif_pos ha, point_siIdx d hiv e _ a hk]

theorem point_window (hiw : d.insertedWindowDims = [0, 1]) (j : (⟨1, ![n]⟩ : Shape).Idx) (a : Fin 2) :
    d.window j a = 0 :=
  window_inserted d j a (by
    rw [hiw]
    match a with
    | ⟨0, _⟩ => exact List.mem_cons.mpr (Or.inl rfl)
    | ⟨1, _⟩ => exact List.mem_cons.mpr (Or.inr (List.mem_singleton.mpr rfl)))

/-- Update e lands at entry (i, j) exactly when its index pair, read signed, is (i, j). -/
theorem point_hit (hiw : d.insertedWindowDims = [0, 1]) (hsd : d.scatterDimsToOperandDims = [0, 1])
    (hiv : d.indexVectorDim = 1) (idx : IVec ⟨2, ![n, 2]⟩ w) (e : Fin n) (i : Fin N) (j : Fin M) :
    d.resultIdx? (ix1 e) idx = some (ix2 i j)
      ↔ (idx (ix2 e (0 : Fin 2))).toInt = (i.val : ℤ) ∧ (idx (ix2 e (1 : Fin 2))).toInt = (j.val : ℤ) := by
  rw [resultIdx?_eq_some_iff]
  constructor
  · intro h
    have h0 := h (0 : Fin 2)
    have h1 := h (1 : Fin 2)
    rw [point_start d hsd hiv, point_window d hiw, Nat.cast_zero, add_zero] at h0 h1
    exact ⟨h0, h1⟩
  · rintro ⟨h0, h1⟩ a
    rw [point_start d hsd hiv, point_window d hiw, Nat.cast_zero, add_zero]
    match a with
    | ⟨0, _⟩ => exact h0
    | ⟨1, _⟩ => exact h1

end Point

/-- A vector of n updates added into the points of an N × M matrix named by n index pairs: entry (i, j) ends at its
    old value plus the updates whose pair is (i, j). -/
theorem scatterAdd_point_apply {N M n w : Nat} (d : ScatterDims ⟨2, ![N, M]⟩ ⟨2, ![n, 2]⟩ ⟨1, ![n]⟩)
    (huw : d.updateWindowDims = []) (hiw : d.insertedWindowDims = [0, 1]) (hsd : d.scatterDimsToOperandDims = [0, 1])
    (hiv : d.indexVectorDim = 1)
    (x : FVec Ideal ⟨2, ![N, M]⟩ .f32) (idx : IVec ⟨2, ![n, 2]⟩ w) (upd : FVec Ideal ⟨1, ![n]⟩ .f32)
    (i : Fin N) (j : Fin M) :
    Host.scatterAdd (F := Ideal) d x idx upd (ix2 i j)
      = x (ix2 i j) + ∑ e ∈ Finset.univ.filter (fun e : Fin n =>
          (idx (ix2 e (0 : Fin 2))).toInt = (i.val : ℤ) ∧ (idx (ix2 e (1 : Fin 2))).toInt = (j.val : ℤ)), upd (ix1 e) := by
  unfold Host.scatterAdd
  rw [Ideal.hostScatterAdd_def]
  unfold Ideal.hostScatterAdd
  congr 1
  refine Finset.sum_nbij' (fun k => (k 0 : Fin n)) (fun e => ix1 e) ?_ ?_ ?_ ?_ ?_
  · intro k hk
    obtain ⟨e, rfl⟩ : ∃ e, k = ix1 e := ⟨k 0, eq_ix1 k⟩
    exact Finset.mem_filter.mpr
      ⟨Finset.mem_univ _, (point_hit d hiw hsd hiv idx e i j).mp (Finset.mem_filter.mp hk).2⟩
  · intro e he
    exact Finset.mem_filter.mpr
      ⟨Finset.mem_univ _, (point_hit d hiw hsd hiv idx e i j).mpr (Finset.mem_filter.mp he).2⟩
  · intro k _
    exact (eq_ix1 k).symm
  · intro e _
    rfl
  · intro k _
    exact congrArg upd (eq_ix1 k)

end Cert.LibScatterAdd

end
-- ==== Proof.KAdjVals.lean ====
/-
  The values the host scatters into the adjacency matrix, read one element at a time.  The factor array: for every
  row, the reciprocal square root of one plus the number of edges ending there, and zero on the 240 padding rows.  The
  edge weights: the product of the factors of an edge's two ends.  The scattered values: the 320000 edge weights, then
  the 10240 squared factors.
-/
import proofs.«414742_j37082747634687_3_alg».proof.Proof.KAdjIface
import proofs.«414742_j37082747634687_3_alg».proof.Proof.LibScatterAdd
import Idealize.ShloMosaic.Lib.StableHlo.Predicate
import Idealize.ShloMosaic.Lib.StableHlo.Run
import Idealize.ShloMosaic.Lib.Pipeline.Value
import Idealize.ShloMosaic.PureOps.Ideal.Laws

set_option maxRecDepth 16384

noncomputable section

open scoped BigOperators

namespace Cert.KernelIdeal.Val

open Cert.KernelIdeal Cert.KernelIdeal.Gen
open Idealize.ShloMosaic Idealize.ShloMosaic.TcCoe Idealize.ShloMosaic.ValueIdx Idealize.SL.Sem

/-! ## The host operations as pure functions of the edge table -/

/-- Row 0 of the edge table: the source words. -/
private def srcOf (E : IVec S2x320000 32) : IVec S320000 32 :=
  shapeCast S320000 (extractStridedSlice S1x320000 ![0, 0] E slices_S2x320000_S1x320000_0_0) shapeCasts_S1x320000_S320000

/-- Row 1 of the edge table: the destination words. -/
private def dstOf (E : IVec S2x320000 32) : IVec S320000 32 :=
  shapeCast S320000 (extractStridedSlice S1x320000 ![1, 0] E slices_S2x320000_S1x320000_1_0) shapeCasts_S1x320000_S320000

/-- Every row's degree: a one added in for each edge that ends there, and one more. -/
private def degOf (dst : IVec S320000 32) : FVec Ideal S10240 .f32 :=
  addf (Host.scatterAdd (F := Ideal) scatter_S10240_S320000x1_S320000_n_0_0_1
      (broadcastInDim S10240 ![] bcast_S_S10240 (constant (F := Ideal) S_ .f32 0x00000000#32))
      (broadcastInDim S320000x1 ![0] bcast_S320000_S320000x1_0 dst)
      (broadcastInDim S320000 ![] bcast_S_S320000 (constant (F := Ideal) S_ .f32 0x3F800000#32)))
    (broadcastInDim S10240 ![] bcast_S_S10240 (constant (F := Ideal) S_ .f32 0x3F800000#32))

/-- The reciprocal square root of a positive degree, zero otherwise. -/
private def dinvOf (deg : FVec Ideal S10240 .f32) : FVec Ideal S10240 .f32 :=
  select (cmpf .ogt deg (broadcastInDim S10240 ![] bcast_S_S10240 (constant (F := Ideal) S_ .f32 0x00000000#32)))
    (Host.rsqrt deg) (broadcastInDim S10240 ![] bcast_S_S10240 (constant (F := Ideal) S_ .f32 0x00000000#32))

/-- The factor kept on the first 10000 rows, zero on the rest. -/
private def dkOf (x : FVec Ideal S10240 .f32) : FVec Ideal S10240 .f32 :=
  select (cmpi .slt (iotaInDim S10240 32 0) (broadcastInDim S10240 ![] bcast_S_S10240 (constantI S_ 32 10000#32)))
    x (broadcastInDim S10240 ![] bcast_S_S10240 (constant (F := Ideal) S_ .f32 0x00000000#32))

/-- A 320000-vector of node words with the negative ones moved up by 10240. -/
private def nrmE (x : IVec S320000 32) : IVec S320000 32 :=
  select (cmpi .slt x (broadcastInDim S320000 ![] bcast_S_S320000 (constantI S_ 32 0#32)))
    (addi x (broadcastInDim S320000 ![] bcast_S_S320000 (constantI S_ 32 10240#32))) x

/-- The factor array read at each edge's (moved, clamped) node word. -/
private def gat (dk : FVec Ideal S10240 .f32) (x : IVec S320000 32) : FVec Ideal S320000 .f32 :=
  Host.gather gather_S10240_S320000x1_S320000_n_0_n_n_0_1_1 dk
    (broadcastInDim S320000x1 ![0] bcast_S320000_S320000x1_0 (nrmE x))

/-- The edge weights. -/
private def edgeW (dk : FVec Ideal S10240 .f32) (src dst : IVec S320000 32) : FVec Ideal S320000 .f32 :=
  mulf (gat dk src) (gat dk dst)

/-- The scattered values: the edge weights, then the squared factors. -/
private def valsT (dk : FVec Ideal S10240 .f32) (src dst : IVec S320000 32) : FVec Ideal S330240 .f32 :=
  concatenate S330240 0 [⟨S320000, edgeW dk src dst⟩, ⟨S10240, (mulf dk dk : FVec Ideal S10240 .f32)⟩] concatenates_S320000_S10240_S330240_d0

/-! ## Reading them at one element -/

private theorem ofFin_ix1 {n : Nat} (p : Fin n) : Shape.Idx.ofFin p = ix1 p := (Shape.Idx.eq_ofFin (ix1 p)).symm

private theorem ixP_ix2 {n : Nat} (p : Fin n) : StableHlo.Predicate.ixP p = ix2 p (0 : Fin 1) := by
  funext a; match a with | ⟨0, _⟩ => rfl | ⟨1, _⟩ => rfl

/-- A vector stood up as a column reads, in row p, the vector at p. -/
private theorem col_apply {α : Type} {n : Nat} (h : (⟨1, ![n]⟩ : Shape).BroadcastsInDim ⟨2, ![n, 1]⟩ ![0])
    (v : (⟨1, ![n]⟩ : Shape).Idx → α) (p : Fin n) :
    broadcastInDim ⟨2, ![n, 1]⟩ ![0] h v (ix2 p (0 : Fin 1)) = v (ix1 p) := by
  rw [← ixP_ix2, StableHlo.Predicate.bcast_col1, ofFin_ix1]

private theorem srcOf_apply (E : IVec S2x320000 32) (e : Fin 320000) : srcOf E (ix1 e) = E (ix2 (0 : Fin 2) e) := by
  unfold srcOf
  refine (shapeCast_apply _ shapeCasts_S1x320000_S320000 (ix1 e) (ix2 (0 : Fin 1) e) ?_).trans ?_
  · rw [Shape.rowMajor_val_two, Shape.rowMajor_val_one]
    show 0 * 320000 + e.val = e.val
    omega
  · exact extractStridedSlice_apply _ _ _ _ (ix2 (0 : Fin 2) e) (fun a => match a with
      | ⟨0, _⟩ => rfl
      | ⟨1, _⟩ => by show e.val = 0 + e.val; omega)

private theorem dstOf_apply (E : IVec S2x320000 32) (e : Fin 320000) : dstOf E (ix1 e) = E (ix2 (1 : Fin 2) e) := by
  unfold dstOf
  refine (shapeCast_apply _ shapeCasts_S1x320000_S320000 (ix1 e) (ix2 (0 : Fin 1) e) ?_).trans ?_
  · rw [Shape.rowMajor_val_two, Shape.rowMajor_val_one]
    show 0 * 320000 + e.val = e.val
    omega
  · exact extractStridedSlice_apply _ _ _ _ (ix2 (1 : Fin 2) e) (fun a => match a with
      | ⟨0, _⟩ => rfl
      | ⟨1, _⟩ => by show e.val = 0 + e.val; omega)

/-- The degree array at row d is the specification's degree of d. -/
private theorem degOf_apply (E : Cert.Spec.EdgeTab) (d : Fin 10240) : degOf (dstOf E) (ix1 d) = Cert.Spec.deg E d.val := by
  unfold degOf
  rw [addf_apply, Cert.LibScatterAdd.scatterAdd_vec_apply _ rfl rfl rfl rfl]
  have h0 : (broadcastInDim S10240 ![] bcast_S_S10240 (constant (F := Ideal) S_ .f32 0x00000000#32) : FVec Ideal S10240 .f32) (ix1 d) = 0 :=
    Ideal.ofBits_zero_f32
  rw [h0, zero_add]
  unfold Cert.Spec.deg Cert.Spec.into
  refine congrArg₂ (· + ·) (Finset.sum_congr (Finset.filter_congr fun e _ => ?_) (fun _ _ => rfl)) rfl
  rw [col_apply, dstOf_apply]
  rfl

/-- Choosing the reciprocal square root where the degree is positive. -/
private theorem dinvOf_apply (deg : FVec Ideal S10240 .f32) (i : S10240.Idx) :
    dinvOf deg i = if 0 < deg i then Ideal.rsqrt (deg i) else 0 := by
  show Scalar.select (Ideal.cmp .ogt (deg i) (Ideal.ofBits .f32 0x00000000#32)) (Ideal.rsqrt (deg i))
    (Ideal.ofBits .f32 0x00000000#32) = _
  rw [Ideal.ofBits_zero_f32]
  by_cases h : 0 < deg i
  · rw [if_pos h, show Ideal.cmp .ogt (deg i) 0 = 1#1 from by simp [Ideal.cmp, h]]
    exact select_one _ _
  · rw [if_neg h, show Ideal.cmp .ogt (deg i) 0 = 0#1 from by simp [Ideal.cmp, h]]
    exact select_zero _ _

/-- Keeping the factor on rows below 10000. -/
private theorem dkOf_apply (x : FVec Ideal S10240 .f32) (d : Fin 10240) :
    dkOf x (ix1 d) = if d.val < 10000 then x (ix1 d) else 0 := by
  show Scalar.select (IntOp.cmpi .slt (BitVec.ofNat 32 d.val) 10000#32) (x (ix1 d)) (Ideal.ofBits .f32 0x00000000#32) = _
  have hd := d.isLt
  have ha : (BitVec.ofNat 32 d.val).toNat = d.val := by rw [BitVec.toNat_ofNat]; omega
  have hb : (10000#32 : BitVec 32).toNat = 10000 := by decide
  have hiff := StableHlo.Predicate.slt_iff_toNat (a := BitVec.ofNat 32 d.val) (b := 10000#32) (by rw [ha]; omega) (by rw [hb]; omega)
  rw [ha, hb] at hiff
  by_cases h : d.val < 10000
  · rw [if_pos h, hiff.mpr h]
    exact select_one _ _
  · rw [if_neg h, eq_zero_of_ne_one (fun h1 => h (hiff.mp h1)), Ideal.ofBits_zero_f32]
    exact select_zero _ _

/-- The factor array, from the edge table, at row d. -/
private theorem dkfull_apply (E : Cert.Spec.EdgeTab) (d : Fin 10240) :
    dkOf (dinvOf (degOf (dstOf E))) (ix1 d) = Cert.Spec.dinvK E d.val := by
  rw [dkOf_apply, dinvOf_apply, degOf_apply]
  rfl

/-- A word that is not negative is left where it is. -/
private theorem nrmE_apply (x : IVec S320000 32) (e : Fin 320000) (h : 0 ≤ (x (ix1 e)).toInt) : nrmE x (ix1 e) = x (ix1 e) := by
  show Scalar.select (IntOp.cmpi .slt (x (ix1 e)) 0#32) (IntOp.addi (x (ix1 e)) 10240#32) (x (ix1 e)) = _
  have hc : IntOp.cmpi .slt (x (ix1 e)) 0#32 = 0#1 := by
    refine eq_zero_of_ne_one fun h1 => ?_
    have h2 : (x (ix1 e)).slt 0#32 = true := (StableHlo.Predicate.ofBool_eq_one_iff _).mp h1
    have h3 : (x (ix1 e)).toInt < (0#32 : BitVec 32).toInt := of_decide_eq_true h2
    have h0 : (0#32 : BitVec 32).toInt = 0 := by decide
    omega
  rw [hc]
  exact select_zero _ _

/-- The factor array read at an edge's node word, where the word names a node. -/
private theorem gat_apply (dk : FVec Ideal S10240 .f32) (x : IVec S320000 32) (e : Fin 320000)
    (h0 : 0 ≤ (x (ix1 e)).toInt) (k : Fin 10240) (hk : k.val = min (x (ix1 e)).toInt.toNat 10239) :
    gat dk x (ix1 e) = dk (ix1 k) := by
  unfold gat
  have hg := StableHlo.Predicate.gather_take gather_S10240_S320000x1_S320000_n_0_n_n_0_1_1 rfl rfl rfl rfl dk
    (broadcastInDim S320000x1 ![0] bcast_S320000_S320000x1_0 (nrmE x)) e (by decide)
  rw [ofFin_ix1, ofFin_ix1] at hg
  rw [hg]
  refine congrArg dk (congrArg ix1 (Fin.ext ?_))
  show min (broadcastInDim S320000x1 ![0] bcast_S320000_S320000x1_0 (nrmE x) (StableHlo.Predicate.ixP e)).toInt.toNat (10240 - 1)
    = k.val
  rw [ixP_ix2, col_apply, nrmE_apply x e h0, hk]

/-- An edge's weight as the host computes it is the specification's. -/
private theorem edgeW_apply (E : Cert.Spec.EdgeTab) (hin : Cert.Spec.InRange E) (e : Fin 320000) :
    edgeW (dkOf (dinvOf (degOf (dstOf E)))) (srcOf E) (dstOf E) (ix1 e) = Cert.Spec.norm E e := by
  have hs := hin (0 : Fin 2) e
  have hd := hin (1 : Fin 2) e
  have ks := (Cert.Spec.node (Cert.Spec.srcw E e)).isLt
  have kd := (Cert.Spec.node (Cert.Spec.dstw E e)).isLt
  unfold edgeW
  rw [mulf_apply,
    gat_apply _ (srcOf E) e (by rw [srcOf_apply]; exact hs.1) ⟨(Cert.Spec.node (Cert.Spec.srcw E e)).val, by omega⟩
      (by rw [srcOf_apply]; show min (E (ix2 (0 : Fin 2) e)).toInt.toNat 9999 = _; omega),
    gat_apply _ (dstOf E) e (by rw [dstOf_apply]; exact hd.1) ⟨(Cert.Spec.node (Cert.Spec.dstw E e)).val, by omega⟩
      (by rw [dstOf_apply]; show min (E (ix2 (1 : Fin 2) e)).toInt.toNat 9999 = _; omega),
    dkfull_apply, dkfull_apply]
  unfold Cert.Spec.norm Cert.Spec.dinvK
  rw [if_pos ks, if_pos kd]

/-- The scattered values at position n. -/
private theorem valsT_apply (E : Cert.Spec.EdgeTab) (hin : Cert.Spec.InRange E) (n : Fin 330240) :
    valsT (dkOf (dinvOf (degOf (dstOf E)))) (srcOf E) (dstOf E) (ix1 n) = Cert.Spec.tval E n := by
  unfold valsT Cert.Spec.tval
  by_cases h : n.val < 320000
  · rw [dif_pos h]
    refine (concatenate_pair_apply_left (t := S330240) (s₁ := S320000) (s₂ := S10240) (0 : Fin 1) _ _
      concatenates_S320000_S10240_S330240_d0 (ix1 n) rfl (ix1 (⟨n.val, h⟩ : Fin 320000))
      (fun b => match b with | ⟨0, _⟩ => rfl)).trans ?_
    exact edgeW_apply E hin ⟨n.val, h⟩
  · rw [dif_neg h]
    have hn := n.isLt
    refine (concatenate_pair_apply_right (t := S330240) (s₁ := S320000) (s₂ := S10240) (0 : Fin 1) _ _
      concatenates_S320000_S10240_S330240_d0 (ix1 n) rfl rfl
      (ix1 (⟨n.val - 320000, by omega⟩ : Fin 10240)) (fun b hb => match b, hb with | ⟨0, _⟩, hb => absurd rfl hb) ?_).trans ?_
    · show n.val - 320000 + 320000 = n.val
      omega
    · rw [mulf_apply, dkfull_apply]

/-! ## Each stretch of host operations, over any buffer contents it starts from -/

section Stretches
variable (W : Valuation τ sig (Elt Ideal))

private theorem s0_arg5 : StableHlo.after hostOps0 W (Proc.devRef .tc main_arg5) = W (Proc.devRef .tc main_arg5) := by
  after_results_simp
private theorem s1_arg5 : StableHlo.after hostOps0_1 W (Proc.devRef .tc main_arg5) = W (Proc.devRef .tc main_arg5) := by
  after_results_simp

private theorem s2_v7 : (StableHlo.after hostOps0_2 W (Proc.devRef .tc main_v7) : S320000.Idx → BitVec 32)
    = srcOf (W (Proc.devRef .tc main_arg5) : S2x320000.Idx → BitVec 32) := by
  after_results_simp <;> rfl
private theorem s2_v9 : (StableHlo.after hostOps0_2 W (Proc.devRef .tc main_v9) : S320000.Idx → BitVec 32)
    = dstOf (W (Proc.devRef .tc main_arg5) : S2x320000.Idx → BitVec 32) := by
  after_results_simp <;> rfl
private theorem s2_v17 : (StableHlo.after hostOps0_2 W (Proc.devRef .tc main_v17) : S10240.Idx → BitVec 1)
    = cmpf .ogt (degOf (dstOf (W (Proc.devRef .tc main_arg5) : S2x320000.Idx → BitVec 32)))
        (broadcastInDim S10240 ![] bcast_S_S10240 (constant (F := Ideal) S_ .f32 0x00000000#32)) := by
  after_results_simp <;> rfl
private theorem s2_v18 : (StableHlo.after hostOps0_2 W (Proc.devRef .tc main_v18) : S10240.Idx → EReal)
    = Host.rsqrt (degOf (dstOf (W (Proc.devRef .tc main_arg5) : S2x320000.Idx → BitVec 32))) := by
  after_results_simp <;> rfl
private theorem s2_cst3 : (StableHlo.after hostOps0_2 W (Proc.devRef .tc main_cst_3) : S_.Idx → EReal)
    = constant (F := Ideal) S_ .f32 0x00000000#32 := by
  after_results_simp <;> rfl

private theorem s3_v19 : (StableHlo.after hostOps0_3 W (Proc.devRef .tc main_v19) : S10240.Idx → EReal)
    = select (W (Proc.devRef .tc main_v17) : S10240.Idx → BitVec 1) (W (Proc.devRef .tc main_v18) : S10240.Idx → EReal)
        (broadcastInDim S10240 ![] bcast_S_S10240 (W (Proc.devRef .tc main_cst_3) : S_.Idx → EReal)) := by
  after_results_simp <;> rfl
private theorem s3_v7 : StableHlo.after hostOps0_3 W (Proc.devRef .tc main_v7) = W (Proc.devRef .tc main_v7) := by
  after_results_simp
private theorem s3_v9 : StableHlo.after hostOps0_3 W (Proc.devRef .tc main_v9) = W (Proc.devRef .tc main_v9) := by
  after_results_simp

private theorem s4_v22 : (StableHlo.after hostOps0_4 W (Proc.devRef .tc main_v22) : S10240.Idx → BitVec 1)
    = cmpi .slt (iotaInDim S10240 32 0) (broadcastInDim S10240 ![] bcast_S_S10240 (constantI S_ 32 10000#32)) := by
  after_results_simp <;> rfl
private theorem s4_cst5 : (StableHlo.after hostOps0_4 W (Proc.devRef .tc main_cst_5) : S_.Idx → EReal)
    = constant (F := Ideal) S_ .f32 0x00000000#32 := by
  after_results_simp <;> rfl
private theorem s4_v19 : StableHlo.after hostOps0_4 W (Proc.devRef .tc main_v19) = W (Proc.devRef .tc main_v19) := by
  after_results_simp
private theorem s4_v7 : StableHlo.after hostOps0_4 W (Proc.devRef .tc main_v7) = W (Proc.devRef .tc main_v7) := by
  after_results_simp
private theorem s4_v9 : StableHlo.after hostOps0_4 W (Proc.devRef .tc main_v9) = W (Proc.devRef .tc main_v9) := by
  after_results_simp

private theorem s5_v23 : (StableHlo.after hostOps0_5 W (Proc.devRef .tc main_v23) : S10240.Idx → EReal)
    = select (W (Proc.devRef .tc main_v22) : S10240.Idx → BitVec 1) (W (Proc.devRef .tc main_v19) : S10240.Idx → EReal)
        (broadcastInDim S10240 ![] bcast_S_S10240 (W (Proc.devRef .tc main_cst_5) : S_.Idx → EReal)) := by
  after_results_simp <;> rfl
private theorem s5_v7 : StableHlo.after hostOps0_5 W (Proc.devRef .tc main_v7) = W (Proc.devRef .tc main_v7) := by
  after_results_simp
private theorem s5_v9 : StableHlo.after hostOps0_5 W (Proc.devRef .tc main_v9) = W (Proc.devRef .tc main_v9) := by
  after_results_simp

set_option maxHeartbeats 4000000 in
private theorem s6_v23 : StableHlo.after hostOps0_6 W (Proc.devRef .tc main_v23) = W (Proc.devRef .tc main_v23) := by
  after_results_simp
set_option maxHeartbeats 4000000 in
private theorem s6_v38 : (StableHlo.after hostOps0_6 W (Proc.devRef .tc main_v38) : S320000.Idx → EReal)
    = edgeW (W (Proc.devRef .tc main_v23) : S10240.Idx → EReal) (W (Proc.devRef .tc main_v7) : S320000.Idx → BitVec 32)
        (W (Proc.devRef .tc main_v9) : S320000.Idx → BitVec 32) := by
  after_results_simp <;> rfl

set_option maxHeartbeats 4000000 in
private theorem s6_v43 : (StableHlo.after hostOps0_6 W (Proc.devRef .tc main_v43) : S330240.Idx → EReal)
    = valsT (W (Proc.devRef .tc main_v23) : S10240.Idx → EReal) (W (Proc.devRef .tc main_v7) : S320000.Idx → BitVec 32)
        (W (Proc.devRef .tc main_v9) : S320000.Idx → BitVec 32) := by
  after_results_simp <;> rfl

end Stretches

/-! ## The arrays as the first region finds them, as functions of the edge table -/

variable (m : (ℓ : Loc nD τ sig) → Buf (Elt Ideal) ℓ) (ρ : Dev nD → PrngReg)

/-- The source words, before the last stretch. -/
private theorem src6 (c : Dev nD) : (W6 m ρ c (Proc.devRef .tc main_v7) : S320000.Idx → BitVec 32) = srcOf (argE m c) := by
  show StableHlo.after hostOps0_5 (StableHlo.after hostOps0_4 (StableHlo.after hostOps0_3 (StableHlo.after hostOps0_2
    (StableHlo.after hostOps0_1 (StableHlo.after hostOps0 (W0 m ρ c)))))) (Proc.devRef .tc main_v7) = _
  rw [s5_v7, s4_v7, s3_v7, s2_v7, s1_arg5, s0_arg5]

/-- The destination words, before the last stretch. -/
private theorem dst6 (c : Dev nD) : (W6 m ρ c (Proc.devRef .tc main_v9) : S320000.Idx → BitVec 32) = dstOf (argE m c) := by
  show StableHlo.after hostOps0_5 (StableHlo.after hostOps0_4 (StableHlo.after hostOps0_3 (StableHlo.after hostOps0_2
    (StableHlo.after hostOps0_1 (StableHlo.after hostOps0 (W0 m ρ c)))))) (Proc.devRef .tc main_v9) = _
  rw [s5_v9, s4_v9, s3_v9, s2_v9, s1_arg5, s0_arg5]

/-- The factor array, before the last stretch. -/
private theorem dk6 (c : Dev nD) :
    (W6 m ρ c (Proc.devRef .tc main_v23) : S10240.Idx → EReal) = dkOf (dinvOf (degOf (dstOf (argE m c)))) := by
  show StableHlo.after hostOps0_5 (StableHlo.after hostOps0_4 (StableHlo.after hostOps0_3 (StableHlo.after hostOps0_2
    (StableHlo.after hostOps0_1 (StableHlo.after hostOps0 (W0 m ρ c)))))) (Proc.devRef .tc main_v23) = _
  rw [s5_v23, s4_v22, s4_cst5, s4_v19, s3_v19, s2_v17, s2_v18, s2_cst3, s1_arg5, s0_arg5]
  rfl

/-- The factor array the host keeps: a node's factor on a node row, zero on a padding row. -/
theorem dinvK_apply (c : Dev nD) (d : Fin 10240) :
    dinvArr m ρ c (ix1 d) = Cert.Spec.dinvK (argE m c) d.val := by
  have e : dinvArr m ρ c = dkOf (dinvOf (degOf (dstOf (argE m c)))) := by
    show StableHlo.after hostOps0_6 (W6 m ρ c) (Proc.devRef .tc main_v23) = _
    rw [s6_v23]
    exact dk6 m ρ c
  rw [e]
  exact dkfull_apply _ d

/-- An edge's weight, where the edge table names nodes. -/
theorem normk_apply (c : Dev nD) (hin : Cert.Spec.InRange (argE m c)) (e : Fin 320000) :
    normArr m ρ c (ix1 e) = Cert.Spec.norm (argE m c) e := by
  have h : normArr m ρ c
      = edgeW (dkOf (dinvOf (degOf (dstOf (argE m c))))) (srcOf (argE m c)) (dstOf (argE m c)) := by
    show StableHlo.after hostOps0_6 (W6 m ρ c) (Proc.devRef .tc main_v38) = _
    rw [s6_v38, dk6, src6, dst6]
  rw [h]
  exact edgeW_apply _ hin e

/-- The scattered values: the edge weights, then the squared factors. -/
theorem vals_apply (c : Dev nD) (hin : Cert.Spec.InRange (argE m c)) (n : Fin 330240) :
    valsArr m ρ c (ix1 n) = Cert.Spec.tval (argE m c) n := by
  have h : valsArr m ρ c
      = valsT (dkOf (dinvOf (degOf (dstOf (argE m c))))) (srcOf (argE m c)) (dstOf (argE m c)) := by
    show StableHlo.after hostOps0_6 (W6 m ρ c) (Proc.devRef .tc main_v43) = _
    rw [s6_v43, dk6, src6, dst6]
  rw [h]
  exact valsT_apply _ hin n

end Cert.KernelIdeal.Val

end
-- ==== Proof.KAdjIdx.lean ====
/-
  Where the host scatters its values: the index pairs, read one entry at a time, and the scatter itself.  Entry n of
  the pairs is (destination, source) of edge n for the first 320000 entries, and (d, d) for entry 320000 + d.  The
  matrix is zeros plus, at (i, j), every value whose pair is (i, j).
-/
import proofs.«414742_j37082747634687_3_alg».proof.Proof.KAdjIface
import proofs.«414742_j37082747634687_3_alg».proof.Proof.LibScatterAdd
import Idealize.ShloMosaic.Lib.StableHlo.Predicate
import Idealize.ShloMosaic.Lib.StableHlo.Run
import Idealize.ShloMosaic.Lib.Pipeline.Value

set_option maxRecDepth 16384

noncomputable section

open scoped BigOperators

namespace Cert.KernelIdeal.Val

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-! ## The index pairs as one term over the two rows of the edge table -/

/-- A vector of 320000 words followed by the words 0 … 10239. -/
def withDiag (v : S320000.Idx → BitVec 32) : S330240.Idx → BitVec 32 :=
  concatenate S330240 0 [⟨S320000, v⟩, ⟨S10240, iotaInDim S10240 32 0⟩] concatenates_S320000_S10240_S330240_d0

/-- A word below zero moved up by 10240, any other word kept. -/
def wrapNeg (v : S330240.Idx → BitVec 32) : S330240.Idx → BitVec 32 :=
  select (cmpi .slt v (broadcastInDim S330240 ![] bcast_S_S330240 (constantI S_ 32 0#32)))
    (addi v (broadcastInDim S330240 ![] bcast_S_S330240 (constantI S_ 32 10240#32))) v

/-- The pairs: the wrapped row words beside the wrapped column words. -/
def pairsOf (dst src : S320000.Idx → BitVec 32) : S330240x2.Idx → BitVec 32 :=
  concatenate S330240x2 1
    [⟨S330240x1, broadcastInDim S330240x1 ![0] bcast_S330240_S330240x1_0 (wrapNeg (withDiag dst))⟩,
     ⟨S330240x1, broadcastInDim S330240x1 ![0] bcast_S330240_S330240x1_0 (wrapNeg (withDiag src))⟩]
    concatenates_S330240x1_S330240x1_S330240x2_d1

/-- Row r of the edge table as a vector of 320000 words. -/
def srcVec (ei : Cert.Spec.EdgeTab) : S320000.Idx → BitVec 32 :=
  shapeCast S320000 (extractStridedSlice S1x320000 ![0, 0] ei slices_S2x320000_S1x320000_0_0) shapeCasts_S1x320000_S320000
def dstVec (ei : Cert.Spec.EdgeTab) : S320000.Idx → BitVec 32 :=
  shapeCast S320000 (extractStridedSlice S1x320000 ![1, 0] ei slices_S2x320000_S1x320000_1_0) shapeCasts_S1x320000_S320000

/-! ## The pairs read at one entry -/

/-- A column made from a vector reads the vector. -/
theorem col_apply (v : S330240.Idx → BitVec 32) (n : Fin 330240) (z : Fin 1) :
    broadcastInDim S330240x1 ![0] bcast_S330240_S330240x1_0 v (ix2 n z) = v (ix1 n) := by
  unfold broadcastInDim
  refine congrArg v (funext fun a => ?_)
  match a with
  | ⟨0, _⟩ =>
    apply Fin.ext
    rw [dif_neg (by show ¬ (330240 : ℕ) = 1; decide)]
    rfl

/-- Column 0 of the pairs is the wrapped row words, column 1 the wrapped column words. -/
theorem pairsOf_apply0 (dst src : S320000.Idx → BitVec 32) (n : Fin 330240) :
    pairsOf dst src (ix2 n (0 : Fin 2)) = wrapNeg (withDiag dst) (ix1 n) := by
  unfold pairsOf
  refine (concatenate_pair_apply_left (t := S330240x2) (s₁ := S330240x1) (s₂ := S330240x1) (1 : Fin 2) _ _
    concatenates_S330240x1_S330240x1_S330240x2_d1 (ix2 n (0 : Fin 2)) rfl (ix2 n (0 : Fin 1)) (fun b => ?_)).trans
    (col_apply _ n 0)
  match b with
  | ⟨0, _⟩ => rfl
  | ⟨1, _⟩ => rfl

theorem pairsOf_apply1 (dst src : S320000.Idx → BitVec 32) (n : Fin 330240) :
    pairsOf dst src (ix2 n (1 : Fin 2)) = wrapNeg (withDiag src) (ix1 n) := by
  unfold pairsOf
  refine (concatenate_pair_apply_right (t := S330240x2) (s₁ := S330240x1) (s₂ := S330240x1) (1 : Fin 2) _ _
    concatenates_S330240x1_S330240x1_S330240x2_d1 (ix2 n (1 : Fin 2)) rfl rfl (ix2 n (0 : Fin 1)) (fun b hb => ?_) rfl).trans
    (col_apply _ n 0)
  match b with
  | ⟨0, _⟩ => rfl
  | ⟨1, _⟩ => exact absurd rfl hb

/-- A word that reads as a number from 0 on is kept. -/
theorem wrapNeg_of_nonneg (v : S330240.Idx → BitVec 32) (k : S330240.Idx) (h : 0 ≤ (v k).toInt) :
    wrapNeg v k = v k := by
  show Scalar.select (IntOp.cmpi .slt (v k) 0#32) (IntOp.addi (v k) 10240#32) (v k) = v k
  have hlt : (v k).toNat < 2 ^ 31 := by
    have h2 := (v k).isLt
    rw [BitVec.toInt_eq_toNat_cond] at h
    split at h <;> omega
  have hc : ¬ IntOp.cmpi .slt (v k) 0#32 = 1#1 := fun hc => by
    have := (StableHlo.Predicate.slt_iff_toNat hlt (by decide)).mp hc
    simp at this
  unfold Scalar.select
  exact if_neg hc

/-- The first 320000 entries of the lengthened vector are the vector's. -/
theorem withDiag_edge (v : S320000.Idx → BitVec 32) (n : Fin 330240) (h : n.val < 320000) :
    withDiag v (ix1 n) = v (ix1 ⟨n.val, h⟩) := by
  unfold withDiag
  refine concatenate_pair_apply_left (t := S330240) (s₁ := S320000) (s₂ := S10240) (0 : Fin 1) _ _
    concatenates_S320000_S10240_S330240_d0 (ix1 n) rfl (ix1 ⟨n.val, h⟩) (fun b => ?_)
  match b with
  | ⟨0, _⟩ => rfl

/-- Entry 320000 + d of the lengthened vector is the word d. -/
theorem withDiag_diag (v : S320000.Idx → BitVec 32) (n : Fin 330240) (h : ¬ n.val < 320000) :
    withDiag v (ix1 n) = BitVec.ofNat 32 (n.val - 320000) := by
  unfold withDiag
  have hn := n.isLt
  refine (concatenate_pair_apply_right (t := S330240) (s₁ := S320000) (s₂ := S10240) (0 : Fin 1) _ _
    concatenates_S320000_S10240_S330240_d0 (ix1 n) rfl rfl (ix1 ⟨n.val - 320000, by omega⟩) (fun b hb => ?_) ?_).trans rfl
  · match b with
    | ⟨0, _⟩ => exact absurd rfl hb
  · show n.val - 320000 + 320000 = n.val
    omega

/-- Row r of the edge table, cut out and flattened, reads the table's row r. -/
theorem srcVec_apply (ei : Cert.Spec.EdgeTab) (e : Fin 320000) : srcVec ei (ix1 e) = Cert.Spec.srcw ei e := by
  unfold srcVec Cert.Spec.srcw
  refine (shapeCast_apply _ shapeCasts_S1x320000_S320000 (ix1 e) (ix2 (0 : Fin 1) e) ?_).trans ?_
  · rw [Shape.rowMajor_val_two, Shape.rowMajor_val_one]
    show (0 : ℕ) * 320000 + e.val = e.val
    omega
  · refine extractStridedSlice_apply _ ei slices_S2x320000_S1x320000_0_0 (ix2 (0 : Fin 1) e) (ix2 (0 : Fin 2) e) (fun a => ?_)
    match a with
    | ⟨0, _⟩ => rfl
    | ⟨1, _⟩ => show e.val = 0 + e.val; omega

theorem dstVec_apply (ei : Cert.Spec.EdgeTab) (e : Fin 320000) : dstVec ei (ix1 e) = Cert.Spec.dstw ei e := by
  unfold dstVec Cert.Spec.dstw
  refine (shapeCast_apply _ shapeCasts_S1x320000_S320000 (ix1 e) (ix2 (0 : Fin 1) e) ?_).trans ?_
  · rw [Shape.rowMajor_val_two, Shape.rowMajor_val_one]
    show (0 : ℕ) * 320000 + e.val = e.val
    omega
  · refine extractStridedSlice_apply _ ei slices_S2x320000_S1x320000_1_0 (ix2 (0 : Fin 1) e) (ix2 (1 : Fin 2) e) (fun a => ?_)
    match a with
    | ⟨0, _⟩ => rfl
    | ⟨1, _⟩ => show e.val = 0 + e.val; omega

/-- A wrapped entry of a lengthened vector, read signed: the vector's word for an edge whose word reads from 0 on,
    and d for entry 320000 + d. -/
theorem wrapped_toInt (v : S320000.Idx → BitVec 32) (hv : ∀ e : Fin 320000, 0 ≤ (v (ix1 e)).toInt) (n : Fin 330240) :
    (wrapNeg (withDiag v) (ix1 n)).toInt
      = if h : n.val < 320000 then (v (ix1 ⟨n.val, h⟩)).toInt else ((n.val - 320000 : ℕ) : ℤ) := by
  have hn := n.isLt
  split
  · next h =>
    rw [wrapNeg_of_nonneg _ _ (by rw [withDiag_edge v n h]; exact hv _), withDiag_edge v n h]
  · next h =>
    have hs : (BitVec.ofNat 32 (n.val - 320000)).toInt = ((n.val - 320000 : ℕ) : ℤ) :=
      StableHlo.Predicate.toInt_ofNat_small _ (by omega)
    rw [wrapNeg_of_nonneg _ _ (by rw [withDiag_diag v n h, hs]; exact Int.natCast_nonneg _), withDiag_diag v n h, hs]
/-! ## The host's last stretch builds the pairs from the two row vectors; the earlier stretches cut the rows -/

set_option maxHeartbeats 4000000 in
private theorem pairs_stretch (V : Valuation τ sig (Elt Ideal)) :
    (StableHlo.after hostOps0_6 V (Proc.devRef .tc main_v57) : IVec S330240x2 32)
      = pairsOf (V (Proc.devRef .tc main_v9) : IVec S320000 32) (V (Proc.devRef .tc main_v7) : IVec S320000 32) := by
  simp only [hostOps0_6]
  after_results_simp <;> rfl

set_option maxHeartbeats 4000000 in
private theorem rows_stretch (V : Valuation τ sig (Elt Ideal)) :
    (StableHlo.after hostOps0_2 V (Proc.devRef .tc main_v9) : IVec S320000 32)
        = dstVec (V (Proc.devRef .tc main_arg5) : IVec S2x320000 32)
    ∧ (StableHlo.after hostOps0_2 V (Proc.devRef .tc main_v7) : IVec S320000 32)
        = srcVec (V (Proc.devRef .tc main_arg5) : IVec S2x320000 32) := by
  constructor
  · simp only [hostOps0_2]
    after_results_simp <;> rfl
  · simp only [hostOps0_2]
    after_results_simp <;> rfl

/-- The three stretches between leave the two row vectors as they are. -/
private theorem rows_kept (V : Valuation τ sig (Elt Ideal)) :
    StableHlo.after hostOps0_5 (StableHlo.after hostOps0_4 (StableHlo.after hostOps0_3 V)) (Proc.devRef .tc main_v9)
        = V (Proc.devRef .tc main_v9)
    ∧ StableHlo.after hostOps0_5 (StableHlo.after hostOps0_4 (StableHlo.after hostOps0_3 V)) (Proc.devRef .tc main_v7)
        = V (Proc.devRef .tc main_v7) := by
  constructor
  · simp only [hostOps0_3, hostOps0_4, hostOps0_5]
    after_results_simp
  · simp only [hostOps0_3, hostOps0_4, hostOps0_5]
    after_results_simp

/-- The first two stretches leave the edge table as it is. -/
private theorem table_kept (V : Valuation τ sig (Elt Ideal)) :
    StableHlo.after hostOps0_1 (StableHlo.after hostOps0 V) (Proc.devRef .tc main_arg5) = V (Proc.devRef .tc main_arg5) := by
  simp only [hostOps0, hostOps0_1]
  after_results_simp

/-- The pairs the first region finds are the pairs built from the edge table's two rows. -/
theorem pairsArr_eq (c : Dev nD) : pairsArr m ρ c = pairsOf (dstVec (argE m c)) (srcVec (argE m c)) := by
  show (StableHlo.after hostOps0_6 (W6 m ρ c) (Proc.devRef .tc main_v57) : IVec S330240x2 32) = _
  rw [pairs_stretch]
  have h9 : (W6 m ρ c (Proc.devRef .tc main_v9) : IVec S320000 32) = dstVec (argE m c) := by
    show (StableHlo.after hostOps0_5 (StableHlo.after hostOps0_4 (StableHlo.after hostOps0_3
      (StableHlo.after hostOps0_2 (W2 m ρ c)))) (Proc.devRef .tc main_v9) : IVec S320000 32) = _
    rw [(rows_kept _).1, (rows_stretch _).1]
    show dstVec (StableHlo.after hostOps0_1 (StableHlo.after hostOps0 (W0 m ρ c)) (Proc.devRef .tc main_arg5)) = _
    rw [table_kept]
  have h7 : (W6 m ρ c (Proc.devRef .tc main_v7) : IVec S320000 32) = srcVec (argE m c) := by
    show (StableHlo.after hostOps0_5 (StableHlo.after hostOps0_4 (StableHlo.after hostOps0_3
      (StableHlo.after hostOps0_2 (W2 m ρ c)))) (Proc.devRef .tc main_v7) : IVec S320000 32) = _
    rw [(rows_kept _).2, (rows_stretch _).2]
    show srcVec (StableHlo.after hostOps0_1 (StableHlo.after hostOps0 (W0 m ρ c)) (Proc.devRef .tc main_arg5)) = _
    rw [table_kept]
  rw [h9, h7]

/-- The pair of scattered entry `n`, read as signed numbers: its row and its column. -/
theorem pairs_apply (c : Dev nD) (hin : Cert.Spec.InRange (argE m c)) (n : Fin 330240) :
    (pairsArr m ρ c (ix2 n (0 : Fin 2))).toInt = (Cert.Spec.trow (argE m c) n : ℤ)
    ∧ (pairsArr m ρ c (ix2 n (1 : Fin 2))).toInt = (Cert.Spec.tcol (argE m c) n : ℤ) := by
  have hd : ∀ e : Fin 320000, 0 ≤ (dstVec (argE m c) (ix1 e)).toInt := fun e => by
    rw [dstVec_apply]; exact (hin 1 e).1
  have hs : ∀ e : Fin 320000, 0 ≤ (srcVec (argE m c) (ix1 e)).toInt := fun e => by
    rw [srcVec_apply]; exact (hin 0 e).1
  rw [pairsArr_eq, pairsOf_apply0, pairsOf_apply1, wrapped_toInt _ hd, wrapped_toInt _ hs]
  unfold Cert.Spec.trow Cert.Spec.tcol
  by_cases h : n.val < 320000
  · simp only [dif_pos h]
    rw [dstVec_apply, srcVec_apply]
    exact ⟨(Cert.Spec.node_val hin 1 ⟨n.val, h⟩).symm, (Cert.Spec.node_val hin 0 ⟨n.val, h⟩).symm⟩
  · simp only [dif_neg h]
    exact ⟨trivial, trivial⟩

/-! ## The last two host operations

The matrix is written by the last two host operations: the scatter of the values at the index pairs into a matrix of
zeros, and the change of float format.  Whatever the operations before them leave in the buffers, the matrix is that
scatter of what they leave in the three operand buffers. -/

/-- The scatter and the change of format: the list of host operations past its first 43. -/
private abbrev lastOps : List (HloOp τ sig (Elt Ideal)) := List.drop 43 hostOps0_6

private theorem last_two (pre : List (HloOp τ sig (Elt Ideal))) (V : Valuation τ sig (Elt Ideal)) :
    (StableHlo.after (pre ++ lastOps) V (Proc.devRef .tc main_v59) : S10240x10240.Idx → EReal)
      = (truncf .bf16 (Host.scatterAdd scatter_S10240x10240_S330240x2_S330240_n_01_01_1
          (StableHlo.after (pre ++ lastOps) V (Proc.devRef .tc main_v44) : FVec Ideal S10240x10240 .f32)
          (StableHlo.after (pre ++ lastOps) V (Proc.devRef .tc main_v57) : IVec S330240x2 32)
          (StableHlo.after (pre ++ lastOps) V (Proc.devRef .tc main_v43) : FVec Ideal S330240 .f32) : FVec Ideal S10240x10240 .f32)
          bitsLt_bf16_f32 : FVec Ideal S10240x10240 .bf16) := by
  rw [StableHlo.after_append]
  generalize StableHlo.after pre V = X
  simp only [lastOps, hostOps0_6, List.drop_succ_cons, List.drop_zero]
  after_results

/-- The operand the scatter adds into is a matrix of zeros. -/
private theorem zeros_buf (c : Dev nD) :
    (V7 m ρ c main_v44 : S10240x10240.Idx → EReal)
      = (broadcastInDim S10240x10240 ![] bcast_S_S10240x10240 (constant (F := Ideal) S_ .f32 0x00000000#32) : FVec Ideal S10240x10240 .f32) := by
  show StableHlo.after hostOps0_6 (W6 m ρ c) (Proc.devRef .tc main_v44) = _
  generalize W6 m ρ c = V6
  simp only [hostOps0_6]
  after_results

private theorem adj_step (c : Dev nD) :
    (V7 m ρ c main_v59 : S10240x10240.Idx → EReal)
      = (truncf .bf16 (Host.scatterAdd scatter_S10240x10240_S330240x2_S330240_n_01_01_1
          (broadcastInDim S10240x10240 ![] bcast_S_S10240x10240 (constant (F := Ideal) S_ .f32 0x00000000#32) : FVec Ideal S10240x10240 .f32)
          (pairsArr m ρ c) (valsArr m ρ c) : FVec Ideal S10240x10240 .f32)
          bitsLt_bf16_f32 : FVec Ideal S10240x10240 .bf16) := by
  have hsplit : (hostOps0_6 : List (HloOp τ sig (Elt Ideal))) = List.take 43 hostOps0_6 ++ lastOps :=
    (List.take_append_drop 43 _).symm
  have h := last_two (List.take 43 hostOps0_6) (W6 m ρ c)
  rw [← hsplit] at h
  rw [← zeros_buf m ρ c]
  exact h

/-- The adjacency matrix at (i, j): the values whose pair, read as signed numbers, is (i, j), summed. -/
theorem adj_scatter (c : Dev nD) (i j : Fin 10240) :
    adj1 (V7 m ρ) c (ix2 i j)
      = ∑ n ∈ Finset.univ.filter (fun n : Fin 330240 =>
          (pairsArr m ρ c (ix2 n (0 : Fin 2))).toInt = (i.val : ℤ)
          ∧ (pairsArr m ρ c (ix2 n (1 : Fin 2))).toInt = (j.val : ℤ)),
        valsArr m ρ c (ix1 n) := by
  show (V7 m ρ c main_v59 : S10240x10240.Idx → EReal) (ix2 i j) = _
  rw [adj_step, truncf_apply]
  refine (Cert.LibScatterAdd.scatterAdd_point_apply _ rfl rfl rfl rfl _ _ _ i j).trans ?_
  have hz : (broadcastInDim S10240x10240 ![] bcast_S_S10240x10240 (constant (F := Ideal) S_ .f32 0x00000000#32) : FVec Ideal S10240x10240 .f32) (ix2 i j) = 0 :=
    show Ideal.ofBits .f32 0x00000000#32 = 0 by simp [Ideal.ofBits, Ideal.ieee]
  rw [hz, zero_add]

end Cert.KernelIdeal.Val

end
-- ==== Proof.KAdj.lean ====
/-
  The normalised adjacency matrix the host operations build before the first region, read at one element.  The host
  counts, for every row, the edges that end there and adds one; takes the reciprocal square root; zeroes the factor of
  the 240 padding rows; multiplies the factors of each edge's two ends; lays the 320000 edge weights and the 10240
  squared factors end to end, with their (destination, source) and (d, d) positions; and adds them all into a matrix of
  zeros.  So the entry at (i, j) is the sum of the scattered values whose row is i and whose column is j.
-/
import proofs.«414742_j37082747634687_3_alg».proof.Proof.KAdjVals
import proofs.«414742_j37082747634687_3_alg».proof.Proof.KAdjIdx

set_option maxRecDepth 16384

noncomputable section

open scoped BigOperators

namespace Cert.KernelIdeal.Val

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-- The adjacency matrix at (i, j): the scattered values whose row is i and whose column is j, summed. -/
theorem adj_apply (c : Dev nD) (hin : Cert.Spec.InRange (argE m c)) (i j : Fin 10240) :
    adj1 (V7 m ρ) c (ix2 i j)
      = ∑ n ∈ Finset.univ.filter (fun n : Fin 330240 =>
          Cert.Spec.trow (argE m c) n = i.val ∧ Cert.Spec.tcol (argE m c) n = j.val), Cert.Spec.tval (argE m c) n := by
  rw [adj_scatter]
  have hf : (Finset.univ.filter (fun n : Fin 330240 =>
        (pairsArr m ρ c (ix2 n (0 : Fin 2))).toInt = (i.val : ℤ)
        ∧ (pairsArr m ρ c (ix2 n (1 : Fin 2))).toInt = (j.val : ℤ)))
      = Finset.univ.filter (fun n : Fin 330240 =>
        Cert.Spec.trow (argE m c) n = i.val ∧ Cert.Spec.tcol (argE m c) n = j.val) := by
    refine Finset.filter_congr fun n _ => ?_
    obtain ⟨h0, h1⟩ := pairs_apply m ρ c hin n
    rw [h0, h1]
    exact ⟨fun h => ⟨by exact_mod_cast h.1, by exact_mod_cast h.2⟩, fun h => ⟨by exact_mod_cast h.1, by exact_mod_cast h.2⟩⟩
  rw [hf]
  exact Finset.sum_congr rfl fun n _ => vals_apply m ρ c hin n

end Cert.KernelIdeal.Val

end
-- ==== Proof.Algebra.lean ====
/-
  Two facts about finite sums of extended reals.  The extended reals are not a ring: a product does not distribute
  over a sum in general (an infinite factor against summands of both signs).  It does when the summands are all
  nonnegative, and that is the case needed here: the entries of the normalised adjacency matrix are sums of
  nonnegative weights.
-/
import Mathlib.Data.EReal.Operations
import Mathlib.Algebra.BigOperators.Group.Finset.Basic
import Mathlib.Algebra.Order.BigOperators.Group.Finset

noncomputable section

open scoped BigOperators

namespace Cert.Algebra

/-- A sum of nonnegative extended reals, times any extended real, is the sum of the products. -/
theorem sum_mul_of_nonneg {ι : Type*} (S : Finset ι) (v : ι → EReal) (hv : ∀ n ∈ S, 0 ≤ v n) (h : EReal) :
    (∑ n ∈ S, v n) * h = ∑ n ∈ S, v n * h := by
  classical
  induction S using Finset.induction_on with
  | empty => simp
  | insert a s ha ih =>
    -- the new summand and the sum of the old ones are both nonnegative, so the product distributes over them
    have hs : ∀ n ∈ s, 0 ≤ v n := fun n hn => hv n (Finset.mem_insert_of_mem hn)
    rw [Finset.sum_insert ha, Finset.sum_insert ha,
      EReal.right_distrib_of_nonneg (hv a (Finset.mem_insert_self a s)) (Finset.sum_nonneg hs), ih hs]

/-- A matrix whose entry (·, j) is the sum of the nonnegative values `v n` over the entries `n` selected by `P` that
    lie in column `j`, applied to a vector `H`: the sum over the selected entries of the value times `H` at the
    entry's column. -/
theorem adj_matvec {J M : Type*} [Fintype J] [DecidableEq J] [Fintype M] (P : M → Prop) [DecidablePred P] (col : M → J)
    (v : M → EReal) (hv : ∀ n, 0 ≤ v n) (H : J → EReal) :
    ∑ j : J, (∑ n ∈ Finset.univ.filter (fun n => P n ∧ col n = j), v n) * H j
      = ∑ n ∈ Finset.univ.filter P, v n * H (col n) := by
  calc ∑ j : J, (∑ n ∈ Finset.univ.filter (fun n => P n ∧ col n = j), v n) * H j
      = ∑ j : J, ∑ n ∈ (Finset.univ.filter P).filter (fun n => col n = j), v n * H (col n) := by
        -- inside column j: distribute, then name the column by the entry that lies in it
        refine Finset.sum_congr rfl fun j _ => ?_
        rw [sum_mul_of_nonneg _ _ (fun n _ => hv n), Finset.filter_filter]
        refine Finset.sum_congr rfl fun n hn => ?_
        rw [(Finset.mem_filter.1 hn).2.2]
    -- the selected entries, grouped by their column, are all the selected entries
    _ = ∑ n ∈ Finset.univ.filter P, v n * H (col n) := Finset.sum_fiberwise _ _ _

end Cert.Algebra

end
-- ==== Proof.AdjAlgebra.lean ====
/-
  The kernel's matrix applied to a feature matrix, one element at a time.  The matrix entry (i, j) is the sum of the
  scattered values that land at (i, j); multiplying row i by a column of features and summing over j is the sum, over
  the scattered entries of row i, of the value times the feature at the entry's column.  For a row that is a node those
  entries are the edges that end at the node and the node's one diagonal entry.
-/
import proofs.«414742_j37082747634687_3_alg».proof.Proof.Spec
import proofs.«414742_j37082747634687_3_alg».proof.Proof.Algebra

noncomputable section

open scoped BigOperators

namespace Cert.AdjAlgebra

open Cert.Spec

/-- Every scattered entry's column lies inside the matrix: an edge's column is a node, a diagonal entry's column is
    its row. -/
theorem tcol_lt (ei : EdgeTab) (n : Fin 330240) : tcol ei n < 10240 := by
  unfold tcol
  split
  · next h => have := (node (srcw ei ⟨n.val, h⟩)).isLt; omega
  · have := n.isLt; omega

/-- The column of a scattered entry, as an index into the matrix. -/
def colF (ei : EdgeTab) (n : Fin 330240) : Fin 10240 := ⟨tcol ei n, tcol_lt ei n⟩

/-- A sum over the 330240 scattered entries is the sum over the 320000 edge entries plus the sum over the 10240
    diagonal entries. -/
theorem sum_split (f : Fin 330240 → EReal) :
    ∑ n, f n = (∑ e : Fin 320000, f ⟨e.val, by omega⟩) + ∑ d : Fin 10240, f ⟨320000 + d.val, by omega⟩ :=
  Fin.sum_univ_add (a := 320000) (b := 10240) f

/-! ### The edge entries -/

theorem trow_edge (ei : EdgeTab) (e : Fin 320000) (h : e.val < 330240) :
    trow ei ⟨e.val, h⟩ = (node (dstw ei e)).val := by
  unfold trow; exact dif_pos e.isLt

theorem tcol_edge (ei : EdgeTab) (e : Fin 320000) (h : e.val < 330240) :
    tcol ei ⟨e.val, h⟩ = (node (srcw ei e)).val := by
  unfold tcol; exact dif_pos e.isLt

theorem tval_edge (ei : EdgeTab) (e : Fin 320000) (h : e.val < 330240) :
    tval ei ⟨e.val, h⟩ = norm ei e := by
  unfold tval; exact dif_pos e.isLt

theorem colF_edge (ei : EdgeTab) (e : Fin 320000) (h : e.val < 330240) :
    colF ei ⟨e.val, h⟩ = Fin.castLE (by decide) (node (srcw ei e)) :=
  Fin.ext (tcol_edge ei e h)

/-- Under the range hypothesis, an edge entry lies in row i exactly when the edge ends at node i. -/
theorem edge_row_iff {ei : EdgeTab} (hin : InRange ei) (e : Fin 320000) (t : ℕ) :
    (node (dstw ei e)).val = t ↔ (dstw ei e).toInt = (t : ℤ) := by
  have := node_val hin 1 e
  unfold dstw
  omega

/-! ### The diagonal entries -/

theorem trow_diag (ei : EdgeTab) (d : Fin 10240) (h : 320000 + d.val < 330240) :
    trow ei ⟨320000 + d.val, h⟩ = d.val := by
  unfold trow
  rw [dif_neg (by simp)]
  simp

theorem tcol_diag (ei : EdgeTab) (d : Fin 10240) (h : 320000 + d.val < 330240) :
    tcol ei ⟨320000 + d.val, h⟩ = d.val := by
  unfold tcol
  rw [dif_neg (by simp)]
  simp

theorem tval_diag (ei : EdgeTab) (d : Fin 10240) (h : 320000 + d.val < 330240) :
    tval ei ⟨320000 + d.val, h⟩ = dinvK ei d.val * dinvK ei d.val := by
  unfold tval
  rw [dif_neg (by simp)]
  simp

theorem colF_diag (ei : EdgeTab) (d : Fin 10240) (h : 320000 + d.val < 330240) :
    colF ei ⟨320000 + d.val, h⟩ = d :=
  Fin.ext (tcol_diag ei d h)

/-- Row `i` (a node) of the scattered matrix against the feature column `q`: the weighted features of the edges ending
    at `i`, plus the node's own feature times its factor squared. -/
theorem adj_matvec_spec {C : ℕ} (ei : EdgeTab) (hin : InRange ei) (A : Fin 10240 → Fin 10240 → EReal)
    (hA : ∀ i j, A i j = ∑ n ∈ Finset.univ.filter (fun n : Fin 330240 => trow ei n = i.val ∧ tcol ei n = j.val), tval ei n)
    (Hk : Fin 10240 → Fin C → EReal) (i : Fin 10000) (q : Fin C) :
    ∑ j : Fin 10240, A (Fin.castLE (by decide) i) j * Hk j q
      = (∑ e ∈ into ei i.val, Hk (Fin.castLE (by decide) (node (srcw ei e))) q * norm ei e)
        + Hk (Fin.castLE (by decide) i) q * (dinv ei i.val * dinv ei i.val) := by
  -- the matrix entry, with the column condition read as an equation between matrix indices
  have hA' : ∀ j : Fin 10240, A (Fin.castLE (by decide) i) j
      = ∑ n ∈ Finset.univ.filter (fun n : Fin 330240 => trow ei n = i.val ∧ colF ei n = j), tval ei n := by
    intro j
    rw [hA]
    refine Finset.sum_congr (Finset.filter_congr ?_) (fun _ _ => rfl)
    intro n _
    simp only [colF, Fin.ext_iff, Fin.coe_castLE]
  -- the edge entries of row i are the edges that end at i
  have hE : (∑ e : Fin 320000, (if trow ei ⟨e.val, by omega⟩ = i.val
        then tval ei ⟨e.val, by omega⟩ * Hk (colF ei ⟨e.val, by omega⟩) q else 0))
      = ∑ e ∈ into ei i.val, Hk (Fin.castLE (by decide) (node (srcw ei e))) q * norm ei e := by
    unfold into
    rw [Finset.sum_filter]
    refine Finset.sum_congr rfl (fun e _ => ?_)
    rw [trow_edge, tval_edge, colF_edge, mul_comm]
    exact if_congr (edge_row_iff hin e i.val) rfl rfl
  -- the one diagonal entry of row i is the node's own
  have hD : (∑ d : Fin 10240, (if trow ei ⟨320000 + d.val, by omega⟩ = i.val
        then tval ei ⟨320000 + d.val, by omega⟩ * Hk (colF ei ⟨320000 + d.val, by omega⟩) q else 0))
      = Hk (Fin.castLE (by decide) i) q * (dinv ei i.val * dinv ei i.val) := by
    have hpt : ∀ d : Fin 10240, (if trow ei ⟨320000 + d.val, by omega⟩ = i.val
          then tval ei ⟨320000 + d.val, by omega⟩ * Hk (colF ei ⟨320000 + d.val, by omega⟩) q else 0)
        = if d = Fin.castLE (by decide) i then Hk d q * (dinv ei i.val * dinv ei i.val) else 0 := by
      intro d
      rw [trow_diag, tval_diag, colF_diag]
      by_cases hd : d.val = i.val
      · have hd' : d = Fin.castLE (by decide) i := Fin.ext hd
        have hlt : d.val < 10000 := by omega
        rw [if_pos hd, if_pos hd', mul_comm]
        unfold dinvK
        rw [if_pos hlt, hd]
      · have hd' : ¬ d = Fin.castLE (by decide) i := fun h => hd (by rw [h]; rfl)
        rw [if_neg hd, if_neg hd']
    rw [Finset.sum_congr rfl (fun d _ => hpt d), Finset.sum_ite_eq' Finset.univ, if_pos (Finset.mem_univ _)]
  calc ∑ j : Fin 10240, A (Fin.castLE (by decide) i) j * Hk j q
      = ∑ j : Fin 10240, (∑ n ∈ Finset.univ.filter
            (fun n : Fin 330240 => trow ei n = i.val ∧ colF ei n = j), tval ei n) * Hk j q :=
        Finset.sum_congr rfl (fun j _ => by rw [hA'])
    _ = ∑ n ∈ Finset.univ.filter (fun n : Fin 330240 => trow ei n = i.val), tval ei n * Hk (colF ei n) q :=
        Cert.Algebra.adj_matvec (fun n : Fin 330240 => trow ei n = i.val) (colF ei) (tval ei) (tval_nonneg ei)
          (fun j => Hk j q)
    _ = ∑ n : Fin 330240, (if trow ei n = i.val then tval ei n * Hk (colF ei n) q else 0) :=
        Finset.sum_filter _ _
    _ = (∑ e : Fin 320000, (if trow ei ⟨e.val, by omega⟩ = i.val
            then tval ei ⟨e.val, by omega⟩ * Hk (colF ei ⟨e.val, by omega⟩) q else 0))
          + ∑ d : Fin 10240, (if trow ei ⟨320000 + d.val, by omega⟩ = i.val
            then tval ei ⟨320000 + d.val, by omega⟩ * Hk (colF ei ⟨320000 + d.val, by omega⟩) q else 0) :=
        sum_split _
    _ = _ := by rw [hE, hD]

end Cert.AdjAlgebra

end
-- ==== Proof.KValue.lean ====
/-
  The kernel's result array, element by element, is the specification's two-layer network of the launch arguments.

  The four regions run in order, and what one leaves is what the next finds: the first feature transform reads the
  padded features and the first weights and leaves their product; the first aggregation reads the adjacency matrix,
  that product and the first bias, and leaves the first layer's output on every node row; the second feature transform
  multiplies that output by the second weights; the second aggregation reads the adjacency matrix again — untouched
  by the regions before it — and leaves the second layer's output; the last host operation keeps the 10000 node rows.
  Only node rows are ever read back: the adjacency matrix's row of a node has entries only in node columns.
-/
import proofs.«414742_j37082747634687_3_alg».proof.Proof.KRegionMm
import proofs.«414742_j37082747634687_3_alg».proof.Proof.KRegionMm2
import proofs.«414742_j37082747634687_3_alg».proof.Proof.KRegionAgg
import proofs.«414742_j37082747634687_3_alg».proof.Proof.KRegionAgg3
import proofs.«414742_j37082747634687_3_alg».proof.Proof.KHost
import proofs.«414742_j37082747634687_3_alg».proof.Proof.KAdj
import proofs.«414742_j37082747634687_3_alg».proof.Proof.AdjAlgebra
import Idealize.ShloMosaic.Lib.StableHlo.Run
import Idealize.ShloMosaic.Lib.Pipeline.Value

set_option maxRecDepth 16384

noncomputable section

open scoped BigOperators

namespace Cert.KernelIdeal.Val

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-- A node's row number, as a row of the padded matrices. -/
abbrev up (i : Fin 10000) : Fin 10240 := Fin.castLE (by decide) i

/-- The launch arguments as plain functions of their coordinates. -/
abbrev aX (c : Dev nD) : Fin 10000 → Fin 256 → EReal := fun i k => argX m c (ix2 i k)
abbrev aW1 (c : Dev nD) : Fin 256 → Fin 512 → EReal := fun k q => argW1 m c (ix2 k q)
abbrev aB1 (c : Dev nD) : Fin 512 → EReal := fun q => argB1 m c (ix1 q)
abbrev aW2 (c : Dev nD) : Fin 512 → Fin 256 → EReal := fun k q => argW2 m c (ix2 k q)
abbrev aB2 (c : Dev nD) : Fin 256 → EReal := fun q => argB2 m c (ix1 q)

/-! ## What each region finds -/

theorem adj_at1 (c : Dev nD) : adj1 (V8 m ρ) c = adj1 (V7 m ρ) c := W8_of_ne m ρ c main_v59 (by decide)
theorem feat_at1 (c : Dev nD) : feat1 (V8 m ρ) c = out0 (V7 m ρ) c := W8_arr m ρ c 2
theorem bias_at1 (c : Dev nD) : bias1 (V8 m ρ) c = bias1 (V7 m ρ) c := W8_of_ne m ρ c main_v4 (by decide)

theorem lhs_at2 (c : Dev nD) : lhs2 (V9 m ρ) c = out1 (V8 m ρ) c := W9_arr m ρ c 3
theorem rhs_at2 (c : Dev nD) : rhs2 (V9 m ρ) c = rhs2 (V7 m ρ) c :=
  (W9_of_ne m ρ c main_v3 (by decide)).trans (W8_of_ne m ρ c main_v3 (by decide))

/-- The adjacency matrix is an input of the first aggregation, so that region leaves it as it found it. -/
theorem adj_at3 (c : Dev nD) : adj3 (V10 m ρ) c = adj1 (V7 m ρ) c :=
  (W10_of_ne m ρ c main_v59 (by decide)).trans
    ((W9_arr m ρ c 0).trans (((dat1 (V8 m ρ) c).arrAt_in 0 rfl cfg1.N).trans ((A_eq1 (V8 m ρ) c 0).trans (adj_at1 m ρ c))))
theorem feat_at3 (c : Dev nD) : feat3 (V10 m ρ) c = out2 (V9 m ρ) c := W10_arr m ρ c 2
theorem bias_at3 (c : Dev nD) : bias3 (V10 m ρ) c = bias3 (V7 m ρ) c :=
  (W10_of_ne m ρ c main_v5 (by decide)).trans ((W9_of_ne m ρ c main_v5 (by decide)).trans (W8_of_ne m ρ c main_v5 (by decide)))

/-! ## The four regions on node rows -/

/-- The first feature transform on a node row: the features times the first weights. -/
theorem h1_node (c : Dev nD) (i : Fin 10000) (k : Fin 512) :
    out0 (V7 m ρ) c (ix2 (up i) k) = Cert.Spec.mm (aX m c) (aW1 m c) i k := by
  rw [mm0_apply]
  unfold Cert.Spec.mm
  refine Finset.sum_congr rfl fun k' _ => ?_
  rw [xpad_apply, w1_apply]

/-- The first aggregation on a node row: the specification's first layer. -/
theorem out1_node (c : Dev nD) (hin : Cert.Spec.InRange (argE m c)) (i : Fin 10000) (q : Fin 512) :
    out1 (V8 m ρ) c (ix2 (up i) q) = Cert.Spec.layer (argE m c) (Cert.Spec.mm (aX m c) (aW1 m c)) (aB1 m c) i q := by
  rw [agg1_apply, adj_at1, feat_at1, bias_at1, b1_apply]
  have h := Cert.AdjAlgebra.adj_matvec_spec (argE m c) hin (fun a b => adj1 (V7 m ρ) c (ix2 a b))
    (fun a b => adj_apply m ρ c hin a b) (fun j q => out0 (V7 m ρ) c (ix2 j q)) i q
  simp only [h1_node] at h
  unfold Cert.Spec.layer
  exact congrArg (fun z => max (z + argB1 m c (ix1 q)) 0) h

/-- The second feature transform on a node row: the first layer's output times the second weights. -/
theorem h2_node (c : Dev nD) (hin : Cert.Spec.InRange (argE m c)) (i : Fin 10000) (q : Fin 256) :
    out2 (V9 m ρ) c (ix2 (up i) q)
      = Cert.Spec.mm (Cert.Spec.layer (argE m c) (Cert.Spec.mm (aX m c) (aW1 m c)) (aB1 m c)) (aW2 m c) i q := by
  rw [mm2_apply, lhs_at2, rhs_at2]
  unfold Cert.Spec.mm
  refine Finset.sum_congr rfl fun k _ => ?_
  rw [out1_node m ρ c hin, w2_apply]
  rfl

/-- The second aggregation on a node row: the specification's network. -/
theorem out3_node (c : Dev nD) (hin : Cert.Spec.InRange (argE m c)) (i : Fin 10000) (q : Fin 256) :
    out3 (V10 m ρ) c (ix2 (up i) q)
      = Cert.Spec.gcn (argE m c) (aX m c) (aW1 m c) (aB1 m c) (aW2 m c) (aB2 m c) i q := by
  rw [agg3_apply, adj_at3, feat_at3, bias_at3, b2_apply]
  have h := Cert.AdjAlgebra.adj_matvec_spec (argE m c) hin (fun a b => adj1 (V7 m ρ) c (ix2 a b))
    (fun a b => adj_apply m ρ c hin a b) (fun j q => out2 (V9 m ρ) c (ix2 j q)) i q
  simp only [h2_node m ρ c hin] at h
  unfold Cert.Spec.gcn Cert.Spec.layer
  exact congrArg (fun z => max (z + argB2 m c (ix1 q)) 0) h

/-! ## The result buffer -/

/-- The last host operation keeps the node rows of the second aggregation's output. -/
theorem result_eq (c : Dev nD) :
    (W12 m ρ c (Proc.devRef .tc main_v64) : S10000x256.Idx → EReal)
      = extractStridedSlice S10000x256 ![0, 0] (out3 (V10 m ρ) c) slices_S10240x256_S10000x256_0_0 := by
  have e : (W11 m ρ c (Proc.devRef .tc main_v63) : S10240x256.Idx → EReal) = out3 (V10 m ρ) c := W11_arr m ρ c 3
  rw [← e]
  show StableHlo.after hostOps4 (W11 m ρ c) (Proc.devRef .tc main_v64) = _
  after_results

/-- The kernel's result, element by element. -/
theorem result_apply (c : Dev nD) (hin : Cert.Spec.InRange (argE m c)) (i : Fin 10000) (q : Fin 256) :
    (W12 m ρ c (Proc.devRef .tc main_v64) : S10000x256.Idx → EReal) (ix2 i q)
      = Cert.Spec.gcn (argE m c) (aX m c) (aW1 m c) (aB1 m c) (aW2 m c) (aB2 m c) i q := by
  rw [result_eq]
  rw [extractStridedSlice_apply ![0, 0] (out3 (V10 m ρ) c) slices_S10240x256_S10000x256_0_0 (ix2 i q) (ix2 (up i) q)
    (fun a => match a with
      | ⟨0, _⟩ => by show i.val = 0 + i.val; omega
      | ⟨1, _⟩ => by show q.val = 0 + q.val; omega)]
  exact out3_node m ρ c hin i q

end Cert.KernelIdeal.Val

end
-- ==== Proof.RefIface.lean ====
/-
  Names for the reference's six arguments as plain functions of their coordinates.
-/
import proofs.«414742_j37082747634687_3_alg».proof.Proof.RefRead
import proofs.«414742_j37082747634687_3_alg».proof.Proof.Spec

noncomputable section

open scoped BigOperators

namespace Cert.ReferenceIdeal.RefValue

open Cert.ReferenceIdeal Cert.ReferenceIdeal.Gen Cert.ReferenceIdeal.ReadP
open Idealize.ShloMosaic Idealize.ShloMosaic.ValueIdx

variable (x0 : (⟨S10000x256, .f32⟩ : BufTy).Contents (Elt Ideal)) (x1 : (⟨S256x512, .f32⟩ : BufTy).Contents (Elt Ideal))
  (x2 : (⟨S512, .f32⟩ : BufTy).Contents (Elt Ideal)) (x3 : (⟨S512x256, .f32⟩ : BufTy).Contents (Elt Ideal))
  (x4 : (⟨S256, .f32⟩ : BufTy).Contents (Elt Ideal)) (x5 : (⟨S2x320000, .i32⟩ : BufTy).Contents (Elt Ideal))

/-- The features, weights and biases as plain functions of their coordinates; the edge table. -/
abbrev X : Fin 10000 → Fin 256 → EReal := fun i k => x0 (ix2 i k)
abbrev W1 : Fin 256 → Fin 512 → EReal := fun k q => x1 (ix2 k q)
abbrev B1 : Fin 512 → EReal := fun q => x2 (ix1 q)
abbrev W2 : Fin 512 → Fin 256 → EReal := fun k q => x3 (ix2 k q)
abbrev B2 : Fin 256 → EReal := fun q => x4 (ix1 q)
abbrev EI : Cert.Spec.EdgeTab := x5

end Cert.ReferenceIdeal.RefValue

end
-- ==== Proof.RefNorm1.lean ====
/-
  What the reference's first layer computes from the edge table alone, read one element at a time: each edge's source and
  destination words; every node's degree (one for each edge that ends there, and one more); its normalisation factor
  (the reciprocal square root of the degree where that is positive); and each edge's weight, the product of the
  factors of its two ends.  Where the edge table names nodes, these are the specification's.
-/
import proofs.«414742_j37082747634687_3_alg».proof.Proof.RefIface
import proofs.«414742_j37082747634687_3_alg».proof.Proof.LibScatterAdd
import Idealize.ShloMosaic.Lib.StableHlo.Predicate

noncomputable section

open scoped BigOperators

namespace Cert.ReferenceIdeal.RefValue

open Cert.ReferenceIdeal Cert.ReferenceIdeal.Gen Cert.ReferenceIdeal.ReadP
open Idealize.ShloMosaic Idealize.ShloMosaic.ValueIdx

variable (x5 : (⟨S2x320000, .i32⟩ : BufTy).Contents (Elt Ideal))

/-- Edge `e`'s source word. -/
theorem src1_apply (e : Fin 320000) : val_main_v1 (F := Ideal) x5 (ix1 e) = Cert.Spec.srcw (EI x5) e := by
  rw [val_main_v1_apply, val_main_v0_apply]
  unfold Cert.Spec.srcw
  congr 1
  funext a
  apply Fin.ext
  match a with
  | ⟨0, _⟩ => rfl
  | ⟨1, _⟩ => exact Nat.mod_eq_of_lt e.isLt

/-- Edge `e`'s destination word. -/
theorem dst1_apply (e : Fin 320000) : val_main_v3 (F := Ideal) x5 (ix1 e) = Cert.Spec.dstw (EI x5) e := by
  rw [val_main_v3_apply, val_main_v2_apply]
  unfold Cert.Spec.dstw
  congr 1
  funext a
  apply Fin.ext
  match a with
  | ⟨0, _⟩ => rfl
  | ⟨1, _⟩ => exact Nat.mod_eq_of_lt e.isLt

/-- Node `i`'s degree. -/
theorem deg1_apply (i : Fin 10000) : val_main_v10 (F := Ideal) x5 (ix1 i) = Cert.Spec.deg (EI x5) i.val := by
  have hidx : ∀ e : Fin 320000, val_main_v7 (F := Ideal) x5 (ix2 e (0 : Fin 1)) = Cert.Spec.dstw (EI x5) e := fun e => by
    rw [val_main_v7_apply, ← dst1_apply x5 e]
    congr 1
    funext a
    match a with
    | ⟨0, _⟩ => rfl
  -- the updates that land at node i are the edges that end at i, and every update is the number one
  have hs : (∑ e ∈ Finset.univ.filter (fun e : Fin 320000 =>
        (val_main_v7 (F := Ideal) x5 (ix2 e (0 : Fin 1))).toInt = (i.val : ℤ)), val_main_v5 (F := Ideal) (ix1 e))
      = ∑ _e ∈ Cert.Spec.into (EI x5) i.val, Cert.Spec.one := by
    unfold Cert.Spec.into Cert.Spec.one
    refine Finset.sum_congr (Finset.filter_congr fun e _ => by rw [hidx]) fun e _ => ?_
    rw [val_main_v5_apply, val_main_cst_apply, Ideal.ofBits_def]
  rw [val_main_v10_apply]
  unfold val_main_v8
  rw [Cert.LibScatterAdd.scatterAdd_vec_apply _ rfl rfl rfl rfl, hs]
  -- the scatter starts from zeros; the last step adds one
  rw [val_main_v6_apply, val_main_cst_0_apply, val_main_v9_apply, val_main_cst_1_apply, Ideal.addf_def, Ideal.ofBits_def,
    Ideal.ofBits_def, Ideal.ofBits_zero_f32, zero_add]
  unfold Cert.Spec.deg Cert.Spec.one
  rfl

/-- The comparison "greater than" on the extended reals, as a one-bit word. -/
private theorem cmp_ogt (x y : EReal) : Ideal.cmp .ogt x y = BitVec.ofBool (decide (y < x)) := rfl

/-- Node `i`'s normalisation factor. -/
theorem dinv1_apply (i : Fin 10000) : val_main_v14 (F := Ideal) x5 (ix1 i) = Cert.Spec.dinv (EI x5) i.val := by
  rw [val_main_v14_apply, val_main_v12_apply, val_main_v13_apply, val_main_call0_v1_apply, val_main_call0_v0_apply,
    val_main_cst_3_apply, val_main_v11_apply, val_main_cst_2_apply, deg1_apply]
  -- the comparison with zero chooses between the reciprocal square root and zero
  rw [Ideal.ofBits_def, Ideal.ofBits_zero_f32, Ideal.hostUnary_rsqrt_def, Ideal.cmpf_def, cmp_ogt]
  unfold Cert.Spec.dinv Scalar.select
  by_cases hd : 0 < Cert.Spec.deg (EI x5) i.val
  · rw [if_pos hd, decide_eq_true hd, if_pos (by decide)]
  · rw [if_neg hd, decide_eq_false hd, if_neg (by decide)]

/-- A take from a table of 10000 entries at a column of 320000 index words: position `e` reads the table at the node its
    word names (the index clamped into the table). -/
private theorem take_at (tab : S10000.Idx → EReal) (idx : IVec S320000x1 32) (e : Fin 320000) :
    Host.gather gather_S10000_S320000x1_S320000_n_0_n_n_0_1_1 tab idx (ix1 e)
      = tab (ix1 (Cert.Spec.node (idx (ix2 e (0 : Fin 1))))) := by
  have h := StableHlo.Predicate.gather_take gather_S10000_S320000x1_S320000_n_0_n_n_0_1_1 rfl rfl rfl rfl tab idx e
    (by decide)
  have e1 : (Shape.Idx.ofFin e : (⟨1, ![320000]⟩ : Shape).Idx) = ix1 e :=
    funext fun a => by match a with | ⟨0, _⟩ => rfl
  have e2 : (StableHlo.Predicate.ixP e : (⟨2, ![320000, 1]⟩ : Shape).Idx) = ix2 e (0 : Fin 1) :=
    funext fun a => by match a with | ⟨0, _⟩ => rfl | ⟨1, _⟩ => rfl
  rw [e1] at h
  rw [h, ← e2]
  congr 1
  funext a
  match a with
  | ⟨0, _⟩ => rfl

/-- A word that is not negative passes the wrap-around of negative indices unchanged. -/
private theorem wrap_of_nonneg (w : BitVec 32) (hw : 0 ≤ w.toInt) :
    Scalar.select (IntOp.cmpi .slt w 0#32) (IntOp.addi w 10000#32) w = w := by
  unfold Scalar.select
  rw [if_neg]
  intro h
  have h1 : w.toInt < (0#32 : BitVec 32).toInt := IntOp.cmpi_slt.1 h
  rw [show (0#32 : BitVec 32).toInt = 0 from by decide] at h1
  omega

/-- Edge `e`'s weight, where the edge table names nodes. -/
theorem norm1_apply (hin : Cert.Spec.InRange (EI x5)) (e : Fin 320000) :
    val_main_v29 (F := Ideal) x5 (ix1 e) = Cert.Spec.norm (EI x5) e := by
  -- the two index columns hold the edge's source and destination words
  have hs : val_main_v20 (F := Ideal) x5 (ix2 e (0 : Fin 1)) = Cert.Spec.srcw (EI x5) e := by
    rw [val_main_v20_apply, show idx_main_v20 (ix2 e (0 : Fin 1)) = ix1 e from funext fun a => by match a with | ⟨0, _⟩ => rfl,
      val_main_v19_apply, val_main_v16_apply, val_main_v18_apply, val_main_v15_apply, val_main_c_apply, val_main_v17_apply,
      val_main_c_4_apply, src1_apply]
    exact wrap_of_nonneg _ (hin 0 e).1
  have hd : val_main_v27 (F := Ideal) x5 (ix2 e (0 : Fin 1)) = Cert.Spec.dstw (EI x5) e := by
    rw [val_main_v27_apply, show idx_main_v27 (ix2 e (0 : Fin 1)) = ix1 e from funext fun a => by match a with | ⟨0, _⟩ => rfl,
      val_main_v26_apply, val_main_v23_apply, val_main_v25_apply, val_main_v22_apply, val_main_c_5_apply, val_main_v24_apply,
      val_main_c_6_apply, dst1_apply]
    exact wrap_of_nonneg _ (hin 1 e).1
  rw [val_main_v29_apply, Ideal.mulf_def]
  unfold val_main_v21 val_main_v28
  rw [take_at, take_at, hs, hd, dinv1_apply, dinv1_apply]
  unfold Cert.Spec.norm
  rfl

end Cert.ReferenceIdeal.RefValue

end
-- ==== Proof.LibRowGather.lean ====
/-
  GENERAL LEMMA (no program imported): jnp's `table[idx]` on a matrix, read at an element.

  For a table [N, D] and a column of n indices, `table[idx]` prints as a `stablehlo.gather` with start indices [n, 1]
  (the index vector on axis 1), the table's row axis collapsed and start-indexed, its column axis the result's offset axis,
  slices of one whole row.  `gather_rows_apply`: the result at (p, q) is the table at (row, q), the row being index p's
  word read signed and clamped into [0, N − 1], as StableHLO's gather clamps every start index.
-/
import Idealize.ShloMosaic.PureOps.ShapeOps
import Idealize.ShloMosaic.Lib.ValueIdx

noncomputable section

namespace Cert.LibRowGather

open Idealize.ShloMosaic Idealize.ShloMosaic.ValueIdx

/-- The dimension numbers of `table[idx]` for a table [N, D], start indices [n, 1] and a result [n, D]. Their conditions
    are decided on a program's literal shapes; a printed record with these fields is this one. -/
abbrev rowGatherDims (N D n : Nat)
    (wf : GatherDims.WF ⟨2, ![N, D]⟩ ⟨2, ![n, 1]⟩ ⟨2, ![n, D]⟩ [1] [0] [] [0] [] 1 ![1, D]) :
    GatherDims ⟨2, ![N, D]⟩ ⟨2, ![n, 1]⟩ ⟨2, ![n, D]⟩ where
  offsetDims := [1]
  collapsedSliceDims := [0]
  operandBatchingDims := []
  startIndicesBatchingDims := []
  startIndexMap := [0]
  indexVectorDim := 1
  sliceSizes := ![1, D]
  wf := wf

/-- THE GATHER READ AT (p, q): the table's entry q of the row that index p names, clamped into the table. -/
theorem gather_rows_apply {α : Type} {N D n w : Nat} (hN : 0 < N)
    (wf : GatherDims.WF ⟨2, ![N, D]⟩ ⟨2, ![n, 1]⟩ ⟨2, ![n, D]⟩ [1] [0] [] [0] [] 1 ![1, D])
    (x : (⟨2, ![N, D]⟩ : Shape).Idx → α) (idx : IVec ⟨2, ![n, 1]⟩ w) (p : Fin n) (q : Fin D) :
    Host.gather (rowGatherDims N D n wf) x idx (ix2 p q)
      = x (ix2 ⟨min (idx (ix2 p (0 : Fin 1))).toInt.toNat (N - 1), by omega⟩ q) := by
  unfold Host.gather
  refine congrArg x (funext fun a => Fin.ext ?_)
  match a with
  | ⟨0, _⟩ =>
    show (rowGatherDims N D n wf).start (ix2 p q) idx 0 + (rowGatherDims N D n wf).batchCoord (ix2 p q) 0
      + (rowGatherDims N D n wf).offCoord (ix2 p q) 0 = min (idx (ix2 p (0 : Fin 1))).toInt.toNat (N - 1)
    rw [GatherDims.batchCoord_eq_zero (rowGatherDims N D n wf) _ 0 (by show (0 : Fin 2) ∉ ([] : List (Fin 2)); decide),
      GatherDims.offCoord_eq_zero (rowGatherDims N D n wf) _ 0
        (fun h => ((GatherDims.mem_sKept _ _).mp h).1 (List.mem_singleton.mpr rfl))]
    simp only [Nat.add_zero]
    unfold GatherDims.start
    rw [dif_pos (show (0 : Fin 2) ∈ (rowGatherDims N D n wf).startIndexMap from List.mem_singleton.mpr rfl)]
    have hsi : (rowGatherDims N D n wf).siIdx (ix2 p q)
        ⟨List.idxOf (0 : Fin 2) (rowGatherDims N D n wf).startIndexMap, List.idxOf_lt_length_iff.2 (List.mem_singleton.mpr rfl)⟩
        = ix2 p (0 : Fin 1) := funext fun b => Fin.ext (by
      match b with
      | ⟨0, _⟩ => rfl
      | ⟨1, _⟩ => rfl)
    rw [hsi]
    rfl
  | ⟨1, _⟩ =>
    show (rowGatherDims N D n wf).start (ix2 p q) idx 1 + (rowGatherDims N D n wf).batchCoord (ix2 p q) 1
      + (rowGatherDims N D n wf).offCoord (ix2 p q) 1 = q.val
    rw [GatherDims.batchCoord_eq_zero (rowGatherDims N D n wf) _ 1 (by show (1 : Fin 2) ∉ ([] : List (Fin 2)); decide)]
    have hs : (rowGatherDims N D n wf).start (ix2 p q) idx 1 = 0 := by
      unfold GatherDims.start
      rw [dif_neg (show (1 : Fin 2) ∉ (rowGatherDims N D n wf).startIndexMap from by
        show (1 : Fin 2) ∉ ([0] : List (Fin 2)); decide)]
    rw [hs]
    have hk : (1 : Fin 2) ∈ (rowGatherDims N D n wf).sKept :=
      (GatherDims.mem_sKept _ _).mpr ⟨by show (1 : Fin 2) ∉ ([0] : List (Fin 2)); decide,
        by show (1 : Fin 2) ∉ ([] : List (Fin 2)); decide⟩
    unfold GatherDims.offCoord
    rw [dif_pos hk]
    simp only [Nat.zero_add]
    rfl

end Cert.LibRowGather

end
-- ==== Proof.RefLayer1.lean ====
/-
  The reference's first layer, read one element at a time.  It multiplies the features by the first weights; counts,
  for every node, the edges that end there, adds one, and takes the reciprocal square root where that is positive;
  gathers, for every edge, the factors of its two ends and the transformed features of its source; scales and sums
  them into the edge's destination; adds the node's own features times its factor squared, and the bias; clips at
  zero.  Where the edge table names nodes, that is the specification's layer of the matrix product.
-/
import proofs.«414742_j37082747634687_3_alg».proof.Proof.RefIface
import proofs.«414742_j37082747634687_3_alg».proof.Proof.RefNorm1
import proofs.«414742_j37082747634687_3_alg».proof.Proof.LibScatterAdd
import proofs.«414742_j37082747634687_3_alg».proof.Proof.LibRowGather
import Idealize.ShloMosaic.Lib.StableHlo.Predicate

noncomputable section

open scoped BigOperators

namespace Cert.ReferenceIdeal.RefValue

open Cert.ReferenceIdeal Cert.ReferenceIdeal.Gen Cert.ReferenceIdeal.ReadP
open Idealize.ShloMosaic Idealize.ShloMosaic.ValueIdx

variable (x0 : (⟨S10000x256, .f32⟩ : BufTy).Contents (Elt Ideal)) (x1 : (⟨S256x512, .f32⟩ : BufTy).Contents (Elt Ideal))
  (x2 : (⟨S512, .f32⟩ : BufTy).Contents (Elt Ideal)) (x3 : (⟨S512x256, .f32⟩ : BufTy).Contents (Elt Ideal))
  (x4 : (⟨S256, .f32⟩ : BufTy).Contents (Elt Ideal)) (x5 : (⟨S2x320000, .i32⟩ : BufTy).Contents (Elt Ideal))

/-- The features times the first weights, element by element. -/
private theorem layer1_mm (i : Fin 10000) (k : Fin 512) :
    val_main_v4 (F := Ideal) x0 x1 (ix2 i k) = Cert.Spec.mm (X x0) (W1 x1) i k := by
  rw [val_main_v4_apply]
  unfold Cert.Spec.mm
  refine Finset.sum_congr rfl fun j _ => ?_
  have el : lidx_main_v4 (ix2 i k) j = ix2 i j := funext fun a => Fin.ext (by
    match a with
    | ⟨0, _⟩ => rfl
    | ⟨1, _⟩ => rfl)
  have er : ridx_main_v4 (ix2 i k) j = ix2 j k := funext fun a => Fin.ext (by
    match a with
    | ⟨0, _⟩ => rfl
    | ⟨1, _⟩ => rfl)
  rw [el, er]

/-- A word that is not negative, read signed, is not below zero. -/
private theorem layer1_slt_zero_of_nonneg (w : BitVec 32) (h : 0 ≤ w.toInt) : IntOp.cmpi .slt w 0#32 ≠ 1 := by
  unfold IntOp.cmpi
  have hlt : w.slt 0#32 = false := by
    simp only [BitVec.slt, BitVec.toInt_zero, decide_eq_false_iff_not, not_lt]
    exact h
  simp only [hlt]
  decide

/-- The source column after the index normalisation: where the word is not negative it is the word itself. -/
private theorem layer1_srccol (hin : Cert.Spec.InRange (EI x5)) (e : Fin 320000) :
    val_main_v35 (F := Ideal) x5 (ix2 e (0 : Fin 1)) = Cert.Spec.srcw (EI x5) e := by
  have ei : idx_main_v35 (ix2 e (0 : Fin 1)) = ix1 e := funext fun a => Fin.ext (by
    match a with
    | ⟨0, _⟩ => rfl)
  rw [val_main_v35_apply, ei, val_main_v34_apply, val_main_v31_apply, val_main_v30_apply, val_main_c_7_apply,
    src1_apply]
  have h0 : 0 ≤ (Cert.Spec.srcw (EI x5) e).toInt := (hin 0 e).1
  unfold Scalar.select
  rw [if_neg (layer1_slt_zero_of_nonneg _ h0)]

/-- The gathered rows: edge `e`'s row is its source node's row of the matrix product. -/
private theorem layer1_rows (hin : Cert.Spec.InRange (EI x5)) (e : Fin 320000) (k : Fin 512) :
    val_main_v36 (F := Ideal) x0 x1 x5 (ix2 e k)
      = Cert.Spec.mm (X x0) (W1 x1) (Cert.Spec.node (Cert.Spec.srcw (EI x5) e)) k := by
  unfold val_main_v36
  refine (Cert.LibRowGather.gather_rows_apply (N := 10000) (D := 512) (n := 320000) (by decide)
    gather_S10000x512_S320000x1_S320000x512_1_0_n_n_0_1_1512_wf (val_main_v4 (F := Ideal) x0 x1)
    (val_main_v35 (F := Ideal) x5) e k).trans ?_
  rw [layer1_mm]
  refine congrArg (fun t => Cert.Spec.mm (X x0) (W1 x1) t k) (Fin.ext ?_)
  show min (val_main_v35 (F := Ideal) x5 (ix2 e (0 : Fin 1))).toInt.toNat (10000 - 1)
    = (Cert.Spec.node (Cert.Spec.srcw (EI x5) e)).val
  rw [layer1_srccol x5 hin e]
  rfl

/-- The edge weight, broadcast along the rows. -/
private theorem layer1_weightrow (hin : Cert.Spec.InRange (EI x5)) (e : Fin 320000) (k : Fin 512) :
    val_main_v38 (F := Ideal) x5 (ix2 e k) = Cert.Spec.norm (EI x5) e := by
  have ei : idx_main_v37 (idx_main_v38 (ix2 e k)) = ix1 e := funext fun a => Fin.ext (by
    match a with
    | ⟨0, _⟩ => rfl)
  rw [val_main_v38_apply, val_main_v37_apply, ei, norm1_apply x5 hin e]

/-- One edge's contribution: its source node's transformed feature times the edge's weight. -/
private theorem layer1_message (hin : Cert.Spec.InRange (EI x5)) (e : Fin 320000) (k : Fin 512) :
    val_main_v39 (F := Ideal) x0 x1 x5 (ix2 e k)
      = Cert.Spec.mm (X x0) (W1 x1) (Cert.Spec.node (Cert.Spec.srcw (EI x5) e)) k * Cert.Spec.norm (EI x5) e := by
  rw [val_main_v39_apply, layer1_rows x0 x1 x5 hin e k, layer1_weightrow x5 hin e k]
  rfl

/-- The destination column. -/
private theorem layer1_dstcol (e : Fin 320000) :
    val_main_v41 (F := Ideal) x5 (ix2 e (0 : Fin 1)) = Cert.Spec.dstw (EI x5) e := by
  have ei : idx_main_v41 (ix2 e (0 : Fin 1)) = ix1 e := funext fun a => Fin.ext (by
    match a with
    | ⟨0, _⟩ => rfl)
  rw [val_main_v41_apply, ei, dst1_apply]

/-- The rows summed into their destinations: node `i` receives the contributions of the edges that end at it. -/
private theorem layer1_aggregate (hin : Cert.Spec.InRange (EI x5)) (i : Fin 10000) (k : Fin 512) :
    val_main_v42 (F := Ideal) x0 x1 x5 (ix2 i k)
      = ∑ e ∈ Cert.Spec.into (EI x5) i.val,
          Cert.Spec.mm (X x0) (W1 x1) (Cert.Spec.node (Cert.Spec.srcw (EI x5) e)) k * Cert.Spec.norm (EI x5) e := by
  unfold val_main_v42
  refine (Cert.LibScatterAdd.scatterAdd_rows_apply (N := 10000) (D := 512) (n := 320000)
    scatter_S10000x512_S320000x1_S320000x512_1_0_0_1 rfl rfl rfl rfl (val_main_v40 (F := Ideal))
    (val_main_v41 (F := Ideal) x5) (val_main_v39 (F := Ideal) x0 x1 x5) i k).trans ?_
  have hz : val_main_v40 (F := Ideal) (ix2 i k) = 0 := by
    rw [val_main_v40_apply, val_main_cst_9_apply]
    exact Ideal.ofBits_zero_f32
  rw [hz, zero_add]
  unfold Cert.Spec.into
  refine Finset.sum_congr (Finset.filter_congr fun e _ => ?_) fun e _ => layer1_message x0 x1 x5 hin e k
  rw [layer1_dstcol]

/-- The square of a node's factor, broadcast along the rows. -/
private theorem layer1_selfweight (i : Fin 10000) (k : Fin 512) :
    val_main_v45 (F := Ideal) x5 (ix2 i k) = Cert.Spec.dinv (EI x5) i.val * Cert.Spec.dinv (EI x5) i.val := by
  have ei : idx_main_v44 (idx_main_v45 (ix2 i k)) = ix1 i := funext fun a => Fin.ext (by
    match a with
    | ⟨0, _⟩ => rfl)
  rw [val_main_v45_apply, val_main_v44_apply, ei, val_main_v43_apply, dinv1_apply]
  rfl

/-- The bias, broadcast along the nodes. -/
private theorem layer1_bias (i : Fin 10000) (k : Fin 512) :
    val_main_v49 (F := Ideal) x2 (ix2 i k) = B1 x2 k := by
  have ei : idx_main_v48 (idx_main_v49 (ix2 i k)) = ix1 k := funext fun a => Fin.ext (by
    match a with
    | ⟨0, _⟩ => rfl)
  rw [val_main_v49_apply, val_main_v48_apply, ei]

/-- The first layer's output (after the clip at zero), element by element. -/
theorem ref_layer1 (hin : Cert.Spec.InRange (EI x5)) (i : Fin 10000) (k : Fin 512) :
    val_main_v51 (F := Ideal) x0 x1 x2 x5 (ix2 i k)
      = Cert.Spec.layer (EI x5) (Cert.Spec.mm (X x0) (W1 x1)) (B1 x2) i k := by
  have hz : val_main_call1_v0 (F := Ideal) (ix2 i k) = 0 := by
    rw [val_main_call1_v0_apply, val_main_call1_cst_apply]
    exact Ideal.ofBits_zero_f32
  rw [val_main_v51_apply, hz, val_main_v50_apply, val_main_v47_apply, val_main_v46_apply,
    layer1_aggregate x0 x1 x5 hin i k, layer1_mm, layer1_selfweight, layer1_bias]
  rfl

end Cert.ReferenceIdeal.RefValue

end
-- ==== Proof.RefNorm2.lean ====
/-
  What the reference's second layer computes from the edge table alone, read one element at a time: each edge's source and
  destination words; every node's degree (one for each edge that ends there, and one more); its normalisation factor
  (the reciprocal square root of the degree where that is positive); and each edge's weight, the product of the
  factors of its two ends.  Where the edge table names nodes, these are the specification's.
-/
import proofs.«414742_j37082747634687_3_alg».proof.Proof.RefIface
import proofs.«414742_j37082747634687_3_alg».proof.Proof.LibScatterAdd
import Idealize.ShloMosaic.Lib.StableHlo.Predicate

noncomputable section

open scoped BigOperators

namespace Cert.ReferenceIdeal.RefValue

open Cert.ReferenceIdeal Cert.ReferenceIdeal.Gen Cert.ReferenceIdeal.ReadP
open Idealize.ShloMosaic Idealize.ShloMosaic.ValueIdx

variable (x5 : (⟨S2x320000, .i32⟩ : BufTy).Contents (Elt Ideal))

/-- Edge `e`'s source word. -/
theorem src2_apply (e : Fin 320000) : val_main_v1 (F := Ideal) x5 (ix1 e) = Cert.Spec.srcw (EI x5) e := by
  rw [val_main_v1_apply, val_main_v0_apply]
  unfold Cert.Spec.srcw
  refine congrArg x5 (funext fun a => ?_)
  match a with
  | ⟨0, _⟩ => exact Fin.ext rfl
  | ⟨1, _⟩ => exact Fin.ext (Nat.mod_eq_of_lt e.isLt)

/-- Edge `e`'s destination word. -/
theorem dst2_apply (e : Fin 320000) : val_main_v3 (F := Ideal) x5 (ix1 e) = Cert.Spec.dstw (EI x5) e := by
  rw [val_main_v3_apply, val_main_v2_apply]
  unfold Cert.Spec.dstw
  refine congrArg x5 (funext fun a => ?_)
  match a with
  | ⟨0, _⟩ => exact Fin.ext rfl
  | ⟨1, _⟩ => exact Fin.ext (Nat.mod_eq_of_lt e.isLt)

/-- The destination words laid out as a column: row `e` holds edge `e`'s destination word. -/
theorem dstcol2_apply (e : Fin 320000) :
    val_main_v55 (F := Ideal) x5 (ix2 e (0 : Fin 1)) = Cert.Spec.dstw (EI x5) e := by
  rw [val_main_v55_apply]
  refine Eq.trans (congrArg (val_main_v3 (F := Ideal) x5) (funext fun a => ?_)) (dst2_apply x5 e)
  match a with
  | ⟨0, _⟩ => rfl

/-- Node `i`'s degree. -/
theorem deg2_apply (i : Fin 10000) : val_main_v58 (F := Ideal) x5 (ix1 i) = Cert.Spec.deg (EI x5) i.val := by
  have hs := Cert.LibScatterAdd.scatterAdd_vec_apply (N := 10000) (n := 320000) (w := 32)
    scatter_S10000_S320000x1_S320000_n_0_0_1 rfl rfl rfl rfl
    (val_main_v54 (F := Ideal)) (val_main_v55 (F := Ideal) x5) (val_main_v53 (F := Ideal)) i
  have h56 : val_main_v56 (F := Ideal) x5 (ix1 i) = ∑ _e ∈ Cert.Spec.into (EI x5) i.val, Cert.Spec.one := by
    unfold val_main_v56
    refine hs.trans ?_
    rw [val_main_v54_apply, val_main_cst_11_apply, Ideal.ofBits_def, Ideal.ofBits_zero_f32, zero_add]
    unfold Cert.Spec.into
    refine Finset.sum_congr (Finset.filter_congr fun e _ => by rw [dstcol2_apply]) (fun e _ => ?_)
    rw [val_main_v53_apply, val_main_cst_10_apply, Ideal.ofBits_def]
    rfl
  rw [val_main_v58_apply, Ideal.addf_def, h56, val_main_v57_apply, val_main_cst_12_apply, Ideal.ofBits_def]
  rfl

/-- Node `i`'s normalisation factor. -/
theorem dinv2_apply (i : Fin 10000) : val_main_v62 (F := Ideal) x5 (ix1 i) = Cert.Spec.dinv (EI x5) i.val := by
  rw [val_main_v62_apply, val_main_v60_apply, val_main_v61_apply, deg2_apply, val_main_v59_apply, val_main_cst_13_apply,
    val_main_call2_v1_apply, val_main_call2_v0_apply, val_main_cst_14_apply, Ideal.ofBits_def, Ideal.ofBits_zero_f32,
    Ideal.cmpf_def, Ideal.hostUnary_rsqrt_def]
  unfold Cert.Spec.dinv Scalar.select
  by_cases h : 0 < Cert.Spec.deg (EI x5) i.val
  · rw [if_pos h, if_pos]
    simp only [Ideal.cmp, h, decide_true]
    rfl
  · rw [if_neg h, if_neg]
    simp only [Ideal.cmp, h, decide_false]
    decide

/-- A word that names a node is left alone by the wrap-around of negative indices. -/
theorem wrap_of_nonneg (w : BitVec 32) (h0 : 0 ≤ w.toInt) :
    Scalar.select (IntOp.cmpi .slt w 0#32) (IntOp.addi w 10000#32) w = w := by
  unfold Scalar.select
  rw [if_neg]
  show ¬ BitVec.ofBool (w.slt 0#32) = 1#1
  rw [StableHlo.Predicate.ofBool_eq_one_iff]
  simp only [BitVec.slt, decide_eq_true_eq]
  have hz : (0#32 : BitVec 32).toInt = 0 := by decide
  omega

/-- The normalised source words laid out as a column. -/
theorem srccol2_apply (hin : Cert.Spec.InRange (EI x5)) (e : Fin 320000) :
    val_main_v68 (F := Ideal) x5 (ix2 e (0 : Fin 1)) = Cert.Spec.srcw (EI x5) e := by
  have hi : idx_main_v68 (ix2 e (0 : Fin 1)) = ix1 e := funext fun a => by
    match a with
    | ⟨0, _⟩ => rfl
  rw [val_main_v68_apply, hi, val_main_v67_apply, val_main_v64_apply, val_main_v66_apply, val_main_v63_apply,
    val_main_c_15_apply, val_main_v65_apply, val_main_c_16_apply, src2_apply]
  exact wrap_of_nonneg _ (hin 0 e).1

/-- The normalised destination words laid out as a column. -/
theorem dstcol2n_apply (hin : Cert.Spec.InRange (EI x5)) (e : Fin 320000) :
    val_main_v75 (F := Ideal) x5 (ix2 e (0 : Fin 1)) = Cert.Spec.dstw (EI x5) e := by
  have hi : idx_main_v75 (ix2 e (0 : Fin 1)) = ix1 e := funext fun a => by
    match a with
    | ⟨0, _⟩ => rfl
  rw [val_main_v75_apply, hi, val_main_v74_apply, val_main_v71_apply, val_main_v73_apply, val_main_v70_apply,
    val_main_c_17_apply, val_main_v72_apply, val_main_c_18_apply, dst2_apply]
  exact wrap_of_nonneg _ (hin 1 e).1

/-- Taking the factor array at a column of words: position `e` reads the factor of the node that row `e`'s word names. -/
theorem take_dinv2 (idx : IVec ⟨2, ![320000, 1]⟩ 32) (e : Fin 320000) :
    Host.gather gather_S10000_S320000x1_S320000_n_0_n_n_0_1_1 (val_main_v62 (F := Ideal) x5) idx (ix1 e)
      = Cert.Spec.dinv (EI x5) (Cert.Spec.node (idx (ix2 e (0 : Fin 1)))).val := by
  have hg := StableHlo.Predicate.gather_take (N := 10000) (n := 320000) (w := 32)
    gather_S10000_S320000x1_S320000_n_0_n_n_0_1_1 rfl rfl rfl rfl (val_main_v62 (F := Ideal) x5) idx e (by decide)
  have h1 : (ix1 e : (⟨1, ![320000]⟩ : Shape).Idx) = Shape.Idx.ofFin e := funext fun a => by
    match a with
    | ⟨0, _⟩ => rfl
  have h2 : StableHlo.Predicate.ixP e = ix2 e (0 : Fin 1) := funext fun a => by
    match a with
    | ⟨0, _⟩ => rfl
    | ⟨1, _⟩ => rfl
  rw [h1, hg, ← dinv2_apply]
  refine congrArg (val_main_v62 (F := Ideal) x5) (funext fun a => ?_)
  match a with
  | ⟨0, _⟩ =>
    refine Fin.ext ?_
    show min (idx (StableHlo.Predicate.ixP e)).toInt.toNat (10000 - 1) = min (idx (ix2 e (0 : Fin 1))).toInt.toNat 9999
    rw [h2]

/-- Edge `e`'s weight, where the edge table names nodes. -/
theorem norm2_apply (hin : Cert.Spec.InRange (EI x5)) (e : Fin 320000) :
    val_main_v77 (F := Ideal) x5 (ix1 e) = Cert.Spec.norm (EI x5) e := by
  rw [val_main_v77_apply, Ideal.mulf_def]
  unfold val_main_v69 val_main_v76
  rw [take_dinv2, take_dinv2, srccol2_apply x5 hin, dstcol2n_apply x5 hin]
  rfl

end Cert.ReferenceIdeal.RefValue

end
-- ==== Proof.RefLayer2.lean ====
/-
  The reference's second layer, read one element at a time, over whatever the first layer's output is.  It repeats the
  first layer's steps — the degree count, the factors, the gathers along the edges, the sum into the destinations, the
  self-loop term, the bias, the clip at zero — on the first layer's output multiplied by the second weights.
-/
import proofs.«414742_j37082747634687_3_alg».proof.Proof.RefIface
import proofs.«414742_j37082747634687_3_alg».proof.Proof.RefNorm2
import proofs.«414742_j37082747634687_3_alg».proof.Proof.LibScatterAdd
import proofs.«414742_j37082747634687_3_alg».proof.Proof.LibRowGather
import Idealize.ShloMosaic.Lib.StableHlo.Predicate
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.ReadP
open Idealize.ShloMosaic Idealize.ShloMosaic.ValueIdx

variable (x0 : (⟨S10000x256, .f32⟩ : BufTy).Contents (Elt Ideal)) (x1 : (⟨S256x512, .f32⟩ : BufTy).Contents (Elt Ideal))
  (x2 : (⟨S512, .f32⟩ : BufTy).Contents (Elt Ideal)) (x3 : (⟨S512x256, .f32⟩ : BufTy).Contents (Elt Ideal))
  (x4 : (⟨S256, .f32⟩ : BufTy).Contents (Elt Ideal)) (x5 : (⟨S2x320000, .i32⟩ : BufTy).Contents (Elt Ideal))

/-- A word that is not negative is not below zero in the signed comparison. -/
private theorem layer2_slt_zero_of_nonneg (w : BitVec 32) (h : 0 ≤ w.toInt) : IntOp.cmpi .slt w 0#32 = 0#1 := by
  unfold IntOp.cmpi
  have h0 : (0#32 : BitVec 32).toInt = 0 := by decide
  have hs : w.slt 0#32 = false := by
    simp only [BitVec.slt, h0, decide_eq_false_iff_not, not_lt]; exact h
  simp only [hs]; rfl

/-- The second matrix product, element by element, over the first layer's output. -/
private theorem layer2_mm2_apply (Hmid : Fin 10000 → Fin 512 → EReal)
    (hmid : ∀ (i : Fin 10000) (k : Fin 512), val_main_v51 (F := Ideal) x0 x1 x2 x5 (ix2 i k) = Hmid i k)
    (i : Fin 10000) (q : Fin 256) :
    val_main_v52 (F := Ideal) x0 x1 x2 x3 x5 (ix2 i q) = Cert.Spec.mm Hmid (W2 x3) i q := by
  rw [val_main_v52_apply]
  unfold Cert.Spec.mm
  refine Finset.sum_congr rfl fun k _ => ?_
  have hl : lidx_main_v52 (ix2 i q) k = ix2 i k := funext fun a => by
    match a with
    | ⟨0, _⟩ => rfl
    | ⟨1, _⟩ => rfl
  have hr : ridx_main_v52 (ix2 i q) k = ix2 k q := funext fun a => by
    match a with
    | ⟨0, _⟩ => rfl
    | ⟨1, _⟩ => rfl
  rw [hl, hr, hmid]

/-- The source column the rows are gathered by: under the range hypothesis the index normalisation changes nothing. -/
private theorem layer2_srccol2_apply (hin : Cert.Spec.InRange (EI x5)) (e : Fin 320000) :
    val_main_v83 (F := Ideal) x5 (ix2 e (0 : Fin 1)) = Cert.Spec.srcw (EI x5) e := by
  rw [val_main_v83_apply]
  have hi : idx_main_v83 (ix2 e (0 : Fin 1)) = ix1 e := funext fun a => by
    match a with
    | ⟨0, _⟩ => rfl
  rw [hi, val_main_v82_apply, val_main_v79_apply, val_main_v78_apply, val_main_c_19_apply, src2_apply,
    layer2_slt_zero_of_nonneg (Cert.Spec.srcw (EI x5) e) (hin 0 e).1]
  exact select_zero _ _

/-- The gathered rows: edge `e`'s row is the product's row at the edge's source node. -/
private theorem layer2_gath2_apply (hin : Cert.Spec.InRange (EI x5)) (e : Fin 320000) (q : Fin 256) :
    val_main_v84 (F := Ideal) x0 x1 x2 x3 x5 (ix2 e q)
      = val_main_v52 (F := Ideal) x0 x1 x2 x3 x5 (ix2 (Cert.Spec.node (Cert.Spec.srcw (EI x5) e)) q) := by
  unfold val_main_v84
  show Host.gather (Cert.LibRowGather.rowGatherDims 10000 256 320000 _) _ _ (ix2 e q) = _
  rw [Cert.LibRowGather.gather_rows_apply (by decide)]
  refine congrArg (val_main_v52 (F := Ideal) x0 x1 x2 x3 x5) ?_
  refine congrArg (fun r => ix2 r q) (Fin.ext ?_)
  show min (val_main_v83 (F := Ideal) x5 (ix2 e (0 : Fin 1))).toInt.toNat (10000 - 1)
    = min (Cert.Spec.srcw (EI x5) e).toInt.toNat 9999
  rw [layer2_srccol2_apply x5 hin e]

/-- The edge weight broadcast along the rows. -/
private theorem layer2_wcol2_apply (hin : Cert.Spec.InRange (EI x5)) (e : Fin 320000) (q : Fin 256) :
    val_main_v86 (F := Ideal) x5 (ix2 e q) = Cert.Spec.norm (EI x5) e := by
  rw [val_main_v86_apply, val_main_v85_apply]
  have hi : idx_main_v85 (idx_main_v86 (ix2 e q)) = ix1 e := funext fun a => by
    match a with
    | ⟨0, _⟩ => rfl
  rw [hi, norm2_apply x5 hin e]

/-- The weighted rows: edge `e`'s row is its source node's row of the product times the edge's weight. -/
private theorem layer2_wrow2_apply (hin : Cert.Spec.InRange (EI x5)) (Hmid : Fin 10000 → Fin 512 → EReal)
    (hmid : ∀ (i : Fin 10000) (k : Fin 512), val_main_v51 (F := Ideal) x0 x1 x2 x5 (ix2 i k) = Hmid i k)
    (e : Fin 320000) (q : Fin 256) :
    val_main_v87 (F := Ideal) x0 x1 x2 x3 x5 (ix2 e q)
      = Cert.Spec.mm Hmid (W2 x3) (Cert.Spec.node (Cert.Spec.srcw (EI x5) e)) q * Cert.Spec.norm (EI x5) e := by
  rw [val_main_v87_apply, layer2_gath2_apply x0 x1 x2 x3 x5 hin e q, layer2_mm2_apply x0 x1 x2 x3 x5 Hmid hmid, layer2_wcol2_apply x5 hin e q]
  rfl

/-- The destination column the rows are summed by. -/
private theorem layer2_dstcol2_apply (e : Fin 320000) :
    val_main_v89 (F := Ideal) x5 (ix2 e (0 : Fin 1)) = Cert.Spec.dstw (EI x5) e := by
  rw [val_main_v89_apply]
  have hi : idx_main_v89 (ix2 e (0 : Fin 1)) = ix1 e := funext fun a => by
    match a with
    | ⟨0, _⟩ => rfl
  rw [hi, dst2_apply]

/-- The rows summed into their destinations: node `i` receives the weighted rows of the edges that end at it. -/
private theorem layer2_sum2_apply (hin : Cert.Spec.InRange (EI x5)) (Hmid : Fin 10000 → Fin 512 → EReal)
    (hmid : ∀ (i : Fin 10000) (k : Fin 512), val_main_v51 (F := Ideal) x0 x1 x2 x5 (ix2 i k) = Hmid i k)
    (i : Fin 10000) (q : Fin 256) :
    val_main_v90 (F := Ideal) x0 x1 x2 x3 x5 (ix2 i q)
      = ∑ e ∈ Cert.Spec.into (EI x5) i.val,
          Cert.Spec.mm Hmid (W2 x3) (Cert.Spec.node (Cert.Spec.srcw (EI x5) e)) q * Cert.Spec.norm (EI x5) e := by
  unfold val_main_v90
  rw [Cert.LibScatterAdd.scatterAdd_rows_apply _ rfl rfl rfl rfl]
  have hz : val_main_v88 (F := Ideal) (ix2 i q) = 0 := by
    rw [val_main_v88_apply, val_main_cst_21_apply]
    exact Ideal.ofBits_zero_f32
  rw [hz, zero_add]
  unfold Cert.Spec.into
  refine Finset.sum_congr ?_ fun e _ => ?_
  · ext e
    simp only [Finset.mem_filter, Finset.mem_univ, true_and, layer2_dstcol2_apply]
  · exact layer2_wrow2_apply x0 x1 x2 x3 x5 hin Hmid hmid e q

/-- The self-loop factor broadcast along the rows: the node's factor squared. -/
private theorem layer2_self2_apply (i : Fin 10000) (q : Fin 256) :
    val_main_v93 (F := Ideal) x5 (ix2 i q) = Cert.Spec.dinv (EI x5) i.val * Cert.Spec.dinv (EI x5) i.val := by
  rw [val_main_v93_apply, val_main_v92_apply]
  have hi : idx_main_v92 (idx_main_v93 (ix2 i q)) = ix1 i := funext fun a => by
    match a with
    | ⟨0, _⟩ => rfl
  rw [hi, val_main_v91_apply, dinv2_apply]
  rfl

/-- The bias broadcast along the columns. -/
private theorem layer2_bias2_apply (i : Fin 10000) (q : Fin 256) :
    val_main_v97 (F := Ideal) x4 (ix2 i q) = B2 x4 q := by
  rw [val_main_v97_apply, val_main_v96_apply]
  have hi : idx_main_v96 (idx_main_v97 (ix2 i q)) = ix1 q := funext fun a => by
    match a with
    | ⟨0, _⟩ => rfl
  rw [hi]

/-- The second layer's output, element by element, over whatever the first layer's output is. -/
theorem ref_layer2 (hin : Cert.Spec.InRange (EI x5)) (Hmid : Fin 10000 → Fin 512 → EReal)
    (hmid : ∀ (i : Fin 10000) (k : Fin 512), val_main_v51 (F := Ideal) x0 x1 x2 x5 (ix2 i k) = Hmid i k)
    (i : Fin 10000) (q : Fin 256) :
    val_main_v99 (F := Ideal) x0 x1 x2 x3 x4 x5 (ix2 i q)
      = Cert.Spec.layer (EI x5) (Cert.Spec.mm Hmid (W2 x3)) (B2 x4) i q := by
  rw [val_main_v99_apply, val_main_v98_apply, val_main_v95_apply, val_main_v94_apply,
    layer2_sum2_apply x0 x1 x2 x3 x5 hin Hmid hmid i q, layer2_mm2_apply x0 x1 x2 x3 x5 Hmid hmid i q, layer2_self2_apply x5 i q,
    layer2_bias2_apply x4 i q, val_main_call3_v0_apply, val_main_call3_cst_apply]
  unfold Cert.Spec.layer
  simp only [Ideal.addf_def, Ideal.mulf_def, Ideal.maximumf_def, Ideal.ofBits_def, Ideal.ofBits_zero_f32]

end Cert.ReferenceIdeal.RefValue

end
-- ==== Proof.RefValue.lean ====
/-
  The reference's result array, element by element, is the specification's two-layer network: its first layer is the
  specification's layer of the features times the first weights, and its second layer the specification's layer of
  that output times the second weights.
-/
import proofs.«414742_j37082747634687_3_alg».proof.Proof.RefLayer1
import proofs.«414742_j37082747634687_3_alg».proof.Proof.RefLayer2

noncomputable section

open scoped BigOperators

namespace Cert.ReferenceIdeal.RefValue

open Cert.ReferenceIdeal Cert.ReferenceIdeal.Gen Cert.ReferenceIdeal.ReadP
open Idealize.ShloMosaic Idealize.ShloMosaic.ValueIdx

variable (x0 : (⟨S10000x256, .f32⟩ : BufTy).Contents (Elt Ideal)) (x1 : (⟨S256x512, .f32⟩ : BufTy).Contents (Elt Ideal))
  (x2 : (⟨S512, .f32⟩ : BufTy).Contents (Elt Ideal)) (x3 : (⟨S512x256, .f32⟩ : BufTy).Contents (Elt Ideal))
  (x4 : (⟨S256, .f32⟩ : BufTy).Contents (Elt Ideal)) (x5 : (⟨S2x320000, .i32⟩ : BufTy).Contents (Elt Ideal))

/-- The reference's result is the two-layer network of the specification. -/
theorem ref_apply (hin : Cert.Spec.InRange (EI x5)) (i : Fin 10000) (q : Fin 256) :
    val_main_v99 (F := Ideal) x0 x1 x2 x3 x4 x5 (ix2 i q)
      = Cert.Spec.gcn (EI x5) (X x0) (W1 x1) (B1 x2) (W2 x3) (B2 x4) i q := by
  unfold Cert.Spec.gcn
  exact ref_layer2 x0 x1 x2 x3 x4 x5 hin _ (fun i k => ref_layer1 x0 x1 x2 x5 hin i k) i q

end Cert.ReferenceIdeal.RefValue

end
-- ==== Proof.PreDecode.lean ====
/-
  What the precondition says about the edge table.  The precondition is a conjunction: five clauses say that the
  float inputs are finite, and the last that every entry of the edge table is at least 0 and below 10000, compared as
  signed numbers.  Only that last clause is opened here.
-/
import proofs.«414742_j37082747634687_3_alg».proof.Proof.Gen.Pre_finite_inputs
import proofs.«414742_j37082747634687_3_alg».proof.Proof.Spec
import Idealize.ShloMosaic.Lib.ReduceAll
import Idealize.ShloMosaic.Lib.StableHlo.Predicate

noncomputable section

namespace Cert.PreDecode

open Idealize.ShloMosaic Idealize.ShloMosaic.ValueIdx Cert.Pre_finite_inputs

/-- If the precondition holds of the inputs, every entry of the edge table names a node. -/
theorem inRange_of_pre (a0 : FVec Ideal S10000x256 .f32) (a1 : FVec Ideal S256x512 .f32) (a2 : FVec Ideal S512 .f32)
    (a3 : FVec Ideal S512x256 .f32) (a4 : FVec Ideal S256 .f32) (ei : IVec S2x320000 32)
    (h : Cert.Pre_finite_inputs.fn (F := Ideal) a0 a1 a2 a3 a4 ei = fun _ => 1#1) : Cert.Spec.InRange ei := by
  intro r e
  -- the scalar result at its one index
  have h0 := congrFun h ValueIdx.ix0
  dsimp only [fn, fn_part1] at h0
  -- the last conjunct: the reduction of the range test over the whole table
  have h1 := (IntOp.andi_eq_one.1 h0).2
  haveI : Subsingleton S_.Idx := ⟨fun a b => funext fun d => d.elim0⟩
  -- a reduction by "and" over all axes that is 1 met a 1 at every entry
  have h2 := Host.reduce_andi_all _ _ _ _ _ h1 (ix2 r e)
  obtain ⟨hge, hlt⟩ := IntOp.andi_eq_one.1 h2
  -- at the entry both comparisons are signed comparisons with a constant spread over the table
  have hge' : (0#32 : BitVec 32).toInt ≤ (ei (ix2 r e)).toInt := IntOp.cmpi_sge.1 hge
  have hlt' : (ei (ix2 r e)).toInt < (10000#32 : BitVec 32).toInt := IntOp.cmpi_slt.1 hlt
  rw [show (0#32 : BitVec 32).toInt = 0 from by decide] at hge'
  rw [show (10000#32 : BitVec 32).toInt = 10000 from by decide] at hlt'
  exact ⟨hge', hlt'⟩

end Cert.PreDecode

end
-- ==== Proof.lean ====
/-
  The kernel is a two-layer graph convolution on 10000 nodes and 320000 edges.  It rounds the node count up to 10240,
  builds on the host a dense 10240 × 10240 matrix A whose entry (i, j) is the sum of the normalised weights of the
  edges from j to i, with the squared normalisation factor of i added on the diagonal, and computes each layer as
  clip(A · (H · W) + b) in two matrix regions.  The reference never forms A: for every edge it gathers the source
  node's transformed features, scales them by the edge's weight, and sums them into the destination node; it adds the
  self-loop term and the bias, and clips.

  Over the extended reals the two are the same function of the inputs wherever every entry of the edge table names
  a node (the precondition's last clause; outside it the reference itself indexes out of range).  Row i of A against a
  column of features is, by distributing the column's entry over the NONNEGATIVE weights that make up A(i, j) and
  exchanging the two finite sums, the sum over the edges ending at i of weight times the source's feature, plus the
  diagonal term: exactly what the reference adds up.  No finiteness of the features is used: the weights are products
  of reciprocal square roots of positive degrees, never negative, and that is all the distribution needs.  Padding rows
  are never read back: a node's row of A has entries only in node columns.

  The three frames are the generated ones (the reference's is its generated run with the result dropped); nothing was
  rewritten by the idealisation, so there is nothing to preserve.
-/
import proofs.«414742_j37082747634687_3_alg».proof.Defs
import proofs.«414742_j37082747634687_3_alg».proof.Proof.Gen.Kernel
import proofs.«414742_j37082747634687_3_alg».proof.Proof.Gen.Kernel.Frame
import proofs.«414742_j37082747634687_3_alg».proof.Proof.Gen.KernelIdeal
import proofs.«414742_j37082747634687_3_alg».proof.Proof.Gen.KernelIdeal.Frame
import proofs.«414742_j37082747634687_3_alg».proof.Proof.Gen.ReferenceIdeal
import proofs.«414742_j37082747634687_3_alg».proof.Proof.Gen.Pre_finite_inputs
import proofs.«414742_j37082747634687_3_alg».proof.Proof.KernelRun
import proofs.«414742_j37082747634687_3_alg».proof.Proof.KValue
import proofs.«414742_j37082747634687_3_alg».proof.Proof.RefRun
import proofs.«414742_j37082747634687_3_alg».proof.Proof.RefValue
import proofs.«414742_j37082747634687_3_alg».proof.Proof.PreDecode
import Idealize.ShloMosaic.Adequacy
import Idealize.ShloMosaic.Init

noncomputable section

namespace Cert.Proof

open Idealize.ShloMosaic Idealize.ShloMosaic.ValueIdx Idealize.SL.Sem

/-- The word-level kernel runs and leaves its arguments as launched. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- And the reference: its run, with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealisation rewrote no operation. -/
theorem preserves : Cert.preserves_Kernel_KernelIdeal := trivial

/-- From memories that agree on the arguments, under the precondition, the two programs end with the same result,
    element by element: both are the specification's two-layer network of the arguments. -/
theorem algebraic : Cert.algebraic_KernelIdeal_ReferenceIdeal := by
  intro m ρ m' ρ' hpre hagree
  refine ⟨fun c => Cert.KernelIdeal.Gen.W12 m ρ c (Proc.devRef .tc Cert.KernelIdeal.main_v64),
    Cert.KernelIdeal.Run.run m ρ, ?_⟩
  refine (θ_run Cert.ReferenceIdeal.defs _ _).mono (fun _ h c => ⟨(h c).1.trans ?_, (h c).2⟩)
    (Cert.ReferenceIdeal.ValueP.run (F := Ideal) m' ρ')
  have hin : Cert.Spec.InRange (Cert.KernelIdeal.Val.argE m c) :=
    Cert.PreDecode.inRange_of_pre _ _ _ _ _ _ (hpre c)
  obtain ⟨h0, h1, h2, h3, h4, h5⟩ := hagree c
  rw [Cert.ReferenceIdeal.ReadP.val_main_v99_eq, h0, h1, h2, h3, h4, h5]
  funext idx
  obtain ⟨i, q, rfl⟩ : ∃ (i : Fin 10000) (q : Fin 256), idx = ix2 i q := ⟨idx 0, idx 1, eq_ix2 idx⟩
  exact (Cert.ReferenceIdeal.RefValue.ref_apply _ _ _ _ _ _ hin i q).trans
    (Cert.KernelIdeal.Val.result_apply m ρ c hin i q).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
